-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x4096 : Shape := ⟨2, ![16384, 4096]⟩
abbrev S256x256 : Shape := ⟨2, ![256, 256]⟩
abbrev S256x1 : Shape := ⟨2, ![256, 1]⟩
abbrev S_ : Shape := ⟨0, ![]⟩
abbrev S16384x1 : Shape := ⟨2, ![16384, 1]⟩
abbrev S4096 : Shape := ⟨1, ![4096]⟩
abbrev S1x4096 : Shape := ⟨2, ![1, 4096]⟩
abbrev S4096x16384 : Shape := ⟨2, ![4096, 16384]⟩
abbrev S4096x256 : Shape := ⟨2, ![4096, 256]⟩
abbrev S4096x1 : Shape := ⟨2, ![4096, 1]⟩
abbrev S16384 : Shape := ⟨1, ![16384]⟩

class Facts : Prop where
  bcast_S_S16384x256 : S_.BroadcastsInDim S16384x256 (![] : Fin 0 → Fin S16384x256.rank)
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  reducesTo_S16384x4096_S4096_d0 : S16384x4096.ReducesTo [0] S4096
  h_S_ : 0 < S_.numel
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  transposes_S16384x4096_S4096x16384_1_0 : S16384x4096.Transposes [1, 0] S4096x16384
  bcast_S_S4096x256 : S_.BroadcastsInDim S4096x256 (![] : Fin 0 → Fin S4096x256.rank)
  transposes_S4096x1_S1x4096_1_0 : S4096x1.Transposes [1, 0] S1x4096
  bcast_S_S16384x4096 : S_.BroadcastsInDim S16384x4096 (![] : Fin 0 → Fin S16384x4096.rank)
  reducesTo_S16384x4096_S16384_d1 : S16384x4096.ReducesTo [1] S16384
  bcast_S16384_S16384x1_0 : S16384.BroadcastsInDim S16384x1 (![0] : Fin 1 → Fin S16384x1.rank)
  reducesTo_S16384x256_S_d0_1 : S16384x256.ReducesTo [0, 1] S_
  reducesTo_S16384x4096_S_d0_1 : S16384x4096.ReducesTo [0, 1] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1x4096 : S_.BroadcastsInDim S1x4096 (![] : Fin 0 → Fin S1x4096.rank)
  reducesTo_S1x4096_S_d0_1 : S1x4096.ReducesTo [0, 1] S_
  reducesTo_S16384x1_S_d0_1 : S16384x1.ReducesTo [0, 1] S_
  dot_S16384x256_S256x256_S16384x256_1_0_0_1_n_n_wf : DotDims.WF S16384x256 S256x256 S16384x256 [1] [0] [0] [1] [] []
  dot_S16384x256_S256x1_S16384x1_1_0_0_1_n_n_wf : DotDims.WF S16384x256 S256x1 S16384x1 [1] [0] [0] [1] [] []
  dot_S4096x16384_S16384x256_S4096x256_1_0_0_1_n_n_wf : DotDims.WF S4096x16384 S16384x256 S4096x256 [1] [0] [0] [1] [] []
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []

variable [Facts]

def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf
def dot_S4096x16384_S16384x256_S4096x256_1_0_0_1_n_n : DotDims S4096x16384 S16384x256 S4096x256 where
  lhsContracting := [1]
  rhsContracting := [0]
  lhsNonContracting := [0]
  rhsNonContracting := [1]
  lhsBatch := []
  rhsBatch := []
  wf := dot_S4096x16384_S16384x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def fn_part5 {F : FTy → Type} [FloatOps F] (main_v51 : FVec F S16384x1 .f32) (main_v89 : IVec S_ 1) : IVec S_ 1 :=
  let main_cst_28 : FVec F S_ .f32 := constant S_ .f32 0x00000000#32
  let main_v90 : FVec F S16384x1 .f32 := broadcastInDim S16384x1 ![] bcast_S_S16384x1 main_cst_28
  let main_v91 : IVec S16384x1 1 := cmpf .une main_v51 main_v90
  let main_c_29 : IVec S_ 1 := constantI S_ 1 1#1
  let main_v92 : IVec S_ 1 := (fun x v => Host.reduce IntOp.andi x v reducesTo_S16384x1_S_d0_1 h_S_) main_v91 main_c_29
  let main_v93 : IVec S_ 1 := andi main_v89 main_v92
  main_v93

def fn_part4 {F : FTy → Type} [FloatOps F] (main_arg5 : FVec F S256x1 .f32) (main_arg6 : FVec F S256x1 .f32) (main_v16 : FVec F S1x4096 .f32) (main_v51 : FVec F S16384x1 .f32) (main_v70 : IVec S_ 1) (main_v71 : FVec F S256x1 .f32) (main_v72 : FVec F S256x1 .f32) : IVec S_ 1 :=
  let main_v73 : IVec S256x1 1 := cmpf .olt main_v71 main_v72
  let main_c_21 : IVec S_ 1 := constantI S_ 1 1#1
  let main_v74 : IVec S_ 1 := (fun x v => Host.reduce IntOp.andi x v reducesTo_S256x1_S_d0_1 h_S_) main_v73 main_c_21
  let main_v75 : IVec S_ 1 := andi main_v70 main_v74
  let main_v76 : FVec F S256x1 .f32 := Host.absf main_arg5
  let main_cst_22 : FVec F S_ .f32 := constant S_ .f32 0x7F800000#32
  let main_v77 : FVec F S256x1 .f32 := broadcastInDim S256x1 ![] bcast_S_S256x1 main_cst_22
  let main_v78 : IVec S256x1 1 := cmpf .olt main_v76 main_v77
  let main_c_23 : IVec S_ 1 := constantI S_ 1 1#1
  let main_v79 : IVec S_ 1 := (fun x v => Host.reduce IntOp.andi x v reducesTo_S256x1_S_d0_1 h_S_) main_v78 main_c_23
  let main_v80 : IVec S_ 1 := andi main_v75 main_v79
  let main_v81 : FVec F S256x1 .f32 := Host.absf main_arg6
  let main_cst_24 : FVec F S_ .f32 := constant S_ .f32 0x7F800000#32
  let main_v82 : FVec F S256x1 .f32 := broadcastInDim S256x1 ![] bcast_S_S256x1 main_cst_24
  let main_v83 : IVec S256x1 1 := cmpf .olt main_v81 main_v82
  let main_c_25 : IVec S_ 1 := constantI S_ 1 1#1
  let main_v84 : IVec S_ 1 := (fun x v => Host.reduce IntOp.andi x v reducesTo_S256x1_S_d0_1 h_S_) main_v83 main_c_25
  let main_v85 : IVec S_ 1 := andi main_v80 main_v84
  let main_cst_26 : FVec F S_ .f32 := constant S_ .f32 0x00000000#32
  let main_v86 : FVec F S1x4096 .f32 := broadcastInDim S1x4096 ![] bcast_S_S1x4096 main_cst_26
  let main_v87 : IVec S1x4096 1 := cmpf .une main_v16 main_v86
  let main_c_27 : IVec S_ 1 := constantI S_ 1 1#1
  let main_v88 : IVec S_ 1 := (fun x v => Host.reduce IntOp.andi x v reducesTo_S1x4096_S_d0_1 h_S_) main_v87 main_c_27
  let main_v89 : IVec S_ 1 := andi main_v85 main_v88
  fn_part5 (F := F) main_v51 main_v89

def fn_part3 {F : FTy → Type} [FloatOps F] (main_arg1 : FVec F S16384x4096 .f32) (main_arg2 : FVec F S256x256 .f32) (main_arg3 : FVec F S256x256 .f32) (main_arg4 : FVec F S256x1 .f32) (main_arg5 : FVec F S256x1 .f32) (main_arg6 : FVec F S256x1 .f32) (main_v16 : FVec F S1x4096 .f32) (main_v51 : FVec F S16384x1 .f32) (main_v55 : IVec S_ 1) : IVec S_ 1 :=
  let main_v56 : FVec F S16384x4096 .f32 := Host.absf main_arg1
  let main_cst_14 : FVec F S_ .f32 := constant S_ .f32 0x7F800000#32
  let main_v57 : FVec F S16384x4096 .f32 := broadcastInDim S16384x4096 ![] bcast_S_S16384x4096 main_cst_14
  let main_v58 : IVec S16384x4096 1 := cmpf .olt main_v56 main_v57
  let main_c_15 : IVec S_ 1 := constantI S_ 1 1#1
  let main_v59 : IVec S_ 1 := (fun x v => Host.reduce IntOp.andi x v reducesTo_S16384x4096_S_d0_1 h_S_) main_v58 main_c_15
  let main_v60 : IVec S_ 1 := andi main_v55 main_v59
  let main_v61 : FVec F S256x256 .f32 := Host.absf main_arg2
  let main_cst_16 : FVec F S_ .f32 := constant S_ .f32 0x7F800000#32
  let main_v62 : FVec F S256x256 .f32 := broadcastInDim S256x256 ![] bcast_S_S256x256 main_cst_16
  let main_v63 : IVec S256x256 1 := cmpf .olt main_v61 main_v62
  let main_c_17 : IVec S_ 1 := constantI S_ 1 1#1
  let main_v64 : IVec S_ 1 := (fun x v => Host.reduce IntOp.andi x v reducesTo_S256x256_S_d0_1 h_S_) main_v63 main_c_17
  let main_v65 : IVec S_ 1 := andi main_v60 main_v64
  let main_v66 : FVec F S256x256 .f32 := Host.absf main_arg3
  let main_cst_18 : FVec F S_ .f32 := constant S_ .f32 0x7F800000#32
  let main_v67 : FVec F S256x256 .f32 := broadcastInDim S256x256 ![] bcast_S_S256x256 main_cst_18
  let main_v68 : IVec S256x256 1 := cmpf .olt main_v66 main_v67
  let main_c_19 : IVec S_ 1 := constantI S_ 1 1#1
  let main_v69 : IVec S_ 1 := (fun x v => Host.reduce IntOp.andi x v reducesTo_S256x256_S_d0_1 h_S_) main_v68 main_c_19
  let main_v70 : IVec S_ 1 := andi main_v65 main_v69
  let main_v71 : FVec F S256x1 .f32 := Host.absf main_arg4
  let main_cst_20 : FVec F S_ .f32 := constant S_ .f32 0x7F800000#32
  let main_v72 : FVec F S256x1 .f32 := broadcastInDim S256x1 ![] bcast_S_S256x1 main_cst_20
  fn_part4 (F := F) main_arg5 main_arg6 main_v16 main_v51 main_v70 main_v71 main_v72

def fn_part2 {F : FTy → Type} [FloatOps F] (main_arg0 : FVec F S16384x256 .f32) (main_arg1 : FVec F S16384x4096 .f32) (main_arg2 : FVec F S256x256 .f32) (main_arg3 : FVec F S256x256 .f32) (main_arg4 : FVec F S256x1 .f32) (main_arg5 : FVec F S256x1 .f32) (main_arg6 : FVec F S256x1 .f32) (main_v0 : FVec F S16384x256 .f32) (main_v16 : FVec F S1x4096 .f32) (main_v33 : FVec F S1x4096 .f32) (main_v35 : IVec S16384x256 1) (main_v36 : FVec F S16384x256 .f32) : IVec S_ 1 :=
  let main_v37 : FVec F S16384x256 .f32 := mulf main_v36 main_v0
  let main_v38 : FVec F S16384x256 .f32 := select main_v35 main_v0 main_v37
  let main_v39 : FVec F S16384x1 .f32 := (fun l r => Host.dotGeneral dot_S16384x256_S256x1_S16384x1_1_0_0_1_n_n none l r) main_v38 main_arg6
  let main_v40 : FVec F S16384x4096 .f32 := broadcastInDim S16384x4096 ![0, 1] bcast_S1x4096_S16384x4096_0_1 main_v33
  let main_v41 : FVec F S16384x4096 .f32 := broadcastInDim S16384x4096 ![0, 1] bcast_S16384x1_S16384x4096_0_1 main_v39
  let main_v42 : FVec F S16384x4096 .f32 := addf main_v40 main_v41
  let main_cst_10 : FVec F S_ .f32 := constant S_ .f32 0x41000000#32
  let main_v43 : FVec F S16384x4096 .f32 := broadcastInDim S16384x4096 ![] bcast_S_S16384x4096 main_cst_10
  let main_v44 : FVec F S16384x4096 .f32 := Host.divf main_v42 main_v43
  let main_v45 : FVec F S16384x4096 .f32 := Host.tanh main_v44
  let main_cst_11 : FVec F S_ .f32 := constant S_ .f32 0x41000000#32
  let main_v46 : FVec F S16384x4096 .f32 := broadcastInDim S16384x4096 ![] bcast_S_S16384x4096 main_cst_11
  let main_v47 : FVec F S16384x4096 .f32 := mulf main_v45 main_v46
  let main_v48 : FVec F S16384x4096 .f32 := Host.exp main_v47
  let main_v49 : FVec F S16384x4096 .f32 := mulf main_v48 main_arg1
  let main_cst_12 : FVec F S_ .f32 := constant S_ .f32 0x00000000#32
  let main_v50 : FVec F S16384 .f32 := (fun x v => Host.reduceAdd x v reducesTo_S16384x4096_S16384_d1 h_S_) main_v49 main_cst_12
  let main_v51 : FVec F S16384x1 .f32 := broadcastInDim S16384x1 ![0] bcast_S16384_S16384x1_0 main_v50
  let main_v52 : FVec F S16384x256 .f32 := Host.absf main_arg0
  let main_cst_13 : FVec F S_ .f32 := constant S_ .f32 0x7F800000#32
  let main_v53 : FVec F S16384x256 .f32 := broadcastInDim S16384x256 ![] bcast_S_S16384x256 main_cst_13
  let main_v54 : IVec S16384x256 1 := cmpf .olt main_v52 main_v53
  let main_c : IVec S_ 1 := constantI S_ 1 1#1
  let main_v55 : IVec S_ 1 := (fun x v => Host.reduce IntOp.andi x v reducesTo_S16384x256_S_d0_1 h_S_) main_v54 main_c
  fn_part3 (F := F) main_arg1 main_arg2 main_arg3 main_arg4 main_arg5 main_arg6 main_v16 main_v51 main_v55

def fn_part1 {F : FTy → Type} [FloatOps F] (main_arg0 : FVec F S16384x256 .f32) (main_arg1 : FVec F S16384x4096 .f32) (main_arg2 : FVec F S256x256 .f32) (main_arg3 : FVec F S256x256 .f32) (main_arg4 : FVec F S256x1 .f32) (main_arg5 : FVec F S256x1 .f32) (main_arg6 : FVec F S256x1 .f32) (main_v0 : FVec F S16384x256 .f32) (main_v16 : FVec F S1x4096 .f32) (main_v18 : FVec F S16384x4096 .f32) : IVec S_ 1 :=
  let main_v19 : FVec F S4096x16384 .f32 := (transpose S4096x16384 [1, 0] · transposes_S16384x4096_S4096x16384_1_0) main_v18
  let main_v20 : FVec F S4096x256 .f32 := (fun l r => Host.dotGeneral dot_S4096x16384_S16384x256_S4096x256_1_0_0_1_n_n none l r) main_v19 main_v0
  let main_cst_4 : FVec F S_ .f32 := constant S_ .f32 0x00000000#32
  let main_v21 : FVec F S4096x256 .f32 := broadcastInDim S4096x256 ![] bcast_S_S4096x256 main_cst_4
  let main_v22 : IVec S4096x256 1 := cmpf .ogt main_v20 main_v21
  let main_cst_5 : FVec F S_ .f32 := constant S_ .f32 0x3DCCCCCD#32
  let main_v23 : FVec F S4096x256 .f32 := broadcastInDim S4096x256 ![] bcast_S_S4096x256 main_cst_5
  let main_v24 : FVec F S4096x256 .f32 := mulf main_v23 main_v20
  let main_v25 : FVec F S4096x256 .f32 := select main_v22 main_v20 main_v24
  let main_v26 : FVec F S4096x256 .f32 := (fun l r => Host.dotGeneral dot_S4096x256_S256x256_S4096x256_1_0_0_1_n_n none l r) main_v25 main_arg3
  let main_cst_6 : FVec F S_ .f32 := constant S_ .f32 0x00000000#32
  let main_v27 : FVec F S4096x256 .f32 := broadcastInDim S4096x256 ![] bcast_S_S4096x256 main_cst_6
  let main_v28 : IVec S4096x256 1 := cmpf .ogt main_v26 main_v27
  let main_cst_7 : FVec F S_ .f32 := constant S_ .f32 0x3DCCCCCD#32
  let main_v29 : FVec F S4096x256 .f32 := broadcastInDim S4096x256 ![] bcast_S_S4096x256 main_cst_7
  let main_v30 : FVec F S4096x256 .f32 := mulf main_v29 main_v26
  let main_v31 : FVec F S4096x256 .f32 := select main_v28 main_v26 main_v30
  let main_v32 : FVec F S4096x1 .f32 := (fun l r => Host.dotGeneral dot_S4096x256_S256x1_S4096x1_1_0_0_1_n_n none l r) main_v31 main_arg5
  let main_v33 : FVec F S1x4096 .f32 := (transpose S1x4096 [1, 0] · transposes_S4096x1_S1x4096_1_0) main_v32
  let main_cst_8 : FVec F S_ .f32 := constant S_ .f32 0x00000000#32
  let main_v34 : FVec F S16384x256 .f32 := broadcastInDim S16384x256 ![] bcast_S_S16384x256 main_cst_8
  let main_v35 : IVec S16384x256 1 := cmpf .ogt main_v0 main_v34
  let main_cst_9 : FVec F S_ .f32 := constant S_ .f32 0x3DCCCCCD#32
  let main_v36 : FVec F S16384x256 .f32 := broadcastInDim S16384x256 ![] bcast_S_S16384x256 main_cst_9
  fn_part2 (F := F) main_arg0 main_arg1 main_arg2 main_arg3 main_arg4 main_arg5 main_arg6 main_v0 main_v16 main_v33 main_v35 main_v36

def fn {F : FTy → Type} [FloatOps F] (main_arg0 : FVec F S16384x256 .f32) (main_arg1 : FVec F S16384x4096 .f32) (main_arg2 : FVec F S256x256 .f32) (main_arg3 : FVec F S256x256 .f32) (main_arg4 : FVec F S256x1 .f32) (main_arg5 : FVec F S256x1 .f32) (main_arg6 : FVec F S256x1 .f32) : IVec S_ 1 :=
  let main_v0 : FVec F S16384x256 .f32 := (fun l r => Host.dotGeneral dot_S16384x256_S256x256_S16384x256_1_0_0_1_n_n none l r) main_arg0 main_arg2
  let main_cst : FVec F S_ .f32 := constant S_ .f32 0x00000000#32
  let main_v1 : FVec F S16384x256 .f32 := broadcastInDim S16384x256 ![] bcast_S_S16384x256 main_cst
  let main_v2 : IVec S16384x256 1 := cmpf .ogt main_v0 main_v1
  let main_cst_0 : FVec F S_ .f32 := constant S_ .f32 0x3DCCCCCD#32
  let main_v3 : FVec F S16384x256 .f32 := broadcastInDim S16384x256 ![] bcast_S_S16384x256 main_cst_0
  let main_v4 : FVec F S16384x256 .f32 := mulf main_v3 main_v0
  let main_v5 : FVec F S16384x256 .f32 := select main_v2 main_v0 main_v4
  let main_v6 : FVec F S16384x1 .f32 := (fun l r => Host.dotGeneral dot_S16384x256_S256x1_S16384x1_1_0_0_1_n_n none l r) main_v5 main_arg4
  let main_cst_1 : FVec F S_ .f32 := constant S_ .f32 0x41000000#32
  let main_v7 : FVec F S16384x1 .f32 := broadcastInDim S16384x1 ![] bcast_S_S16384x1 main_cst_1
  let main_v8 : FVec F S16384x1 .f32 := Host.divf main_v6 main_v7
  let main_v9 : FVec F S16384x1 .f32 := Host.tanh main_v8
  let main_cst_2 : FVec F S_ .f32 := constant S_ .f32 0x41000000#32
  let main_v10 : FVec F S16384x1 .f32 := broadcastInDim S16384x1 ![] bcast_S_S16384x1 main_cst_2
  let main_v11 : FVec F S16384x1 .f32 := mulf main_v9 main_v10
  let main_v12 : FVec F S16384x1 .f32 := Host.exp main_v11
  let main_v13 : FVec F S16384x4096 .f32 := broadcastInDim S16384x4096 ![0, 1] bcast_S16384x1_S16384x4096_0_1 main_v12
  let main_v14 : FVec F S16384x4096 .f32 := mulf main_v13 main_arg1
  let main_cst_3 : FVec F S_ .f32 := constant S_ .f32 0x00000000#32
  let main_v15 : FVec F S4096 .f32 := (fun x v => Host.reduceAdd x v reducesTo_S16384x4096_S4096_d0 h_S_) main_v14 main_cst_3
  let main_v16 : FVec F S1x4096 .f32 := broadcastInDim S1x4096 ![1] bcast_S4096_S1x4096_1 main_v15
  let main_v17 : FVec F S16384x4096 .f32 := broadcastInDim S16384x4096 ![0, 1] bcast_S1x4096_S16384x4096_0_1 main_v16
  let main_v18 : FVec F S16384x4096 .f32 := Host.divf main_v14 main_v17
  fn_part1 (F := F) main_arg0 main_arg1 main_arg2 main_arg3 main_arg4 main_arg5 main_arg6 main_v0 main_v16 main_v18
-- ==== Kernel.lean ====
abbrev S16384x256 : Shape := ⟨2, ![16384, 256]⟩
abbrev S16384x4096 : Shape := ⟨2, ![16384, 4096]⟩
abbrev S256x256 : Shape := ⟨2, ![256, 256]⟩
abbrev S256x1 : Shape := ⟨2, ![256, 1]⟩
abbrev S1x256 : Shape := ⟨2, ![1, 256]⟩
abbrev S16384x1 : Shape := ⟨2, ![16384, 1]⟩
abbrev S2048x256 : Shape := ⟨2, ![2048, 256]⟩
abbrev S2048x1 : Shape := ⟨2, ![2048, 1]⟩
abbrev S2048 : Shape := ⟨1, ![2048]⟩
abbrev S4096x256 : Shape := ⟨2, ![4096, 256]⟩
abbrev S1x4096 : Shape := ⟨2, ![1, 4096]⟩
abbrev S512x2048 : Shape := ⟨2, ![512, 2048]⟩
abbrev S512x256 : Shape := ⟨2, ![512, 256]⟩
abbrev S512x1 : Shape := ⟨2, ![512, 1]⟩
abbrev S1x2048 : Shape := ⟨2, ![1, 2048]⟩
abbrev S256x4096 : Shape := ⟨2, ![256, 4096]⟩
abbrev S256 : Shape := ⟨1, ![256]⟩

abbrev nBuf : Space → Nat
  | .hbm => 15
  | .vmem => 33
  | .smem => 0
  | _ => 0

abbrev bufTy : (tb : Table) → Fin (tcTables nBuf tb) → BufTy
  | .hbm, ⟨0, _⟩ => ⟨S16384x256, .f32⟩
  | .hbm, ⟨1, _⟩ => ⟨S16384x4096, .f32⟩
  | .hbm, ⟨2, _⟩ => ⟨S256x256, .f32⟩
  | .hbm, ⟨3, _⟩ => ⟨S256x256, .f32⟩
  | .hbm, ⟨4, _⟩ => ⟨S256x1, .f32⟩
  | .hbm, ⟨5, _⟩ => ⟨S256x1, .f32⟩
  | .hbm, ⟨6, _⟩ => ⟨S256x1, .f32⟩
  | .hbm, ⟨7, _⟩ => ⟨S1x256, .f32⟩
  | .hbm, ⟨8, _⟩ => ⟨S1x256, .f32⟩
  | .hbm, ⟨9, _⟩ => ⟨S16384x256, .bf16⟩
  | .hbm, ⟨10, _⟩ => ⟨S16384x1, .f32⟩
  | .hbm, ⟨11, _⟩ => ⟨S16384x1, .f32⟩
  | .hbm, ⟨12, _⟩ => ⟨S4096x256, .bf16⟩
  | .hbm, ⟨13, _⟩ => ⟨S1x4096, .f32⟩
  | .hbm, ⟨14, _⟩ => ⟨S16384x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S1x256, .f32⟩
  | .local _ .vmem, ⟨4, _⟩ => ⟨S1x256, .f32⟩
  | .local _ .vmem, ⟨5, _⟩ => ⟨S2048x256, .bf16⟩
  | .local _ .vmem, ⟨6, _⟩ => ⟨S2048x256, .bf16⟩
  | .local _ .vmem, ⟨7, _⟩ => ⟨S2048x1, .f32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S512x2048, .f32⟩
  | .local _ .vmem, ⟨12, _⟩ => ⟨S512x2048, .f32⟩
  | .local _ .vmem, ⟨13, _⟩ => ⟨S512x256, .bf16⟩
  | .local _ .vmem, ⟨14, _⟩ => ⟨S512x256, .bf16⟩
  | .local _ .vmem, ⟨15, _⟩ => ⟨S512x1, .f32⟩
  | .local _ .vmem, ⟨16, _⟩ => ⟨S512x1, .f32⟩
  | .local _ .vmem, ⟨17, _⟩ => ⟨S256x256, .f32⟩
  | .local _ .vmem, ⟨18, _⟩ => ⟨S256x1, .f32⟩
  | .local _ .vmem, ⟨19, _⟩ => ⟨S2048x256, .bf16⟩
  | .local _ .vmem, ⟨20, _⟩ => ⟨S2048x256, .bf16⟩
  | .local _ .vmem, ⟨21, _⟩ => ⟨S1x2048, .f32⟩
  | .local _ .vmem, ⟨22, _⟩ => ⟨S1x2048, .f32⟩
  | .local _ .vmem, ⟨23, _⟩ => ⟨S2048x256, .f32⟩
  | .local _ .vmem, ⟨24, _⟩ => ⟨S2048x1, .f32⟩
  | .local _ .vmem, ⟨25, _⟩ => ⟨S256x4096, .f32⟩
  | .local _ .vmem, ⟨26, _⟩ => ⟨S256x4096, .f32⟩
  | .local _ .vmem, ⟨27, _⟩ => ⟨S256x1, .f32⟩
  | .local _ .vmem, ⟨28, _⟩ => ⟨S256x1, .f32⟩
  | .local _ .vmem, ⟨29, _⟩ => ⟨S4096x256, .bf16⟩
  | .local _ .vmem, ⟨30, _⟩ => ⟨S1x4096, .f32⟩
  | .local _ .vmem, ⟨31, _⟩ => ⟨S256x256, .f32⟩
  | .local _ .vmem, ⟨32, _⟩ => ⟨S256x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v3_0 : Ref sig .tc := ⟨.hbm, 12, rfl⟩
abbrev main_v3_1 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_scratch0 : Ref sig .tc := ⟨.vmem, 23, rfl⟩
abbrev cc1_scratch1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg4_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem6_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem4_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![2, 32], ![false, false]⟩

def k1_cond2 (i : grid1.Coords) : BitVec 1 :=
  let arg1 : BitVec 32 := BitVec.ofNat 32 (i 1).val
  let c31_i32 : BitVec 32 := 31#32
  let v31 : BitVec 1 := Scalar.cmpi .eq arg1 c31_i32
  let v32 : BitVec 32 := Scalar.extui v31
  let c0_i32_18 : BitVec 32 := 0#32
  let v33 : BitVec 1 := Scalar.cmpi .ne v32 c0_i32_18
  v33

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S2048x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4096x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  shapeCasts_S256x1_S1x256 : S256x1.ShapeCasts S1x256
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  reduces_S2048x256_S2048 : S2048x256.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  packedbf16_S2048x256_S2048x256_0_0 : (Rect.unit (s := S2048x256) ![0, 0] S2048x256.size inb_S2048x256_S2048x256_0_0).PackedRows (EltTy.packing .bf16)
  shapeCasts_S2048x256_S2048x256 : S2048x256.ShapeCasts S2048x256
  shapeCasts_S2048x1_S2048x1 : S2048x1.ShapeCasts S2048x1
  inb_S512x2048_S512x2048_0_0 : ∀ a, (![0, 0] : Fin 2 → Nat) a + S512x2048.size a ≤ S512x2048.size a
  h_S512x2048 : 0 < S512x2048.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  inb_S512x256_S512x256_0_0 : ∀ a, (![0, 0] : Fin 2 → Nat) a + S512x256.size a ≤ S512x256.size a
  h_S512x256 : 0 < S512x256.numel
  shapeCasts_S512x256_S512x256 : S512x256.ShapeCasts S512x256
  broadcasts_S2048x1_S2048x256 : S2048x1.Broadcasts S2048x256
  inb_S256x1_S256x1_0_0 : ∀ a, (![0, 0] : Fin 2 → Nat) a + S256x1.size a ≤ S256x1.size a
  h_S256x1 : 0 < S256x1.numel
  inb_S1x2048_S1x2048_0_0 : ∀ a, (![0, 0] : Fin 2 → Nat) a + S1x2048.size a ≤ S1x2048.size a
  h_S1x2048 : 0 < S1x2048.numel
  inb_S256x4096_S256x4096_0_0 : ∀ a, (![0, 0] : Fin 2 → Nat) a + S256x4096.size a ≤ S256x4096.size a
  h_S256x4096 : 0 < S256x4096.numel
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  broadcasts_S256x1_S256x4096 : S256x1.Broadcasts S256x4096
  reduces_S256x4096_S256 : S256x4096.Reduces [1] S256
  shapeCasts_S256_S256x1 : S256.ShapeCasts S256x1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  broadcasts_S256x1_S256x256 : S256x1.Broadcasts S256x256
  dot_S2048x256_S256x256_S2048x256_1_0_0_1_n_n_wf : DotDims.WF S2048x256 S256x256 S2048x256 [1] [0] [0] [1] [] []
  dot_S512x2048_S512x256_S2048x256_0_0_1_1_n_n_wf : DotDims.WF S512x2048 S512x256 S2048x256 [0] [0] [1] [1] [] []
  dot_S512x2048_S512x1_S2048x1_0_0_1_1_n_n_wf : DotDims.WF S512x2048 S512x1 S2048x1 [0] [0] [1] [1] [] []
  dot_S256x1_S2048x256_S1x2048_0_1_1_0_n_n_wf : DotDims.WF S256x1 S2048x256 S1x2048 [0] [1] [1] [0] [] []
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S16384x256.size a
  hwx0_4 : ∀ i : grid0.Coords, EltTy.bits .bf16 = 32 ∨ (Rect.block (s := S16384x256) S2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S16384x1.size a
  hwx0_5 : ∀ i : grid0.Coords, EltTy.bits .f32 = 32 ∨ (Rect.block (s := S16384x1) S2048x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x1.size a ≤ S16384x1.size a
  hwx0_6 : ∀ i : grid0.Coords, EltTy.bits .f32 = 32 ∨ (Rect.block (s := S16384x1) S2048x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x4096.size a
  hwx1_0 : ∀ i : grid1.Coords, EltTy.bits .f32 = 32 ∨ (Rect.block (s := S16384x4096) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S16384x256.size a
  hwx1_1 : ∀ i : grid1.Coords, EltTy.bits .bf16 = 32 ∨ (Rect.block (s := S16384x256) S512x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S16384x1.size a
  hwx1_2 : ∀ i : grid1.Coords, EltTy.bits .f32 = 32 ∨ (Rect.block (s := S16384x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S256x1.size a
  hwx1_4 : ∀ i : grid1.Coords, EltTy.bits .f32 = 32 ∨ (Rect.block (s := S256x1) S256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x256.size a ≤ S4096x256.size a
  hwx1_5 : ∀ i : grid1.Coords, EltTy.bits .bf16 = 32 ∨ (Rect.block (s := S4096x256) S2048x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x2048.size a ≤ S1x4096.size a
  hwx1_6 : ∀ i : grid1.Coords, EltTy.bits .f32 = 32 ∨ (Rect.block (s := S1x4096) S1x2048.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S16384x4096.size a
  hwx2_0 : ∀ i : grid2.Coords, EltTy.bits .f32 = 32 ∨ (Rect.block (s := S16384x4096) S256x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1.size a ≤ S16384x1.size a
  hwx2_1 : ∀ i : grid2.Coords, EltTy.bits .f32 = 32 ∨ (Rect.block (s := S16384x1) S256x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x256.size a ≤ S4096x256.size a
  hwx2_2 : ∀ i : grid2.Coords, EltTy.bits .bf16 = 32 ∨ (Rect.block (s := S4096x256) S4096x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x4096.size a ≤ S1x4096.size a
  hwx2_3 : ∀ i : grid2.Coords, EltTy.bits .f32 = 32 ∨ (Rect.block (s := S1x4096) S1x4096.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S16384x256.size a
  hwx2_4 : ∀ i : grid2.Coords, EltTy.bits .f32 = 32 ∨ (Rect.block (s := S16384x256) S256x256.size (cc2_transform_4 i) (hinb2_4 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S512x2048_S512x256_S2048x256_0_0_1_1_n_n : DotDims S512x2048 S512x256 S2048x256 where
  lhsContracting := [0]
  rhsContracting := [0]
  lhsNonContracting := [1]
  rhsNonContracting := [1]
  lhsBatch := []
  rhsBatch := []
  wf := dot_S512x2048_S512x256_S2048x256_0_0_1_1_n_n_wf
def dot_S512x2048_S512x1_S2048x1_0_0_1_1_n_n : DotDims S512x2048 S512x1 S2048x1 where
  lhsContracting := [0]
  rhsContracting := [0]
  lhsNonContracting := [1]
  rhsNonContracting := [1]
  lhsBatch := []
  rhsBatch := []
  wf := dot_S512x2048_S512x1_S2048x1_0_0_1_1_n_n_wf
def dot_S256x1_S2048x256_S1x2048_0_1_1_0_n_n : DotDims S256x1 S2048x256 S1x2048 where
  lhsContracting := [0]
  rhsContracting := [1]
  lhsNonContracting := [1]
  rhsNonContracting := [0]
  lhsBatch := []
  rhsBatch := []
  wf := dot_S256x1_S2048x256_S1x2048_0_1_1_0_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S2048x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S2048x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2_2) S2048x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S256x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3_0) S2048x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_1) S1x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_arg1) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_2) S256x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3_0) S4096x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3_1) S1x4096.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v4) S256x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S16384x256 : Shape := ⟨2, ![16384, 256]⟩
abbrev S16384x4096 : Shape := ⟨2, ![16384, 4096]⟩
abbrev S256x256 : Shape := ⟨2, ![256, 256]⟩
abbrev S256x1 : Shape := ⟨2, ![256, 1]⟩
abbrev S_ : Shape := ⟨0, ![]⟩
abbrev S16384x1 : Shape := ⟨2, ![16384, 1]⟩
abbrev S4096 : Shape := ⟨1, ![4096]⟩
abbrev S1x4096 : Shape := ⟨2, ![1, 4096]⟩
abbrev S4096x16384 : Shape := ⟨2, ![4096, 16384]⟩
abbrev S4096x256 : Shape := ⟨2, ![4096, 256]⟩
abbrev S4096x1 : Shape := ⟨2, ![4096, 1]⟩
abbrev S16384 : Shape := ⟨1, ![16384]⟩

abbrev nBuf : Space → Nat
  | .hbm => 84
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x4096, .f32⟩
  | .hbm, ⟨2, _⟩ => ⟨S256x256, .f32⟩
  | .hbm, ⟨3, _⟩ => ⟨S256x256, .f32⟩
  | .hbm, ⟨4, _⟩ => ⟨S256x1, .f32⟩
  | .hbm, ⟨5, _⟩ => ⟨S256x1, .f32⟩
  | .hbm, ⟨6, _⟩ => ⟨S256x1, .f32⟩
  | .hbm, ⟨7, _⟩ => ⟨S16384x256, .f32⟩
  | .hbm, ⟨8, _⟩ => ⟨S_, .f32⟩
  | .hbm, ⟨9, _⟩ => ⟨S16384x256, .f32⟩
  | .hbm, ⟨10, _⟩ => ⟨S16384x256, .i1⟩
  | .hbm, ⟨11, _⟩ => ⟨S_, .f32⟩
  | .hbm, ⟨12, _⟩ => ⟨S16384x256, .f32⟩
  | .hbm, ⟨13, _⟩ => ⟨S16384x256, .f32⟩
  | .hbm, ⟨14, _⟩ => ⟨S16384x256, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x4096, .f32⟩
  | .hbm, ⟨25, _⟩ => ⟨S16384x4096, .f32⟩
  | .hbm, ⟨26, _⟩ => ⟨S_, .f32⟩
  | .hbm, ⟨27, _⟩ => ⟨S4096, .f32⟩
  | .hbm, ⟨28, _⟩ => ⟨S1x4096, .f32⟩
  | .hbm, ⟨29, _⟩ => ⟨S16384x4096, .f32⟩
  | .hbm, ⟨30, _⟩ => ⟨S16384x4096, .f32⟩
  | .hbm, ⟨31, _⟩ => ⟨S4096x16384, .f32⟩
  | .hbm, ⟨32, _⟩ => ⟨S4096x256, .f32⟩
  | .hbm, ⟨33, _⟩ => ⟨S_, .f32⟩
  | .hbm, ⟨34, _⟩ => ⟨S4096x256, .f32⟩
  | .hbm, ⟨35, _⟩ => ⟨S4096x256, .i1⟩
  | .hbm, ⟨36, _⟩ => ⟨S_, .f32⟩
  | .hbm, ⟨37, _⟩ => ⟨S4096x256, .f32⟩
  | .hbm, ⟨38, _⟩ => ⟨S4096x256, .f32⟩
  | .hbm, ⟨39, _⟩ => ⟨S4096x256, .f32⟩
  | .hbm, ⟨40, _⟩ => ⟨S4096x256, .f32⟩
  | .hbm, ⟨41, _⟩ => ⟨S_, .f32⟩
  | .hbm, ⟨42, _⟩ => ⟨S4096x256, .f32⟩
  | .hbm, ⟨43, _⟩ => ⟨S4096x256, .i1⟩
  | .hbm, ⟨44, _⟩ => ⟨S_, .f32⟩
  | .hbm, ⟨45, _⟩ => ⟨S4096x256, .f32⟩
  | .hbm, ⟨46, _⟩ => ⟨S4096x256, .f32⟩
  | .hbm, ⟨47, _⟩ => ⟨S4096x256, .f32⟩
  | .hbm, ⟨48, _⟩ => ⟨S4096x1, .f32⟩
  | .hbm, ⟨49, _⟩ => ⟨S1x4096, .f32⟩
  | .hbm, ⟨50, _⟩ => ⟨S_, .f32⟩
  | .hbm, ⟨51, _⟩ => ⟨S16384x256, .f32⟩
  | .hbm, ⟨52, _⟩ => ⟨S16384x256, .i1⟩
  | .hbm, ⟨53, _⟩ => ⟨S_, .f32⟩
  | .hbm, ⟨54, _⟩ => ⟨S16384x256, .f32⟩
  | .hbm, ⟨55, _⟩ => ⟨S16384x256, .f32⟩
  | .hbm, ⟨56, _⟩ => ⟨S16384x256, .f32⟩
  | .hbm, ⟨57, _⟩ => ⟨S16384x1, .f32⟩
  | .hbm, ⟨58, _⟩ => ⟨S16384x4096, .f32⟩
  | .hbm, ⟨59, _⟩ => ⟨S16384x4096, .f32⟩
  | .hbm, ⟨60, _⟩ => ⟨S16384x4096, .f32⟩
  | .hbm, ⟨61, _⟩ => ⟨S_, .f32⟩
  | .hbm, ⟨62, _⟩ => ⟨S16384x4096, .f32⟩
  | .hbm, ⟨63, _⟩ => ⟨S16384x4096, .f32⟩
  | .hbm, ⟨64, _⟩ => ⟨S16384x4096, .f32⟩
  | .hbm, ⟨65, _⟩ => ⟨S_, .f32⟩
  | .hbm, ⟨66, _⟩ => ⟨S16384x4096, .f32⟩
  | .hbm, ⟨67, _⟩ => ⟨S16384x4096, .f32⟩
  | .hbm, ⟨68, _⟩ => ⟨S16384x4096, .f32⟩
  | .hbm, ⟨69, _⟩ => ⟨S16384x4096, .f32⟩
  | .hbm, ⟨70, _⟩ => ⟨S_, .f32⟩
  | .hbm, ⟨71, _⟩ => ⟨S16384, .f32⟩
  | .hbm, ⟨72, _⟩ => ⟨S16384x1, .f32⟩
  | .hbm, ⟨73, _⟩ => ⟨S16384x4096, .f32⟩
  | .hbm, ⟨74, _⟩ => ⟨S16384x4096, .f32⟩
  | .hbm, ⟨75, _⟩ => ⟨S16384x256, .f32⟩
  | .hbm, ⟨76, _⟩ => ⟨S16384x256, .f32⟩
  | .hbm, ⟨77, _⟩ => ⟨S_, .f32⟩
  | .hbm, ⟨78, _⟩ => ⟨S16384x256, .f32⟩
  | .hbm, ⟨79, _⟩ => ⟨S16384x256, .i1⟩
  | .hbm, ⟨80, _⟩ => ⟨S_, .f32⟩
  | .hbm, ⟨81, _⟩ => ⟨S16384x256, .f32⟩
  | .hbm, ⟨82, _⟩ => ⟨S16384x256, .f32⟩
  | .hbm, ⟨83, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_cst_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩

abbrev nD : Nat := 1
abbrev τ : Topo := Topo.v7x

variable {F : FTy → Type} [FloatOps F]

class Facts₀ : Prop where
  bcast_S_S16384x256 : S_.BroadcastsInDim S16384x256 (![] : Fin 0 → Fin S16384x256.rank)
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  reducesTo_S16384x4096_S4096_d0 : S16384x4096.ReducesTo [0] S4096
  h_S_ : 0 < S_.numel
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  transposes_S16384x4096_S4096x16384_1_0 : S16384x4096.Transposes [1, 0] S4096x16384
  bcast_S_S4096x256 : S_.BroadcastsInDim S4096x256 (![] : Fin 0 → Fin S4096x256.rank)
  transposes_S4096x1_S1x4096_1_0 : S4096x1.Transposes [1, 0] S1x4096
  bcast_S_S16384x4096 : S_.BroadcastsInDim S16384x4096 (![] : Fin 0 → Fin S16384x4096.rank)
  reducesTo_S16384x4096_S16384_d1 : S16384x4096.ReducesTo [1] S16384
  bcast_S16384_S16384x1_0 : S16384.BroadcastsInDim S16384x1 (![0] : Fin 1 → Fin S16384x1.rank)
  dot_S16384x256_S256x256_S16384x256_1_0_0_1_n_n_wf : DotDims.WF S16384x256 S256x256 S16384x256 [1] [0] [0] [1] [] []
  dot_S16384x256_S256x1_S16384x1_1_0_0_1_n_n_wf : DotDims.WF S16384x256 S256x1 S16384x1 [1] [0] [0] [1] [] []
  dot_S4096x16384_S16384x256_S4096x256_1_0_0_1_n_n_wf : DotDims.WF S4096x16384 S16384x256 S4096x256 [1] [0] [0] [1] [] []
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  dot_S16384x4096_S4096x256_S16384x256_1_0_0_1_n_n_wf : DotDims.WF S16384x4096 S4096x256 S16384x256 [1] [0] [0] [1] [] []

variable [Facts₀]

def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf
def dot_S4096x16384_S16384x256_S4096x256_1_0_0_1_n_n : DotDims S4096x16384 S16384x256 S4096x256 where
  lhsContracting := [1]
  rhsContracting := [0]
  lhsNonContracting := [0]
  rhsNonContracting := [1]
  lhsBatch := []
  rhsBatch := []
  wf := dot_S4096x16384_S16384x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf
def dot_S16384x4096_S4096x256_S16384x256_1_0_0_1_n_n : DotDims S16384x4096 S4096x256 S16384x256 where
  lhsContracting := [1]
  rhsContracting := [0]
  lhsNonContracting := [0]
  rhsNonContracting := [1]
  lhsBatch := []
  rhsBatch := []
  wf := dot_S16384x4096_S4096x256_S16384x256_1_0_0_1_n_n_wf

class Facts : Prop extends Facts₀ where

variable [Facts]
-- ==== Proof.Kernel.Reg0.lean ====
/-
  The first launch: `xw = x · w1` on blocks of 2048 rows, its leaky image against the two logit rows, eight grid points.
  Each point reads its block of `x` and the whole of `w1`, `a1ᵀ`, `a22ᵀ`, and writes its block of each of the three results
  whole, so a result array after the launch is, block by block, what the point's body stored.
-/
import proofs.«428716_j47717086658967_3_alg».proof.Proof.Gen.Kernel.Launch
import proofs.«428716_j47717086658967_3_alg».proof.Proof.Gen.Kernel.Skeleton
import proofs.«428716_j47717086658967_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the launch is entered
variable (V : (c : Dev nD) → (b : Ref sig .tc) → Buf (Elt F) ((c : Thread nD τ).loc b))

/-- Window `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body stores through. -/
abbrev rXW : Rect S2048x256 := Rect.unit (s := S2048x256) ![0, 0] S2048x256.size inb_S2048x256_S2048x256_0_0
abbrev rCol : Rect S2048x1 := Rect.unit (s := S2048x1) ![0, 0] S2048x1.size inb_S2048x1_S2048x1_0_0

/-- What the body leaves in the staging buffer of `xw`'s block (stored in the narrower float format), of the first logit's
    column and of the second's: one whole-block store each, over the block of `x` and the whole operands. -/
def out0_4 (x0 : Vec F S2048x256 .f32) (x1 : Vec F S256x256 .f32) : Vec F S2048x256 .bf16 :=
  View.canon [⟨rXW, k0_pay5 x0 x1⟩]
def out0_5 (x0 : Vec F S2048x256 .f32) (x1 : Vec F S256x256 .f32) (x2 : Vec F S1x256 .f32) : Vec F S2048x1 .f32 :=
  View.canon [⟨rCol, k0_pay3 x0 x1 x2⟩]
def out0_6 (x0 : Vec F S2048x256 .f32) (x1 : Vec F S256x256 .f32) (x3 : Vec F S1x256 .f32) : Vec F S2048x1 .f32 :=
  View.canon [⟨rCol, k0_pay4 x0 x1 x3⟩]

/-- The launch's proof data on core `c`: the arrays as it finds them; after the body at point `t` each input's buffer still at
    its block and each result's at what the body stored; the scoped rest and the generator register untouched; nothing owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-! ### The proof data read window by window

The proof data's `after` is a `match` on the window; each arm is read off by unfolding the data alone. -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 1 t) (iblk0 V c 3 t) := by dsimp only [dat0]

/-! ### An input's staging buffer holds its block at every point

The block of `x` is fetched at every point. The three whole operands are fetched at the first point only; at a later point
their block index has not moved and the body left the block where it found it, so the buffer still holds it. -/

theorem before0_0 (c : Dev nD) (t : Fin cfg0.N) (d) : (dat0 V c).before 0 t d = iblk0 V c 0 t := by
  rw [(dat0 V c).before_in_eq_fetched 0 rfl (fun _ => rfl) (fun _ _ _ => rfl) (fun u => by rw [after0_0]; rfl) t d]
  rfl
theorem before0_1 (c : Dev nD) (t : Fin cfg0.N) (d) : (dat0 V c).before 1 t d = iblk0 V c 1 t := by
  rw [(dat0 V c).before_in_eq_fetched 1 rfl (fun _ => rfl) (fun _ _ _ => rfl) (fun u => by rw [after0_1]; rfl) t d]
  rfl
theorem before0_2 (c : Dev nD) (t : Fin cfg0.N) (d) : (dat0 V c).before 2 t d = iblk0 V c 2 t := by
  rw [(dat0 V c).before_in_eq_fetched 2 rfl (fun _ => rfl) (fun _ _ _ => rfl) (fun u => by rw [after0_2]; rfl) t d]
  rfl
theorem before0_3 (c : Dev nD) (t : Fin cfg0.N) (d) : (dat0 V c).before 3 t d = iblk0 V c 3 t := by
  rw [(dat0 V c).before_in_eq_fetched 3 rfl (fun _ => rfl) (fun _ _ _ => rfl) (fun u => by rw [after0_3]; rfl) t d]
  rfl

/-! ### Loads and stores through the rectangle that is the whole block -/

namespace Reg0

/-- The offsets of a whole-block rectangle of rank two. -/
theorem origin2 : (![0, 0] : Fin 2 → ℕ) = fun _ => 0 := by
  funext a; fin_cases a <;> rfl

/-- A load through the whole-block rectangle reads what the buffer reads. -/
theorem load_whole {κ : Kind} {sp : Space} {S : Shape} {e : EltTy} (v : View sig κ sp S e) (f : v.ty.Contents (Elt F))
    {off : Fin S.rank → ℕ} (hz : off = fun _ => 0) (inb : ∀ a, off a + S.size a ≤ S.size a) :
    v.readAt (Elt F) (Rect.unit off S.size inb).toLoadRect f = v.read (Elt F) f :=
  (View.readAt_eq_ld v f _).trans (View.ld_unit_zero hz inb _)

/-- After one store through the whole-block rectangle, over any earlier contents, the buffer reads the canon of that store. -/
theorem read_store_whole {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [(⟨Rect.unit off S.size inb, w⟩ : View.Piece (Elt F) S e)])
      = View.canon [(⟨Rect.unit off S.size inb, w⟩ : View.Piece (Elt F) S e)] :=
  View.read_writes_eq_canon v f _ fun y => ⟨_, List.mem_singleton_self _, View.mem_set_unit_zero hz inb y⟩

end Reg0

/-! ### The body on whole staging memrefs

With the four inputs' memrefs reading `x0`, `x1`, `x2`, `x3` and the three results' at anything, the body loads the inputs
whole, and stores each result once through the rectangle that is the whole block: the inputs are as they were, and each
result's memref reads the one payload stored into it. A load through the whole-block rectangle reads the contents, so the
payloads are functions of `x0` … `x3` themselves. -/

set_option maxHeartbeats 1000000 in
theorem kernel_run0 (c : Dev nD) (E : Set ℕ) (i : grid0.Coords)
    (a1 : Memref sig .tc .vmem S2048x256 .f32) (h1 : a1.IsWhole) (a2 : Memref sig .tc .vmem S256x256 .f32) (h2 : a2.IsWhole)
    (a3 : Memref sig .tc .vmem S1x256 .f32) (h3 : a3.IsWhole) (a4 : Memref sig .tc .vmem S1x256 .f32) (h4 : a4.IsWhole)
    (a5 : Memref sig .tc .vmem S2048x256 .bf16) (h5 : a5.IsWhole) (a6 : Memref sig .tc .vmem S2048x1 .f32) (h6 : a6.IsWhole)
    (a7 : Memref sig .tc .vmem S2048x1 .f32) (h7 : a7.IsWhole)
    (x0 : Vec F S2048x256 .f32) (x1 : Vec F S256x256 .f32) (x2 x3 : Vec F S1x256 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ (∃ d, owns (c : Thread nD τ) a5 fullShare d) ∗ (∃ d, owns (c : Thread nD τ) a6 fullShare d)
        ∗ (∃ d, owns (c : Thread nD τ) a7 fullShare d)
        ∗ (iprop(owns (c : Thread nD τ) a1 fullShare x0 ∗ owns (c : Thread nD τ) a2 fullShare x1
            ∗ owns (c : Thread nD τ) a3 fullShare x2 ∗ owns (c : Thread nD τ) a4 fullShare x3
            ∗ owns (c : Thread nD τ) a5 fullShare (out0_4 x0 x1) ∗ owns (c : Thread nD τ) a6 fullShare (out0_5 x0 x1 x2)
            ∗ owns (c : Thread nD τ) a7 fullShare (out0_6 x0 x1 x3)) -∗ K ⟨⟩))
      ⊢ wp frame (wpE (defs₀ (F := F)) Variants.none c none) E
          (cc0__passA_kernel i a1 h1 a2 h2 a3 h3 a4 h4 a5 h5 a6 h6 a7 h7) K := by
  simp only [cc0__passA_kernel_eq_skeleton]; unfold cc0__passA_kernel_skel
  unfold owns
  iintro ⟨⟨%f1, %e1, H1⟩, ⟨%f2, %e2, H2⟩, ⟨%f3, %e3, H3⟩, ⟨%f4, %e4, H4⟩, ⟨%d5, %f5, -, H5⟩, ⟨%d6, %f6, -, H6⟩,
    ⟨%d7, %f7, -, H7⟩, Hk⟩
  subst e1 e2 e3 e4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [Reg0.read_store_whole _ _ Reg0.origin2, Reg0.load_whole _ _ Reg0.origin2, Reg0.load_whole _ _ Reg0.origin2]
    rfl
  isplitl [H6]
  · iexists _; isplitr
    swap; · iexact H6
    ipureintro
    rw [Reg0.read_store_whole _ _ Reg0.origin2, Reg0.load_whole _ _ Reg0.origin2, Reg0.load_whole _ _ Reg0.origin2, Reg0.load_whole _ _ Reg0.origin2]
    rfl
  · iexists _; isplitr
    swap; · iexact H7
    ipureintro
    rw [Reg0.read_store_whole _ _ Reg0.origin2, Reg0.load_whole _ _ Reg0.origin2, Reg0.load_whole _ _ Reg0.origin2, Reg0.load_whole _ _ Reg0.origin2]
    rfl

/-! ### The obligation at a point

At point `t` the four inputs' current buffers hold their blocks, so the body runs as above on the blocks; the launch's
invariant and what the core owes are not read and pass through. -/

theorem point_run0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d))
        ∗ (∃ d, owns (c : Thread nD τ) (st0_5 t) fullShare ((dat0 V c).before 5 t d))
        ∗ (∃ d, owns (c : Thread nD τ) (st0_6 t) fullShare ((dat0 V c).before 6 t d)))
      ⊢ wp frame (wpE (defs₀ (F := F)) Variants.none c none) Set.univ (bodyAt0 t) fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t)
            ∗ owns (c : Thread nD τ) (st0_4 t) fullShare ((dat0 V c).after 4 t)
            ∗ owns (c : Thread nD τ) (st0_5 t) fullShare ((dat0 V c).after 5 t)
            ∗ owns (c : Thread nD τ) (st0_6 t) fullShare ((dat0 V c).after 6 t)) := by
  unfold bodyAt0
  simp only [before0_0, before0_1, before0_2, before0_3]
  rw [after0_0, after0_1, after0_2, after0_3, after0_4, after0_5, after0_6,
    show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel_run0 c Set.univ _ _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation at every grid point. -/
theorem body_obligation0 (c : Dev nD) : BodyObligation (dat0 (F := F) V c) (defs₀ (F := F)) Variants.none () Set.univ := fun t => by
  rw [bigSep_W0, bigSep_W0]
  exact point_run0 V c t

end Cert.Kernel.Hand

end
-- ==== Proof.Kernel.Reg1.lean ====
/-
  The second launch: for a block of 2048 edge columns, over thirty-two steps of 512 nodes each, the sums
  sum_n e n j * xw n d and sum_n e n j with e n j = exp (8 * tanh (f1 n / 8)) * H n j, kept from step to step in two
  buffers of the kernel's own that the first step of each block of columns resets; at the last step the quotient of
  the two sums, its leaky image, the product with w2 (stored in the narrower float format) and the logit row against
  a21 are stored into the two results' blocks, which are written back only there. Sixty-four grid points.
-/
import proofs.«428716_j47717086658967_3_alg».proof.Proof.Gen.Kernel.Launch
import proofs.«428716_j47717086658967_3_alg».proof.Proof.Gen.Kernel.Skeleton
import proofs.«428716_j47717086658967_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the launch is entered
variable (V : (c : Dev nD) → (b : Ref sig .tc) → Buf (Elt F) ((c : Thread nD τ).loc b))

/-- Window `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two buffers the kernel carries from step to step. -/
abbrev scM1_0 : Memref sig .tc .vmem S2048x256 .f32 := Memref.whole cc1_scratch0
abbrev scM1_1 : Memref sig .tc .vmem S2048x1 .f32 := Memref.whole cc1_scratch1

/-- One step of the accumulation at point `t`: both sums advanced by the step's 512 nodes. -/
def step1 (c : Dev nD) (t : Fin cfg1.N) (s : Vec F S2048x256 .f32 × Vec F S2048x1 .f32) : Vec F S2048x256 .f32 × Vec F S2048x1 .f32 :=
  (k1_pay7 (iblk1 V c 0 t) (iblk1 V c 2 t) (iblk1 V c 1 t) s.1, k1_pay8 (iblk1 V c 0 t) (iblk1 V c 2 t) s.2)

/-- The two carried buffers after point `n`: at the first step of a block of columns the step over zeros, else over
    what the point before left. -/
def acc1 (c : Dev nD) : (n : ℕ) → n < cfg1.N → Vec F S2048x256 .f32 × Vec F S2048x1 .f32
  | 0, hn => step1 V c ⟨0, hn⟩ (k1_pay4, k1_pay5)
  | n + 1, hn =>
    if (n + 1) % 32 = 0 then step1 V c ⟨n + 1, hn⟩ (k1_pay4, k1_pay5)
    else step1 V c ⟨n + 1, hn⟩ (acc1 c n (Nat.lt_of_succ_lt hn))

/-- At the first step of a block of columns. -/
theorem acc1_first (c : Dev nD) (t : Fin cfg1.N) (h0 : t.val % 32 = 0) :
    acc1 V c t.val t.isLt = step1 V c t (k1_pay4, k1_pay5) := by
  obtain ⟨n, hn⟩ := t
  cases n with
  | zero => rfl
  | succ n => exact if_pos h0

/-- At a later step. -/
theorem acc1_later (c : Dev nD) (t : Fin cfg1.N) (h0 : ¬t.val % 32 = 0) :
    acc1 V c t.val t.isLt = step1 V c t (acc1 V c (t.val - 1) (Nat.lt_of_le_of_lt (Nat.sub_le _ _) t.isLt)) := by
  obtain ⟨n, hn⟩ := t
  cases n with
  | zero => exact absurd (Nat.zero_mod _) h0
  | succ n => exact if_neg h0

/-- The whole-block rectangles the last step stores through. -/
abbrev r1FW : Rect S2048x256 := Rect.unit (s := S2048x256) ![0, 0] S2048x256.size inb_S2048x256_S2048x256_0_0
abbrev r1ES : Rect S1x2048 := Rect.unit (s := S1x2048) ![0, 0] S1x2048.size inb_S1x2048_S1x2048_0_0

/-- What the last step leaves in the two results' staging buffers: one whole-block store each, over the two sums and the
    whole operands. -/
def out1_5 (s0 : Vec F S2048x256 .f32) (s1 : Vec F S2048x1 .f32) (w2 : Vec F S256x256 .f32) : Vec F S2048x256 .bf16 :=
  View.canon [⟨r1FW, k1_pay3 s0 s1 w2⟩]
def out1_6 (s0 : Vec F S2048x256 .f32) (s1 : Vec F S2048x1 .f32) (w2 : Vec F S256x256 .f32) (a21 : Vec F S256x1 .f32) : Vec F S1x2048 .f32 :=
  View.canon [⟨r1ES, k1_pay2 s0 s1 w2 a21⟩]

/-! ### The body's two conditions, decided over the grid -/

/-- The reset's condition: the step is the first of its block of columns. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)
/-- The results' condition: the step is the last of its block of columns. -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-! ### Loads and stores through the rectangle that is the whole buffer -/

/-- The offsets of a whole-buffer rectangle of rank two. -/
theorem zero2 : (![0, 0] : Fin 2 → ℕ) = fun _ => 0 := by
  funext a; fin_cases a <;> rfl

/-- A load through the whole-buffer rectangle reads what the buffer reads. -/
theorem load_all {κ : Kind} {sp : Space} {S : Shape} {e : EltTy} (v : View sig κ sp S e) (f : v.ty.Contents (Elt F))
    {off : Fin S.rank → ℕ} (hz : off = fun _ => 0) (inb : ∀ a, off a + S.size a ≤ S.size a) :
    v.readAt (Elt F) (Rect.unit off S.size inb).toLoadRect f = v.read (Elt F) f :=
  (View.readAt_eq_ld v f _).trans (View.ld_unit_zero hz inb _)

/-- After a last store through the whole-buffer rectangle, whatever the earlier stores and contents, the buffer reads
    that store's payload. -/
theorem read_store_all {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero hz inb y⟩).trans
    (View.canon_cons_unit_zero hz inb w L)

/-- A load through the whole-buffer rectangle after a last store through it reads that store's payload. -/
theorem load_store_all {κ : Kind} {sp : Space} {S : Shape} {e : EltTy} (v : View sig κ sp S e)
    {off : Fin S.rank → ℕ} (hz : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w :=
  View.readCov_cons_toLoadRect v (Rect.unit off S.size inb) w L

/-- The core's scoped buffers that are neither a staging buffer of this launch nor one of the two carried buffers. -/
abbrev rest1 (c : Dev nD) : sProp 𝕄 :=
  Pipeline.scopedRestBut (Ix := Unit) (Name := ℕ) (U := Pipeline.UD sig nD τ) (Lvl := ℕ) (Val := Elt F) spec1 c [cc1_scratch0, cc1_scratch1]

/-- The invariant before position `n`: before the first point the class's; afterwards the two carried buffers at what the
    point before left, the other scoped buffers at anything, the generator register at some state. -/
def Phi1 (c : Dev nD) : (n : ℕ) → n ≤ cfg1.N → sProp 𝕄
  | 0, _ => Pipeline.ΦA spec1 c
  | n + 1, hn => iprop(owns (c : Thread nD τ) scM1_0 fullShare (acc1 V c n hn).1 ∗ owns (c : Thread nD τ) scM1_1 fullShare (acc1 V c n hn).2
      ∗ rest1 (F := F) c ∗ (∃ r, prngReg c r))

/-- The launch's proof data on core `c`. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (acc1 V c t.val t.isLt).1 (acc1 V c t.val t.isLt).2 (iblk1 V c 3 t)
    | ⟨6, _⟩ => out1_6 (acc1 V c t.val t.isLt).1 (acc1 V c t.val t.isLt).2 (iblk1 V c 3 t) (iblk1 V c 4 t)
  Φ t := Phi1 V c t.val (Nat.le_of_lt_succ t.isLt)
  q _ := fullShare
  owed _ := 0

theorem Phi1_zero (c : Dev nD) : (dat1 V c).Φ 0 = Pipeline.ΦA spec1 c := rfl

theorem Phi1_succ (c : Dev nD) (t : Fin cfg1.N) : (dat1 V c).Φ t.succ
    = iprop(owns (c : Thread nD τ) scM1_0 fullShare (acc1 V c t.val t.isLt).1 ∗ owns (c : Thread nD τ) scM1_1 fullShare (acc1 V c t.val t.isLt).2
      ∗ rest1 (F := F) c ∗ (∃ r, prngReg c r)) := rfl

theorem A_eq1 (c : Dev nD) (w : Fin cfg1.W) : (dat1 V c).A w = V c (Pipeline.arrRef spec1 w) := by
  dsimp only [dat1]

/-! ### The proof data read window by window -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (acc1 V c t.val t.isLt).1 (acc1 V c t.val t.isLt).2 (iblk1 V c 3 t) := by dsimp only [dat1]
theorem after1_6 (c : Dev nD) (t : Fin cfg1.N) :
    (dat1 V c).after 6 t = out1_6 (acc1 V c t.val t.isLt).1 (acc1 V c t.val t.isLt).2 (iblk1 V c 3 t) (iblk1 V c 4 t) := by dsimp only [dat1]

/-! ### An input's staging buffer holds its block at every point

The blocks of `H`, `xw` and `f1` are fetched at every point. The two whole operands are fetched at the first point only; at a
later point their block index has not moved and the body left the block where it found it. -/

theorem before1_0 (c : Dev nD) (t : Fin cfg1.N) (d) : (dat1 V c).before 0 t d = iblk1 V c 0 t := by
  rw [(dat1 V c).before_in_eq_fetched 0 rfl (fun _ => rfl) (fun _ _ _ => rfl) (fun u => by rw [after1_0]; rfl) t d]
  rfl
theorem before1_1 (c : Dev nD) (t : Fin cfg1.N) (d) : (dat1 V c).before 1 t d = iblk1 V c 1 t := by
  rw [(dat1 V c).before_in_eq_fetched 1 rfl (fun _ => rfl) (fun _ _ _ => rfl) (fun u => by rw [after1_1]; rfl) t d]
  rfl
theorem before1_2 (c : Dev nD) (t : Fin cfg1.N) (d) : (dat1 V c).before 2 t d = iblk1 V c 2 t := by
  rw [(dat1 V c).before_in_eq_fetched 2 rfl (fun _ => rfl) (fun _ _ _ => rfl) (fun u => by rw [after1_2]; rfl) t d]
  rfl
theorem before1_3 (c : Dev nD) (t : Fin cfg1.N) (d) : (dat1 V c).before 3 t d = iblk1 V c 3 t := by
  rw [(dat1 V c).before_in_eq_fetched 3 rfl (fun _ => rfl) (fun _ _ _ => rfl) (fun u => by rw [after1_3]; rfl) t d]
  rfl
theorem before1_4 (c : Dev nD) (t : Fin cfg1.N) (d) : (dat1 V c).before 4 t d = iblk1 V c 4 t := by
  rw [(dat1 V c).before_in_eq_fetched 4 rfl (fun _ => rfl) (fun _ _ _ => rfl) (fun u => by rw [after1_4]; rfl) t d]
  rfl

/-! ### Where the windows are idle -/

theorem leaves1_0 (c : Dev nD) (t : Fin cfg1.N) :
    (dat1 V c).leavesExact 0 t = owns (c : Thread nD τ) (st1_0 t) fullShare (iblk1 V c 0 t) := by
  rw [← after1_0]
theorem leaves1_1 (c : Dev nD) (t : Fin cfg1.N) :
    (dat1 V c).leavesExact 1 t = owns (c : Thread nD τ) (st1_1 t) fullShare (iblk1 V c 1 t) := by
  rw [← after1_1]
theorem leaves1_2 (c : Dev nD) (t : Fin cfg1.N) :
    (dat1 V c).leavesExact 2 t = owns (c : Thread nD τ) (st1_2 t) fullShare (iblk1 V c 2 t) := by
  rw [← after1_2]
theorem leaves1_3 (c : Dev nD) (t : Fin cfg1.N) :
    (dat1 V c).leavesExact 3 t = owns (c : Thread nD τ) (st1_3 t) fullShare (iblk1 V c 3 t) := by
  rw [← after1_3]
theorem leaves1_4 (c : Dev nD) (t : Fin cfg1.N) :
    (dat1 V c).leavesExact 4 t = owns (c : Thread nD τ) (st1_4 t) fullShare (iblk1 V c 4 t) := by
  rw [← after1_4]

/-- The two results' windows are idle off the last step of a block of columns, -/
theorem idleAt1_5 (i : grid1.Coords) (h : ¬cond1_1 i) : cfg1.idle 5 i = true := by
  have hb : (k1_cond2 i == 1#1) = false := beq_eq_false_iff_ne.mpr h
  show (!(k1_cond2 i == 1#1)) = true
  rw [hb]; rfl
theorem idleAt1_6 (i : grid1.Coords) (h : ¬cond1_1 i) : cfg1.idle 6 i = true := by
  have hb : (k1_cond2 i == 1#1) = false := beq_eq_false_iff_ne.mpr h
  show (!(k1_cond2 i == 1#1)) = true
  rw [hb]; rfl
/-- are not written back there, -/
theorem noFlush1_5 (t : Fin cfg1.N) (h : ¬t.val % 32 = 31) : (cfg1.win 5).flush t = false := by
  cases hf : (cfg1.win 5).flush t
  · rfl
  · exact absurd ((flush1_5 t).mp hf) h
theorem noFlush1_6 (t : Fin cfg1.N) (h : ¬t.val % 32 = 31) : (cfg1.win 6).flush t = false := by
  cases hf : (cfg1.win 6).flush t
  · rfl
  · exact absurd ((flush1_6 t).mp hf) h
/-- and are live at the last step. -/
theorem liveAt1_5 (i : grid1.Coords) (h : cond1_1 i) : cfg1.idle 5 i = false := by
  show (!(k1_cond2 i == 1#1)) = false
  rw [show k1_cond2 i = 1#1 from h]; rfl
theorem liveAt1_6 (i : grid1.Coords) (h : cond1_1 i) : cfg1.idle 6 i = false := by
  show (!(k1_cond2 i == 1#1)) = false
  rw [show k1_cond2 i = 1#1 from h]; rfl

theorem leaves1_5_live (c : Dev nD) (t : Fin cfg1.N) (h : cond1_1 (grid1.coords t)) :
    (dat1 V c).leavesExact 5 t = owns (c : Thread nD τ) (st1_5 t) fullShare
      (out1_5 (acc1 V c t.val t.isLt).1 (acc1 V c t.val t.isLt).2 (iblk1 V c 3 t)) := by
  rw [← after1_5]; unfold Dat.leavesExact; rw [liveAt1_5 _ h]
theorem leaves1_6_live (c : Dev nD) (t : Fin cfg1.N) (h : cond1_1 (grid1.coords t)) :
    (dat1 V c).leavesExact 6 t = owns (c : Thread nD τ) (st1_6 t) fullShare
      (out1_6 (acc1 V c t.val t.isLt).1 (acc1 V c t.val t.isLt).2 (iblk1 V c 3 t) (iblk1 V c 4 t)) := by
  rw [← after1_6]; unfold Dat.leavesExact; rw [liveAt1_6 _ h]

/-! ### The invariant, position by position -/

theorem Phi1_castSucc (c : Dev nD) (t : Fin cfg1.N) :
    (dat1 V c).Φ t.castSucc = Phi1 V c t.val (Nat.le_of_lt t.isLt) := rfl

theorem Phi1_at_zero (c : Dev nD) (n : ℕ) (h : n ≤ cfg1.N) (hz : n = 0) : Phi1 V c n h = Pipeline.ΦA spec1 c := by
  subst hz; rfl

theorem Phi1_pos (c : Dev nD) (n : ℕ) (h : n ≤ cfg1.N) (hz : n ≠ 0) :
    Phi1 V c n h = iprop(owns (c : Thread nD τ) scM1_0 fullShare (acc1 V c (n - 1) (by omega)).1
      ∗ owns (c : Thread nD τ) scM1_1 fullShare (acc1 V c (n - 1) (by omega)).2 ∗ rest1 (F := F) c ∗ (∃ r, prngReg c r)) := by
  cases n with
  | zero => exact absurd rfl hz
  | succ n => rfl

/-- The class's invariant with the two carried buffers as memrefs owned at some contents. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d)) ∗ rest1 (F := F) c) ∗ (∃ r, prngReg c r)) := by
  unfold Pipeline.ΦA
  rw [Pipeline.scopedRest_split_of_list spec1 c [cc1_scratch0, cc1_scratch1] (by decide) (by decide)]
  simp only [scM1_0, scM1_1, owns_whole]
  rfl

/-- After any point the invariant gives the class's back: the carried buffers' named contents are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨HS0, HS1, Hr, Hg⟩
  isplitl [HS0 HS1 Hr]
  · isplitl [HS0 HS1]
    · isplitl [HS0]
      · iexists _; iexact HS0
      · iexists _; iexact HS1
    · iexact Hr
  · iexact Hg

theorem Phi1_last_out (c : Dev nD) : (dat1 V c).Φ (Fin.last cfg1.N) ⊢ Pipeline.ΦA spec1 c :=
  Phi1_out V c _ (by rw [Fin.val_last]; have : cfg1.N = 64 := N_1; omega)

/-! ### The body on whole memrefs, in its three cases -/

set_option maxHeartbeats 1000000 in
/-- The body at the first step of a block of columns: both carried buffers are reset and the step's products added; the
    two results' buffers are not touched. -/
theorem kernel_run1_A (c : Dev nD) (E : Set ℕ) (i : grid1.Coords) (hc0 : cond1_0 i) (hc1 : ¬cond1_1 i)
    (a2 : Memref sig .tc .vmem S512x2048 .f32) (h2 : a2.IsWhole) (a3 : Memref sig .tc .vmem S512x256 .bf16) (h3 : a3.IsWhole)
    (a4 : Memref sig .tc .vmem S512x1 .f32) (h4 : a4.IsWhole) (a5 : Memref sig .tc .vmem S256x256 .f32) (h5 : a5.IsWhole)
    (a6 : Memref sig .tc .vmem S256x1 .f32) (h6 : a6.IsWhole) (a7 : Memref sig .tc .vmem S2048x256 .bf16) (h7 : a7.IsWhole)
    (a8 : Memref sig .tc .vmem S1x2048 .f32) (h8 : a8.IsWhole) (a9 : Memref sig .tc .vmem S2048x256 .f32) (h9 : a9.IsWhole)
    (a10 : Memref sig .tc .vmem S2048x1 .f32) (h10 : a10.IsWhole)
    (x0 : Vec F S512x2048 .f32) (x1 : Vec F S512x256 .bf16) (x2 : Vec F S512x1 .f32) (x3 : Vec F S256x256 .f32) (x4 : Vec F S256x1 .f32)
    (y5 : Vec F S2048x256 .bf16) (y6 : Vec F S1x2048 .f32) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
        ∗ owns (c : Thread nD τ) a7 fullShare y5 ∗ owns (c : Thread nD τ) a8 fullShare y6
        ∗ (∃ d, owns (c : Thread nD τ) a9 fullShare d) ∗ (∃ d, owns (c : Thread nD τ) a10 fullShare d)
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
            ∗ owns (c : Thread nD τ) a7 fullShare y5 ∗ owns (c : Thread nD τ) a8 fullShare y6
            ∗ owns (c : Thread nD τ) a9 fullShare (k1_pay7 x0 x2 x1 k1_pay4) ∗ owns (c : Thread nD τ) a10 fullShare (k1_pay8 x0 x2 k1_pay5)) -∗ K ⟨⟩))
      ⊢ wp frame (wpE (defs₀ (F := F)) Variants.none c none) E
          (cc1__passB_kernel i a2 h2 a3 h3 a4 h4 a5 h5 a6 h6 a7 h7 a8 h8 a9 h9 a10 h10) K := by
  simp only [cc1__passB_kernel_eq_skeleton]; unfold cc1__passB_kernel_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%d9, %f9, -, H9⟩, ⟨%d10, %f10, -, H10⟩, Hk⟩
  subst e2 e3 e4 e5 e6 e7 e8
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    (try unfold out1_5)
    (try unfold out1_6)
    rw [read_store_all _ _ zero2]
    repeat rw [load_store_all _ zero2]
    repeat rw [load_all _ _ zero2]
    (try rw [View.canon_unit_zero zero2])
  · iexists _; isplitr
    swap; · iexact H10
    ipureintro
    sl_unfold_run_names
    (try unfold out1_5)
    (try unfold out1_6)
    rw [read_store_all _ _ zero2]
    repeat rw [load_store_all _ zero2]
    repeat rw [load_all _ _ zero2]
    (try rw [View.canon_unit_zero zero2])

set_option maxHeartbeats 1000000 in
/-- The body at a middle step: the step's products are added into both carried buffers; the two results' buffers are not
    touched. -/
theorem kernel_run1_B (c : Dev nD) (E : Set ℕ) (i : grid1.Coords) (hc0 : ¬cond1_0 i) (hc1 : ¬cond1_1 i)
    (a2 : Memref sig .tc .vmem S512x2048 .f32) (h2 : a2.IsWhole) (a3 : Memref sig .tc .vmem S512x256 .bf16) (h3 : a3.IsWhole)
    (a4 : Memref sig .tc .vmem S512x1 .f32) (h4 : a4.IsWhole) (a5 : Memref sig .tc .vmem S256x256 .f32) (h5 : a5.IsWhole)
    (a6 : Memref sig .tc .vmem S256x1 .f32) (h6 : a6.IsWhole) (a7 : Memref sig .tc .vmem S2048x256 .bf16) (h7 : a7.IsWhole)
    (a8 : Memref sig .tc .vmem S1x2048 .f32) (h8 : a8.IsWhole) (a9 : Memref sig .tc .vmem S2048x256 .f32) (h9 : a9.IsWhole)
    (a10 : Memref sig .tc .vmem S2048x1 .f32) (h10 : a10.IsWhole)
    (x0 : Vec F S512x2048 .f32) (x1 : Vec F S512x256 .bf16) (x2 : Vec F S512x1 .f32) (x3 : Vec F S256x256 .f32) (x4 : Vec F S256x1 .f32)
    (y5 : Vec F S2048x256 .bf16) (y6 : Vec F S1x2048 .f32) (s0 : Vec F S2048x256 .f32) (s1 : Vec F S2048x1 .f32) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
        ∗ owns (c : Thread nD τ) a7 fullShare y5 ∗ owns (c : Thread nD τ) a8 fullShare y6
        ∗ owns (c : Thread nD τ) a9 fullShare s0 ∗ owns (c : Thread nD τ) a10 fullShare s1
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
            ∗ owns (c : Thread nD τ) a7 fullShare y5 ∗ owns (c : Thread nD τ) a8 fullShare y6
            ∗ owns (c : Thread nD τ) a9 fullShare (k1_pay7 x0 x2 x1 s0) ∗ owns (c : Thread nD τ) a10 fullShare (k1_pay8 x0 x2 s1)) -∗ K ⟨⟩))
      ⊢ wp frame (wpE (defs₀ (F := F)) Variants.none c none) E
          (cc1__passB_kernel i a2 h2 a3 h3 a4 h4 a5 h5 a6 h6 a7 h7 a8 h8 a9 h9 a10 h10) K := by
  simp only [cc1__passB_kernel_eq_skeleton]; unfold cc1__passB_kernel_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, ⟨%f10, %e10, H10⟩, Hk⟩
  subst e2 e3 e4 e5 e6 e7 e8 e9 e10
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    (try unfold out1_5)
    (try unfold out1_6)
    rw [read_store_all _ _ zero2]
    repeat rw [load_store_all _ zero2]
    repeat rw [load_all _ _ zero2]
    (try rw [View.canon_unit_zero zero2])
  · iexists _; isplitr
    swap; · iexact H10
    ipureintro
    sl_unfold_run_names
    (try unfold out1_5)
    (try unfold out1_6)
    rw [read_store_all _ _ zero2]
    repeat rw [load_store_all _ zero2]
    repeat rw [load_all _ _ zero2]
    (try rw [View.canon_unit_zero zero2])

set_option maxHeartbeats 1000000 in
/-- The body at the last step of a block of columns: the step's products are added into both carried buffers, and the two
    results' buffers are stored whole over the sums. -/
theorem kernel_run1_C (c : Dev nD) (E : Set ℕ) (i : grid1.Coords) (hc0 : ¬cond1_0 i) (hc1 : cond1_1 i)
    (a2 : Memref sig .tc .vmem S512x2048 .f32) (h2 : a2.IsWhole) (a3 : Memref sig .tc .vmem S512x256 .bf16) (h3 : a3.IsWhole)
    (a4 : Memref sig .tc .vmem S512x1 .f32) (h4 : a4.IsWhole) (a5 : Memref sig .tc .vmem S256x256 .f32) (h5 : a5.IsWhole)
    (a6 : Memref sig .tc .vmem S256x1 .f32) (h6 : a6.IsWhole) (a7 : Memref sig .tc .vmem S2048x256 .bf16) (h7 : a7.IsWhole)
    (a8 : Memref sig .tc .vmem S1x2048 .f32) (h8 : a8.IsWhole) (a9 : Memref sig .tc .vmem S2048x256 .f32) (h9 : a9.IsWhole)
    (a10 : Memref sig .tc .vmem S2048x1 .f32) (h10 : a10.IsWhole)
    (x0 : Vec F S512x2048 .f32) (x1 : Vec F S512x256 .bf16) (x2 : Vec F S512x1 .f32) (x3 : Vec F S256x256 .f32) (x4 : Vec F S256x1 .f32)
    (s0 : Vec F S2048x256 .f32) (s1 : Vec F S2048x1 .f32) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
        ∗ (∃ d, owns (c : Thread nD τ) a7 fullShare d) ∗ (∃ d, owns (c : Thread nD τ) a8 fullShare d)
        ∗ owns (c : Thread nD τ) a9 fullShare s0 ∗ owns (c : Thread nD τ) a10 fullShare s1
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
            ∗ owns (c : Thread nD τ) a7 fullShare (out1_5 (k1_pay7 x0 x2 x1 s0) (k1_pay8 x0 x2 s1) x3)
            ∗ owns (c : Thread nD τ) a8 fullShare (out1_6 (k1_pay7 x0 x2 x1 s0) (k1_pay8 x0 x2 s1) x3 x4)
            ∗ owns (c : Thread nD τ) a9 fullShare (k1_pay7 x0 x2 x1 s0) ∗ owns (c : Thread nD τ) a10 fullShare (k1_pay8 x0 x2 s1)) -∗ K ⟨⟩))
      ⊢ wp frame (wpE (defs₀ (F := F)) Variants.none c none) E
          (cc1__passB_kernel i a2 h2 a3 h3 a4 h4 a5 h5 a6 h6 a7 h7 a8 h8 a9 h9 a10 h10) K := by
  simp only [cc1__passB_kernel_eq_skeleton]; unfold cc1__passB_kernel_skel
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩,
    ⟨%f9, %e9, H9⟩, ⟨%f10, %e10, H10⟩, Hk⟩
  subst e2 e3 e4 e5 e6 e9 e10
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    (try unfold out1_5)
    (try unfold out1_6)
    rw [read_store_all _ _ zero2]
    repeat rw [load_store_all _ zero2]
    repeat rw [load_all _ _ zero2]
    (try rw [View.canon_unit_zero zero2])
  isplitl [H8]
  · iexists _; isplitr
    swap; · iexact H8
    ipureintro
    sl_unfold_run_names
    (try unfold out1_5)
    (try unfold out1_6)
    rw [read_store_all _ _ zero2]
    repeat rw [load_store_all _ zero2]
    repeat rw [load_all _ _ zero2]
    (try rw [View.canon_unit_zero zero2])
  isplitl [H9]
  · iexists _; isplitr
    swap; · iexact H9
    ipureintro
    sl_unfold_run_names
    (try unfold out1_5)
    (try unfold out1_6)
    rw [read_store_all _ _ zero2]
    repeat rw [load_store_all _ zero2]
    repeat rw [load_all _ _ zero2]
    (try rw [View.canon_unit_zero zero2])
  · iexists _; isplitr
    swap; · iexact H10
    ipureintro
    sl_unfold_run_names
    (try unfold out1_5)
    (try unfold out1_6)
    rw [read_store_all _ _ zero2]
    repeat rw [load_store_all _ zero2]
    repeat rw [load_all _ _ zero2]
    (try rw [View.canon_unit_zero zero2])

/-! ### The obligation at a point

At point `t` the five inputs' current buffers hold their blocks. The invariant hands the body the two carried buffers: at
anything before the first point, else at what the point before left. The step is the first of its block of columns, a
middle one or the last; in each case the body runs as stated above and hands the carried buffers back at this point's
sums. The results' buffers are idle but at a last step, where they are stored whole. What the core owes passes through. -/

set_option maxHeartbeats 2000000 in
theorem point_run1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d))
        ∗ (∃ d, owns (c : Thread nD τ) (st1_5 t) fullShare ((dat1 V c).before 5 t d))
        ∗ (∃ d, owns (c : Thread nD τ) (st1_6 t) fullShare ((dat1 V c).before 6 t d)))
      ⊢ wp frame (wpE (defs₀ (F := F)) Variants.none c none) Set.univ (bodyAt1 t) fun _ =>
          iprop((dat1 V c).Φ t.succ ∗ (dat1 V c).owesAt () t.succ
            ∗ (dat1 V c).leavesExact 0 t
            ∗ (dat1 V c).leavesExact 1 t
            ∗ (dat1 V c).leavesExact 2 t
            ∗ (dat1 V c).leavesExact 3 t
            ∗ (dat1 V c).leavesExact 4 t
            ∗ (dat1 V c).leavesExact 5 t
            ∗ (dat1 V c).leavesExact 6 t) := by
  unfold bodyAt1
  simp only [before1_0, before1_1, before1_2, before1_3, before1_4]
  rw [leaves1_0, leaves1_1, leaves1_2, leaves1_3, leaves1_4, Phi1_succ, Phi1_castSucc,
    show (dat1 V c).owesAt () t.succ = (dat1 V c).owesAt () t.castSucc from rfl]
  have hN : t.val < 64 := lt_of_lt_of_eq t.isLt (show cfg1.N = 64 from N_1)
  by_cases h0 : t.val % 32 = 0
  · have h1 : ¬t.val % 32 = 31 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 _ hc1) (noFlush1_5 t h1),
      Dat.leavesExact_idle (dat1 V c) 6 t (idleAt1_6 _ hc1) (noFlush1_6 t h1), acc1_first V c t h0]
    dsimp only [step1]
    by_cases hz : t.val = 0
    · rw [Phi1_at_zero V c _ _ hz, PhiA1_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (kernel_run1_A c Set.univ _ hc0 hc1 _ _ _ _ _ _ _ _ _ _ _ _ _ _ _ _ _ _ (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      iexists d6; iexact H6
    · rw [Phi1_pos V c _ _ hz]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩⟩
      iapply (kernel_run1_A c Set.univ _ hc0 hc1 _ _ _ _ _ _ _ _ _ _ _ _ _ _ _ _ _ _ (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      iexists d6; iexact H6
  · have hz : t.val ≠ 0 := fun h => h0 (by rw [h])
    have hc0 : ¬cond1_0 (grid1.coords t) := fun h => h0 ((hcond1_0 t).mp h)
    rw [Phi1_pos V c _ _ hz, acc1_later V c t h0]
    dsimp only [step1]
    by_cases h1 : t.val % 32 = 31
    · have hc1 : cond1_1 (grid1.coords t) := (hcond1_1 t).mpr h1
      rw [leaves1_5_live V c t hc1, leaves1_6_live V c t hc1, acc1_later V c t h0]
      dsimp only [step1]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩⟩
      iapply (kernel_run1_C c Set.univ _ hc0 hc1 _ _ _ _ _ _ _ _ _ _ _ _ _ _ _ _ _ _ (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1_1 (grid1.coords t) := fun h => h1 ((hcond1_1 t).mp h)
      rw [Dat.leavesExact_idle (dat1 V c) 5 t (idleAt1_5 _ hc1) (noFlush1_5 t h1),
        Dat.leavesExact_idle (dat1 V c) 6 t (idleAt1_6 _ hc1) (noFlush1_6 t h1)]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩⟩
      iapply (kernel_run1_B c Set.univ _ hc0 hc1 _ _ _ _ _ _ _ _ _ _ _ _ _ _ _ _ _ _ (iblk1 V c 0 t) (iblk1 V c 1 t) (iblk1 V c 2 t) (iblk1 V c 3 t) (iblk1 V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      iexists d6; iexact H6

/-- The body's obligation at every grid point. -/
theorem body_obligation1 (c : Dev nD) : BodyObligation (dat1 (F := F) V c) (defs₀ (F := F)) Variants.none () Set.univ := fun t => by
  rw [bigSep_W1, bigSep_W1]
  exact point_run1 V c t

end Cert.Kernel.Hand

end
-- ==== Proof.Kernel.Reg2.lean ====
/-
  The third launch: for a block of 256 nodes, the edge weights `b n j = exp (8 · tanh ((escore j + ns n) / 8)) · H n j`, their row
  sums, the product `b · fw2` divided by the row sum, and the leaky map; sixty-four grid points. Each point reads its block of
  `H` and of `ns` and the whole of `fw2` and `escore`, and writes its block of the result whole.
-/
import proofs.«428716_j47717086658967_3_alg».proof.Proof.Gen.Kernel.Launch
import proofs.«428716_j47717086658967_3_alg».proof.Proof.Gen.Kernel.Skeleton
import proofs.«428716_j47717086658967_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the launch is entered
variable (V : (c : Dev nD) → (b : Ref sig .tc) → Buf (Elt F) ((c : Thread nD τ).loc b))

/-- Window `w`'s block at grid point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-block rectangle the body stores through. -/
abbrev rOut : Rect S256x256 := Rect.unit (s := S256x256) ![0, 0] S256x256.size inb_S256x256_S256x256_0_0

/-- What the body leaves in the result's staging buffer: one whole-block store, over the block of `H` (window 0), the block of
    `ns` (window 1), the whole of `escore` (window 3) and the whole of `fw2` (window 2) — the payload takes them in that order. -/
def out2_4 (x0 : Vec F S256x4096 .f32) (x1 : Vec F S256x1 .f32) (x2 : Vec F S4096x256 .bf16) (x3 : Vec F S1x4096 .f32) : Vec F S256x256 .f32 :=
  View.canon [⟨rOut, k2_pay1 x0 x1 x3 x2⟩]

/-- The launch's proof data on core `c`: the arrays as it finds them; after the body at point `t` each input's buffer still at
    its block and the result's at what the body stored; the scoped rest and the generator register untouched; nothing owed. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

/-- The offsets of a whole-block rectangle are all zero. -/
theorem zeros2 : (![0, 0] : Fin 2 → Nat) = fun _ => 0 := funext fun a => by fin_cases a <;> rfl

/-- One store through the whole-block rectangle covers the result's buffer. -/
theorem cover2_4 (p : Vec F S256x256 .f32) (y : S256x256.Idx) :
    ∃ pc ∈ ([⟨rOut, p⟩] : List (View.Piece (Elt F) S256x256 .f32)), y ∈ pc.1.set :=
  View.cover_of_tiled [⟨rOut, p⟩] S256x256.size (by rfl) y

set_option maxHeartbeats 1000000 in
/-- The body on whole staging memrefs: the four inputs' at read contents `x0 … x3` and the result's at anything, it runs to the
    continuation holding the inputs' as they were and the result's at `out2_4` of them. -/
theorem kernel_triple2 (c : Dev nD) (E : Set ℕ) (i : grid2.Coords)
    (a1 : Memref sig .tc .vmem S256x4096 .f32) (h1 : a1.IsWhole) (a2 : Memref sig .tc .vmem S256x1 .f32) (h2 : a2.IsWhole)
    (a3 : Memref sig .tc .vmem S4096x256 .bf16) (h3 : a3.IsWhole) (a4 : Memref sig .tc .vmem S1x4096 .f32) (h4 : a4.IsWhole)
    (a5 : Memref sig .tc .vmem S256x256 .f32) (h5 : a5.IsWhole)
    (x0 : Vec F S256x4096 .f32) (x1 : Vec F S256x1 .f32) (x2 : Vec F S4096x256 .bf16) (x3 : Vec F S1x4096 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (out2_4 x0 x1 x2 x3)) -∗ K ⟨⟩))
      ⊢ wp frame (wpE (defs₀ (F := F)) Variants.none c none) E (cc2__passC_kernel i a1 h1 a2 h2 a3 h3 a4 h4 a5 h5) K := by
  simp only [cc2__passC_kernel_eq_skeleton]; unfold cc2__passC_kernel_skel
  unfold owns
  iintro ⟨⟨%f1, %e1, H1⟩, ⟨%f2, %e2, H2⟩, ⟨%f3, %e3, H3⟩, ⟨%f4, %e4, H4⟩, ⟨%d5, %f5, -, H5⟩, Hk⟩
  subst e1 e2 e3 e4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover2_4 _)]
  unfold out2_4
  simp only [View.readAt_eq_ld, View.ld_unit_zero (S := S256x4096) zeros2, View.ld_unit_zero (S := S256x1) zeros2,
    View.ld_unit_zero (S := S1x4096) zeros2, View.ld_unit_zero (S := S4096x256) zeros2]

/-- A window's block as the proof data names it is its block of the array as the launch finds it. -/
theorem blockOf2 (c : Dev nD) (w : Fin cfg2.W) (t : Fin cfg2.N) : (dat2 V c).blockOf w t = iblk2 V c w t := rfl

/-- What the body leaves, window by window: an input's block in place, the result's at the body's one store. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- An input's staging buffer holds the window's block when the body runs at `t`, whether the block was fetched at `t` or at an
    earlier point: the body leaves it in place, and while no fetch happens the block index stands still. The windows are not
    clipped, so a fetch fills the whole buffer and nothing is cut. -/
theorem before2_0 (c : Dev nD) (t : Fin cfg2.N) (d) : (dat2 V c).before 0 t d = iblk2 V c 0 t := by
  have keep : ∀ s, (cfg2.win 0).cut (cfg2.grid.coords s) ((dat2 V c).after 0 s) = (dat2 V c).blockOf 0 s := fun s => by
    rw [after2_0, blockOf2]
  rw [(dat2 V c).before_in_eq_fetched 0 rfl (fun _ => rfl) (fun _ _ _ => rfl) keep t d]
  unfold Dat.fetched; rw [blockOf2]; rfl
theorem before2_1 (c : Dev nD) (t : Fin cfg2.N) (d) : (dat2 V c).before 1 t d = iblk2 V c 1 t := by
  have keep : ∀ s, (cfg2.win 1).cut (cfg2.grid.coords s) ((dat2 V c).after 1 s) = (dat2 V c).blockOf 1 s := fun s => by
    rw [after2_1, blockOf2]
  rw [(dat2 V c).before_in_eq_fetched 1 rfl (fun _ => rfl) (fun _ _ _ => rfl) keep t d]
  unfold Dat.fetched; rw [blockOf2]; rfl
theorem before2_2 (c : Dev nD) (t : Fin cfg2.N) (d) : (dat2 V c).before 2 t d = iblk2 V c 2 t := by
  have keep : ∀ s, (cfg2.win 2).cut (cfg2.grid.coords s) ((dat2 V c).after 2 s) = (dat2 V c).blockOf 2 s := fun s => by
    rw [after2_2, blockOf2]
  rw [(dat2 V c).before_in_eq_fetched 2 rfl (fun _ => rfl) (fun _ _ _ => rfl) keep t d]
  unfold Dat.fetched; rw [blockOf2]; rfl
theorem before2_3 (c : Dev nD) (t : Fin cfg2.N) (d) : (dat2 V c).before 3 t d = iblk2 V c 3 t := by
  have keep : ∀ s, (cfg2.win 3).cut (cfg2.grid.coords s) ((dat2 V c).after 3 s) = (dat2 V c).blockOf 3 s := fun s => by
    rw [after2_3, blockOf2]
  rw [(dat2 V c).before_in_eq_fetched 3 rfl (fun _ => rfl) (fun _ _ _ => rfl) keep t d]
  unfold Dat.fetched; rw [blockOf2]; rfl

/-- What the body is handed at point `t`: the invariant, what the core owes, and each window's current staging buffer, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it hands back. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at a point: the four inputs' buffers hold their blocks, so the body's triple applies at those blocks; the invariant
    and what the core owes are not touched and are the same at the next point. -/
theorem body_at2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2, before2_3]
  rw [after2_0, after2_1, after2_2, after2_3, after2_4,
    show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩⟩
  iapply (kernel_triple2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every grid point. -/
theorem body_obligation2 (c : Dev nD) : BodyObligation (dat2 (F := F) V c) (defs₀ (F := F)) Variants.none () Set.univ := fun t => by
  rw [bigSep_W2, bigSep_W2]
  exact body_at2 V c t

end Cert.Kernel.Hand

end
-- ==== Proof.Kernel.Run.lean ====
/-
  The whole program as four segments: the host's two reshapes, then the three launches, each entered from "every unscoped
  buffer at the previous boundary's contents" and left at the next boundary's. The contents at a boundary are a fold from
  the launch memory: the host operations applied, then, launch by launch, each window's array replaced by what the launch's
  write-backs leave there and every other buffer kept. One run over those segments ends with every unscoped buffer at the
  last boundary's contents; that the arguments are unchanged, and what the result buffer holds, are both read off it.
-/
import proofs.«428716_j47717086658967_3_alg».proof.Proof.Kernel.Reg0
import proofs.«428716_j47717086658967_3_alg».proof.Proof.Kernel.Reg1
import proofs.«428716_j47717086658967_3_alg».proof.Proof.Kernel.Reg2
import proofs.«428716_j47717086658967_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents at the five boundaries -/

/-- At launch. -/
abbrev W0 : Dev nD → Valuation τ sig (Elt F) := fun c b => m (c, b)
/-- After the host's two reshapes. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the first launch: its windows' arrays at what its write-backs leave, every other buffer kept. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second launch. -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b
/-- After the third launch. -/
def W4 (c : Dev nD) : Valuation τ sig (Elt F) :=
  Pipeline.withArrays spec2 c (W3 m c) fun w => (dat2 (V3 m) c).arrAt w cfg2.N
abbrev V4 : (c : Dev nD) → (b : Ref sig .tc) → Buf (Elt F) ((c : Thread nD τ).loc b) := fun c b => W4 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb

/-! ## The proof data of the three launches, each at its entry contents -/

abbrev adm : (p : Fin 3) → (pcfgs (F := F) p).Adm := fun p => (cfgs p).toPCfg_adm

def pdats : (p : Fin 3) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- The host's two reshapes as a segment from the launch contents. -/
abbrev seg0 : Pipeline.HostSeg (Name := ℕ) (U := Pipeline.UD sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Cert.Kernel.Gen.hostOps0_fresh) op h) (W0 m) R

/-! ## The first launch as a segment -/

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

set_option backward.isDefEq.respectTransparency.types false in
/-- Entered from every unscoped buffer at the contents after the host's reshapes, left at the contents after its write-backs.
    Its windows' arrays are sorted out of the unscoped buffers at entry and put back, at what the write-backs left, at exit;
    the generator register goes into the launch's invariant and comes back; nothing is owed; it has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second launch as a segment -/

theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

set_option backward.isDefEq.respectTransparency.types false in
/-- Entered from every unscoped buffer at the contents after the first launch, left at the contents after its own write-backs.
    Its windows' arrays are sorted out of the unscoped buffers at entry and put back, at what the write-backs left, at exit;
    the generator register and the two accumulator buffers go into the launch's invariant, which tracks what the accumulators hold
    from point to point, and come back at the end; nothing is owed; it has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_last_out (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The third launch as a segment -/

theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

set_option backward.isDefEq.respectTransparency.types false in
/-- Entered from every unscoped buffer at the contents after the second launch, left at the last boundary's contents.
    Its windows' arrays are sorted out of the unscoped buffers at entry and put back, at what the write-backs left, at exit;
    the generator register goes into the launch's invariant and comes back; nothing is owed; it has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the one run -/

/-- The four segments in order. -/
abbrev segs : List (Pipeline.Seg (pcfgs (F := F)) adm (pdats m) () defs₀ 𝒱₀ L lv) :=
  [ .host (seg0 m), .region (reg0 m), .region (reg1 m), .region (reg2 m) ]

/-- The program is the run of its segments. -/
theorem main_run (c : Dev nD) : main (F := F) c = Pipeline.Seg.run (segs m) := (main_chain c).trans (by chain_rfl)

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes: every unscoped buffer at the last boundary's contents, the register at some state. -/
abbrev Tlast (c : Dev nD) : sProp 𝕄 := iprop(StableHlo.held (c : Thread nD τ) (Pipeline.ucRefs τ sig) (W4 m c) ∗ ∃ r, prngReg c r)

set_option backward.isDefEq.respectTransparency.types false in
/-- THE RUN. From any memory with zero counters every weakly fair execution of the program terminates, nothing faulting,
    and in every final memory each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m)
    (hch := ⟨fun _ => .rfl, fun _ => .rfl, fun _ => .rfl, fun _ => .rfl, fun c => by
      -- the same resources, bracketed as the launch reads them: the buffers and the register, beside the owes
      show iprop(StableHlo.held (c : Thread nD τ) (Pipeline.ucRefs τ sig) (W4 m c) ∗ R c)
        ⊢ iprop(Tlast m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.Kernel.Frame.lean ====
/-
  What the one run gives: every argument's buffer ends as launched, and the result buffer ends at what the third launch's
  write-backs leave in its array. An argument's contents at the last boundary are walked back boundary by boundary: a launch
  that only reads a buffer leaves its array as it found it, a launch that does not name it leaves it alone, and the host's two
  reshapes write only their own results.
-/
import proofs.«428716_j47717086658967_3_alg».proof.Proof.Kernel.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- `main_arg0` ends as launched: read by the first launch only, written by none, and not by the host's reshapes. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := Cert.Kernel.Gen.V1_of m c main_arg0 (by decide)
/-- `main_arg1` ends as launched: read by the second and third launches, written by none, and not by the host's reshapes. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((dat2 (V3 m) c).arrAt_in 0 rfl _).trans (A_eq2 (V3 m) c 0))
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = m ((c : Thread nD τ).loc main_arg1) := Cert.Kernel.Gen.V1_of m c main_arg1 (by decide)
/-- `main_arg2` ends as launched: read by the first launch only, written by none, and not by the host's reshapes. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = m ((c : Thread nD τ).loc main_arg2) := Cert.Kernel.Gen.V1_of m c main_arg2 (by decide)
/-- `main_arg3` ends as launched: read by the second launch only, written by none, and not by the host's reshapes. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := (W3_arr m c 3).trans (((dat1 (V2 m) c).arrAt_in 3 rfl _).trans (A_eq1 (V2 m) c 3))
    _ = W1 m c (Proc.devRef .tc main_arg3) := W2_of_ne m c main_arg3 (by decide)
    _ = m ((c : Thread nD τ).loc main_arg3) := Cert.Kernel.Gen.V1_of m c main_arg3 (by decide)
/-- `main_arg4` ends as launched: read by no launch (its reshape is), written by none, and not by the host's reshapes. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = m ((c : Thread nD τ).loc main_arg4) := Cert.Kernel.Gen.V1_of m c main_arg4 (by decide)
/-- `main_arg5` ends as launched: read by the second launch only, written by none, and not by the host's reshapes. -/
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := (W3_arr m c 4).trans (((dat1 (V2 m) c).arrAt_in 4 rfl _).trans (A_eq1 (V2 m) c 4))
    _ = W1 m c (Proc.devRef .tc main_arg5) := W2_of_ne m c main_arg5 (by decide)
    _ = m ((c : Thread nD τ).loc main_arg5) := Cert.Kernel.Gen.V1_of m c main_arg5 (by decide)
/-- `main_arg6` ends as launched: read by no launch (its reshape is), written by none, and not by the host's reshapes. -/
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of_ne m c main_arg6 (by decide)
    _ = W1 m c (Proc.devRef .tc main_arg6) := W2_of_ne m c main_arg6 (by decide)
    _ = m ((c : Thread nD τ).loc main_arg6) := Cert.Kernel.Gen.V1_of m c main_arg6 (by decide)

/-- THE FRAME, at any float instance: every weakly fair execution terminates, nothing faults, the arguments end unchanged. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c)⟩) (run_all m ρ)

/-- The same run with the result named: the result buffer ends at what the third launch's write-backs leave in its array. -/
theorem result_any : θ_run defs (onTc (τ := τ) (main (F := F))) ⟨m, fun _ => 0, ρ⟩ (fun r => ∀ c : Dev nD,
      r.2.mem ((c.tc : Thread nD τ).loc main_v4) = (dat2 (V3 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v4 (by decide))).trans (W4_arr m c 4),
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c)⟩) (run_all m ρ)

end Cert.Kernel.Hand

end
-- ==== Proof.KernelIdeal.Reg0.lean ====
/-
  The first launch: `xw = x · w1` on blocks of 2048 rows, its leaky image against the two logit rows, eight grid points.
  Each point reads its block of `x` and the whole of `w1`, `a1ᵀ`, `a22ᵀ`, and writes its block of each of the three results
  whole, so a result array after the launch is, block by block, what the point's body stored.
-/
import proofs.«428716_j47717086658967_3_alg».proof.Proof.Gen.KernelIdeal.Launch
import proofs.«428716_j47717086658967_3_alg».proof.Proof.Gen.KernelIdeal.Skeleton
import proofs.«428716_j47717086658967_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the launch is entered
variable (V : (c : Dev nD) → (b : Ref sig .tc) → Buf (Elt F) ((c : Thread nD τ).loc b))

/-- Window `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-block rectangles the body stores through. -/
abbrev rXW : Rect S2048x256 := Rect.unit (s := S2048x256) ![0, 0] S2048x256.size inb_S2048x256_S2048x256_0_0
abbrev rCol : Rect S2048x1 := Rect.unit (s := S2048x1) ![0, 0] S2048x1.size inb_S2048x1_S2048x1_0_0

/-- What the body leaves in the staging buffer of `xw`'s block (stored in the narrower float format), of the first logit's
    column and of the second's: one whole-block store each, over the block of `x` and the whole operands. -/
def out0_4 (x0 : Vec F S2048x256 .f32) (x1 : Vec F S256x256 .f32) : Vec F S2048x256 .bf16 :=
  View.canon [⟨rXW, k0_pay5 x0 x1⟩]
def out0_5 (x0 : Vec F S2048x256 .f32) (x1 : Vec F S256x256 .f32) (x2 : Vec F S1x256 .f32) : Vec F S2048x1 .f32 :=
  View.canon [⟨rCol, k0_pay3 x0 x1 x2⟩]
def out0_6 (x0 : Vec F S2048x256 .f32) (x1 : Vec F S256x256 .f32) (x3 : Vec F S1x256 .f32) : Vec F S2048x1 .f32 :=
  View.canon [⟨rCol, k0_pay4 x0 x1 x3⟩]

/-- The launch's proof data on core `c`: the arrays as it finds them; after the body at point `t` each input's buffer still at
    its block and each result's at what the body stored; the scoped rest and the generator register untouched; nothing owed. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

/-! ### The proof data read window by window

The proof data's `after` is a `match` on the window; each arm is read off by unfolding the data alone. -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) := by dsimp only [dat0]
theorem after0_5 (c : Dev nD) (t : Fin cfg0.N) :
    (dat0 V c).after 5 t = out0_5 (iblk0 V c 0 t) (iblk0 V c 1 t) (iblk0 V c 2 t) := by dsimp only [dat0]
theorem after0_6 (c : Dev nD) (t : Fin cfg0.N) :
    (dat0 V c).after 6 t = out0_6 (iblk0 V c 0 t) (iblk0 V c 1 t) (iblk0 V c 3 t) := by dsimp only [dat0]

/-! ### An input's staging buffer holds its block at every point

The block of `x` is fetched at every point. The three whole operands are fetched at the first point only; at a later point
their block index has not moved and the body left the block where it found it, so the buffer still holds it. -/

theorem before0_0 (c : Dev nD) (t : Fin cfg0.N) (d) : (dat0 V c).before 0 t d = iblk0 V c 0 t := by
  rw [(dat0 V c).before_in_eq_fetched 0 rfl (fun _ => rfl) (fun _ _ _ => rfl) (fun u => by rw [after0_0]; rfl) t d]
  rfl
theorem before0_1 (c : Dev nD) (t : Fin cfg0.N) (d) : (dat0 V c).before 1 t d = iblk0 V c 1 t := by
  rw [(dat0 V c).before_in_eq_fetched 1 rfl (fun _ => rfl) (fun _ _ _ => rfl) (fun u => by rw [after0_1]; rfl) t d]
  rfl
theorem before0_2 (c : Dev nD) (t : Fin cfg0.N) (d) : (dat0 V c).before 2 t d = iblk0 V c 2 t := by
  rw [(dat0 V c).before_in_eq_fetched 2 rfl (fun _ => rfl) (fun _ _ _ => rfl) (fun u => by rw [after0_2]; rfl) t d]
  rfl
theorem before0_3 (c : Dev nD) (t : Fin cfg0.N) (d) : (dat0 V c).before 3 t d = iblk0 V c 3 t := by
  rw [(dat0 V c).before_in_eq_fetched 3 rfl (fun _ => rfl) (fun _ _ _ => rfl) (fun u => by rw [after0_3]; rfl) t d]
  rfl

/-! ### Loads and stores through the rectangle that is the whole block -/

namespace Reg0

/-- The offsets of a whole-block rectangle of rank two. -/
theorem origin2 : (![0, 0] : Fin 2 → ℕ) = fun _ => 0 := by
  funext a; fin_cases a <;> rfl

/-- A load through the whole-block rectangle reads what the buffer reads. -/
theorem load_whole {κ : Kind} {sp : Space} {S : Shape} {e : EltTy} (v : View sig κ sp S e) (f : v.ty.Contents (Elt F))
    {off : Fin S.rank → ℕ} (hz : off = fun _ => 0) (inb : ∀ a, off a + S.size a ≤ S.size a) :
    v.readAt (Elt F) (Rect.unit off S.size inb).toLoadRect f = v.read (Elt F) f :=
  (View.readAt_eq_ld v f _).trans (View.ld_unit_zero hz inb _)

/-- After one store through the whole-block rectangle, over any earlier contents, the buffer reads the canon of that store. -/
theorem read_store_whole {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [(⟨Rect.unit off S.size inb, w⟩ : View.Piece (Elt F) S e)])
      = View.canon [(⟨Rect.unit off S.size inb, w⟩ : View.Piece (Elt F) S e)] :=
  View.read_writes_eq_canon v f _ fun y => ⟨_, List.mem_singleton_self _, View.mem_set_unit_zero hz inb y⟩

end Reg0

/-! ### The body on whole staging memrefs

With the four inputs' memrefs reading `x0`, `x1`, `x2`, `x3` and the three results' at anything, the body loads the inputs
whole, and stores each result once through the rectangle that is the whole block: the inputs are as they were, and each
result's memref reads the one payload stored into it. A load through the whole-block rectangle reads the contents, so the
payloads are functions of `x0` … `x3` themselves. -/

set_option maxHeartbeats 1000000 in
theorem kernel_run0 (c : Dev nD) (E : Set ℕ) (i : grid0.Coords)
    (a1 : Memref sig .tc .vmem S2048x256 .f32) (h1 : a1.IsWhole) (a2 : Memref sig .tc .vmem S256x256 .f32) (h2 : a2.IsWhole)
    (a3 : Memref sig .tc .vmem S1x256 .f32) (h3 : a3.IsWhole) (a4 : Memref sig .tc .vmem S1x256 .f32) (h4 : a4.IsWhole)
    (a5 : Memref sig .tc .vmem S2048x256 .bf16) (h5 : a5.IsWhole) (a6 : Memref sig .tc .vmem S2048x1 .f32) (h6 : a6.IsWhole)
    (a7 : Memref sig .tc .vmem S2048x1 .f32) (h7 : a7.IsWhole)
    (x0 : Vec F S2048x256 .f32) (x1 : Vec F S256x256 .f32) (x2 x3 : Vec F S1x256 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ (∃ d, owns (c : Thread nD τ) a5 fullShare d) ∗ (∃ d, owns (c : Thread nD τ) a6 fullShare d)
        ∗ (∃ d, owns (c : Thread nD τ) a7 fullShare d)
        ∗ (iprop(owns (c : Thread nD τ) a1 fullShare x0 ∗ owns (c : Thread nD τ) a2 fullShare x1
            ∗ owns (c : Thread nD τ) a3 fullShare x2 ∗ owns (c : Thread nD τ) a4 fullShare x3
            ∗ owns (c : Thread nD τ) a5 fullShare (out0_4 x0 x1) ∗ owns (c : Thread nD τ) a6 fullShare (out0_5 x0 x1 x2)
            ∗ owns (c : Thread nD τ) a7 fullShare (out0_6 x0 x1 x3)) -∗ K ⟨⟩))
      ⊢ wp frame (wpE (defs₀ (F := F)) Variants.none c none) E
          (cc0__passA_kernel i a1 h1 a2 h2 a3 h3 a4 h4 a5 h5 a6 h6 a7 h7) K := by
  simp only [cc0__passA_kernel_eq_skeleton]; unfold cc0__passA_kernel_skel
  unfold owns
  iintro ⟨⟨%f1, %e1, H1⟩, ⟨%f2, %e2, H2⟩, ⟨%f3, %e3, H3⟩, ⟨%f4, %e4, H4⟩, ⟨%d5, %f5, -, H5⟩, ⟨%d6, %f6, -, H6⟩,
    ⟨%d7, %f7, -, H7⟩, Hk⟩
  subst e1 e2 e3 e4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [Reg0.read_store_whole _ _ Reg0.origin2, Reg0.load_whole _ _ Reg0.origin2, Reg0.load_whole _ _ Reg0.origin2]
    rfl
  isplitl [H6]
  · iexists _; isplitr
    swap; · iexact H6
    ipureintro
    rw [Reg0.read_store_whole _ _ Reg0.origin2, Reg0.load_whole _ _ Reg0.origin2, Reg0.load_whole _ _ Reg0.origin2, Reg0.load_whole _ _ Reg0.origin2]
    rfl
  · iexists _; isplitr
    swap; · iexact H7
    ipureintro
    rw [Reg0.read_store_whole _ _ Reg0.origin2, Reg0.load_whole _ _ Reg0.origin2, Reg0.load_whole _ _ Reg0.origin2, Reg0.load_whole _ _ Reg0.origin2]
    rfl

/-! ### The obligation at a point

At point `t` the four inputs' current buffers hold their blocks, so the body runs as above on the blocks; the launch's
invariant and what the core owes are not read and pass through. -/

theorem point_run0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d))
        ∗ (∃ d, owns (c : Thread nD τ) (st0_3 t) fullShare ((dat0 V c).before 3 t d))
        ∗ (∃ d, owns (c : Thread nD τ) (st0_4 t) fullShare ((dat0 V c).before 4 t d))
        ∗ (∃ d, owns (c : Thread nD τ) (st0_5 t) fullShare ((dat0 V c).before 5 t d))
        ∗ (∃ d, owns (c : Thread nD τ) (st0_6 t) fullShare ((dat0 V c).before 6 t d)))
      ⊢ wp frame (wpE (defs₀ (F := F)) Variants.none c none) Set.univ (bodyAt0 t) fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t)
            ∗ owns (c : Thread nD τ) (st0_3 t) fullShare ((dat0 V c).after 3 t)
            ∗ owns (c : Thread nD τ) (st0_4 t) fullShare ((dat0 V c).after 4 t)
            ∗ owns (c : Thread nD τ) (st0_5 t) fullShare ((dat0 V c).after 5 t)
            ∗ owns (c : Thread nD τ) (st0_6 t) fullShare ((dat0 V c).after 6 t)) := by
  unfold bodyAt0
  simp only [before0_0, before0_1, before0_2, before0_3]
  rw [after0_0, after0_1, after0_2, after0_3, after0_4, after0_5, after0_6,
    show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (kernel_run0 c Set.univ _ _ _ _ _ _ _ _ _ _ _ _ _ _ _
    (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation at every grid point. -/
theorem body_obligation0 (c : Dev nD) : BodyObligation (dat0 (F := F) V c) (defs₀ (F := F)) Variants.none () Set.univ := fun t => by
  rw [bigSep_W0, bigSep_W0]
  exact point_run0 V c t

end Cert.KernelIdeal.Hand

end
-- ==== Proof.KernelIdeal.Reg1.lean ====
/-
  The second launch: for a block of 2048 edge columns, over thirty-two steps of 512 nodes each, the sums
  sum_n e n j * xw n d and sum_n e n j with e n j = exp (8 * tanh (f1 n / 8)) * H n j, kept from step to step in two
  buffers of the kernel's own that the first step of each block of columns resets; at the last step the quotient of
  the two sums, its leaky image, the product with w2 (stored in the narrower float format) and the logit row against
  a21 are stored into the two results' blocks, which are written back only there. Sixty-four grid points.
-/
import proofs.«428716_j47717086658967_3_alg».proof.Proof.Gen.KernelIdeal.Launch
import proofs.«428716_j47717086658967_3_alg».proof.Proof.Gen.KernelIdeal.Skeleton
import proofs.«428716_j47717086658967_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the launch is entered
variable (V : (c : Dev nD) → (b : Ref sig .tc) → Buf (Elt F) ((c : Thread nD τ).loc b))

/-- Window `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two buffers the kernel carries from step to step. -/
abbrev scM1_0 : Memref sig .tc .vmem S2048x256 .f32 := Memref.whole cc1_scratch0
abbrev scM1_1 : Memref sig .tc .vmem S2048x1 .f32 := Memref.whole cc1_scratch1

/-- One step of the accumulation at point `t`: both sums advanced by the step's 512 nodes. -/
def step1 (c : Dev nD) (t : Fin cfg1.N) (s : Vec F S2048x256 .f32 × Vec F S2048x1 .f32) : Vec F S2048x256 .f32 × Vec F S2048x1 .f32 :=
  (k1_pay7 (iblk1 V c 0 t) (iblk1 V c 2 t) (iblk1 V c 1 t) s.1, k1_pay8 (iblk1 V c 0 t) (iblk1 V c 2 t) s.2)

/-- The two carried buffers after point `n`: at the first step of a block of columns the step over zeros, else over
    what the point before left. -/
def acc1 (c : Dev nD) : (n : ℕ) → n < cfg1.N → Vec F S2048x256 .f32 × Vec F S2048x1 .f32
  | 0, hn => step1 V c ⟨0, hn⟩ (k1_pay4, k1_pay5)
  | n + 1, hn =>
    if (n + 1) % 32 = 0 then step1 V c ⟨n + 1, hn⟩ (k1_pay4, k1_pay5)
    else step1 V c ⟨n + 1, hn⟩ (acc1 c n (Nat.lt_of_succ_lt hn))

/-- At the first step of a block of columns. -/
theorem acc1_first (c : Dev nD) (t : Fin cfg1.N) (h0 : t.val % 32 = 0) :
    acc1 V c t.val t.isLt = step1 V c t (k1_pay4, k1_pay5) := by
  obtain ⟨n, hn⟩ := t
  cases n with
  | zero => rfl
  | succ n => exact if_pos h0

/-- At a later step. -/
theorem acc1_later (c : Dev nD) (t : Fin cfg1.N) (h0 : ¬t.val % 32 = 0) :
    acc1 V c t.val t.isLt = step1 V c t (acc1 V c (t.val - 1) (Nat.lt_of_le_of_lt (Nat.sub_le _ _) t.isLt)) := by
  obtain ⟨n, hn⟩ := t
  cases n with
  | zero => exact absurd (Nat.zero_mod _) h0
  | succ n => exact if_neg h0

/-- The whole-block rectangles the last step stores through. -/
abbrev r1FW : Rect S2048x256 := Rect.unit (s := S2048x256) ![0, 0] S2048x256.size inb_S2048x256_S2048x256_0_0
abbrev r1ES : Rect S1x2048 := Rect.unit (s := S1x2048) ![0, 0] S1x2048.size inb_S1x2048_S1x2048_0_0

/-- What the last step leaves in the two results' staging buffers: one whole-block store each, over the two sums and the
    whole operands. -/
def out1_5 (s0 : Vec F S2048x256 .f32) (s1 : Vec F S2048x1 .f32) (w2 : Vec F S256x256 .f32) : Vec F S2048x256 .bf16 :=
  View.canon [⟨r1FW, k1_pay3 s0 s1 w2⟩]
def out1_6 (s0 : Vec F S2048x256 .f32) (s1 : Vec F S2048x1 .f32) (w2 : Vec F S256x256 .f32) (a21 : Vec F S256x1 .f32) : Vec F S1x2048 .f32 :=
  View.canon [⟨r1ES, k1_pay2 s0 s1 w2 a21⟩]

/-! ### The body's two conditions, decided over the grid -/

/-- The reset's condition: the step is the first of its block of columns. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 32 = 0 :=
  (by decide +kernel : ∀ t : Fin grid1.N, cond1_0 (grid1.coords t) ↔ t.val % 32 = 0)
/-- The results' condition: the step is the last of its block of columns. -/
abbrev cond1_1 (i : grid1.Coords) : Prop := k1_cond2 i = 1#1
theorem hcond1_1 : ∀ t : Fin cfg1.N, cond1_1 (grid1.coords t) ↔ t.val % 32 = 31 :=
  (by decide +kernel : ∀ t : Fin grid1.N, cond1_1 (grid1.coords t) ↔ t.val % 32 = 31)

/-! ### Loads and stores through the rectangle that is the whole buffer -/

/-- The offsets of a whole-buffer rectangle of rank two. -/
theorem zero2 : (![0, 0] : Fin 2 → ℕ) = fun _ => 0 := by
  funext a; fin_cases a <;> rfl

/-- A load through the whole-buffer rectangle reads what the buffer reads. -/
theorem load_all {κ : Kind} {sp : Space} {S : Shape} {e : EltTy} (v : View sig κ sp S e) (f : v.ty.Contents (Elt F))
    {off : Fin S.rank → ℕ} (hz : off = fun _ => 0) (inb : ∀ a, off a + S.size a ≤ S.size a) :
    v.readAt (Elt F) (Rect.unit off S.size inb).toLoadRect f = v.read (Elt F) f :=
  (View.readAt_eq_ld v f _).trans (View.ld_unit_zero hz inb _)

/-- After a last store through the whole-buffer rectangle, whatever the earlier stores and contents, the buffer reads
    that store's payload. -/
theorem read_store_all {κ : Kind} {sp : Space} {S : Shape} {e : EltTy} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero hz inb y⟩).trans
    (View.canon_cons_unit_zero hz inb w L)

/-- A load through the whole-buffer rectangle after a last store through it reads that store's payload. -/
theorem load_store_all {κ : Kind} {sp : Space} {S : Shape} {e : EltTy} (v : View sig κ sp S e)
    {off : Fin S.rank → ℕ} (hz : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w :=
  View.readCov_cons_toLoadRect v (Rect.unit off S.size inb) w L

/-- The core's scoped buffers that are neither a staging buffer of this launch nor one of the two carried buffers. -/
abbrev rest1 (c : Dev nD) : sProp 𝕄 :=
  Pipeline.scopedRestBut (Ix := Unit) (Name := ℕ) (U := Pipeline.UD sig nD τ) (Lvl := ℕ) (Val := Elt F) spec1 c [cc1_scratch0, cc1_scratch1]

/-- The invariant before position `n`: before the first point the class's; afterwards the two carried buffers at what the
    point before left, the other scoped buffers at anything, the generator register at some state. -/
def Phi1 (c : Dev nD) : (n : ℕ) → n ≤ cfg1.N → sProp 𝕄
  | 0, _ => Pipeline.ΦA spec1 c
  | n + 1, hn => iprop(owns (c : Thread nD τ) scM1_0 fullShare (acc1 V c n hn).1 ∗ owns (c : Thread nD τ) scM1_1 fullShare (acc1 V c n hn).2
      ∗ rest1 (F := F) c ∗ (∃ r, prngReg c r))

/-- The launch's proof data on core `c`. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (acc1 V c t.val t.isLt).1 (acc1 V c t.val t.isLt).2 (iblk1 V c 3 t)
    | ⟨6, _⟩ => out1_6 (acc1 V c t.val t.isLt).1 (acc1 V c t.val t.isLt).2 (iblk1 V c 3 t) (iblk1 V c 4 t)
  Φ t := Phi1 V c t.val (Nat.le_of_lt_succ t.isLt)
  q _ := fullShare
  owed _ := 0

theorem Phi1_zero (c : Dev nD) : (dat1 V c).Φ 0 = Pipeline.ΦA spec1 c := rfl

theorem Phi1_succ (c : Dev nD) (t : Fin cfg1.N) : (dat1 V c).Φ t.succ
    = iprop(owns (c : Thread nD τ) scM1_0 fullShare (acc1 V c t.val t.isLt).1 ∗ owns (c : Thread nD τ) scM1_1 fullShare (acc1 V c t.val t.isLt).2
      ∗ rest1 (F := F) c ∗ (∃ r, prngReg c r)) := rfl

theorem A_eq1 (c : Dev nD) (w : Fin cfg1.W) : (dat1 V c).A w = V c (Pipeline.arrRef spec1 w) := by
  dsimp only [dat1]

/-! ### The proof data read window by window -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (acc1 V c t.val t.isLt).1 (acc1 V c t.val t.isLt).2 (iblk1 V c 3 t) := by dsimp only [dat1]
theorem after1_6 (c : Dev nD) (t : Fin cfg1.N) :
    (dat1 V c).after 6 t = out1_6 (acc1 V c t.val t.isLt).1 (acc1 V c t.val t.isLt).2 (iblk1 V c 3 t) (iblk1 V c 4 t) := by dsimp only [dat1]

/-! ### An input's staging buffer holds its block at every point

The blocks of `H`, `xw` and `f1` are fetched at every point. The two whole operands are fetched at the first point only; at a
later point their block index has not moved and the body left the block where it found it. -/

theorem before1_0 (c : Dev nD) (t : Fin cfg1.N) (d) : (dat1 V c).before 0 t d = iblk1 V c 0 t := by
  rw [(dat1 V c).before_in_eq_fetched 0 rfl (fun _ => rfl) (fun _ _ _ => rfl) (fun u => by rw [after1_0]; rfl) t d]
  rfl
theorem before1_1 (c : Dev nD) (t : Fin cfg1.N) (d) : (dat1 V c).before 1 t d = iblk1 V c 1 t := by
  rw [(dat1 V c).before_in_eq_fetched 1 rfl (fun _ => rfl) (fun _ _ _ => rfl) (fun u => by rw [after1_1]; rfl) t d]
  rfl
theorem before1_2 (c : Dev nD) (t : Fin cfg1.N) (d) : (dat1 V c).before 2 t d = iblk1 V c 2 t := by
  rw [(dat1 V c).before_in_eq_fetched 2 rfl (fun _ => rfl) (fun _ _ _ => rfl) (fun u => by rw [after1_2]; rfl) t d]
  rfl
theorem before1_3 (c : Dev nD) (t : Fin cfg1.N) (d) : (dat1 V c).before 3 t d = iblk1 V c 3 t := by
  rw [(dat1 V c).before_in_eq_fetched 3 rfl (fun _ => rfl) (fun _ _ _ => rfl) (fun u => by rw [after1_3]; rfl) t d]
  rfl
theorem before1_4 (c : Dev nD) (t : Fin cfg1.N) (d) : (dat1 V c).before 4 t d = iblk1 V c 4 t := by
  rw [(dat1 V c).before_in_eq_fetched 4 rfl (fun _ => rfl) (fun _ _ _ => rfl) (fun u => by rw [after1_4]; rfl) t d]
  rfl

/-! ### Where the windows are idle -/

theorem leaves1_0 (c : Dev nD) (t : Fin cfg1.N) :
    (dat1 V c).leavesExact 0 t = owns (c : Thread nD τ) (st1_0 t) fullShare (iblk1 V c 0 t) := by
  rw [← after1_0]
theorem leaves1_1 (c : Dev nD) (t : Fin cfg1.N) :
    (dat1 V c).leavesExact 1 t = owns (c : Thread nD τ) (st1_1 t) fullShare (iblk1 V c 1 t) := by
  rw [← after1_1]
theorem leaves1_2 (c : Dev nD) (t : Fin cfg1.N) :
    (dat1 V c).leavesExact 2 t = owns (c : Thread nD τ) (st1_2 t) fullShare (iblk1 V c 2 t) := by
  rw [← after1_2]
theorem leaves1_3 (c : Dev nD) (t : Fin cfg1.N) :
    (dat1 V c).leavesExact 3 t = owns (c : Thread nD τ) (st1_3 t) fullShare (iblk1 V c 3 t) := by
  rw [← after1_3]
theorem leaves1_4 (c : Dev nD) (t : Fin cfg1.N) :
    (dat1 V c).leavesExact 4 t = owns (c : Thread nD τ) (st1_4 t) fullShare (iblk1 V c 4 t) := by
  rw [← after1_4]

/-- The two results' windows are idle off the last step of a block of columns, -/
theorem idleAt1_5 (i : grid1.Coords) (h : ¬cond1_1 i) : cfg1.idle 5 i = true := by
  have hb : (k1_cond2 i == 1#1) = false := beq_eq_false_iff_ne.mpr h
  show (!(k1_cond2 i == 1#1)) = true
  rw [hb]; rfl
theorem idleAt1_6 (i : grid1.Coords) (h : ¬cond1_1 i) : cfg1.idle 6 i = true := by
  have hb : (k1_cond2 i == 1#1) = false := beq_eq_false_iff_ne.mpr h
  show (!(k1_cond2 i == 1#1)) = true
  rw [hb]; rfl
/-- are not written back there, -/
theorem noFlush1_5 (t : Fin cfg1.N) (h : ¬t.val % 32 = 31) : (cfg1.win 5).flush t = false := by
  cases hf : (cfg1.win 5).flush t
  · rfl
  · exact absurd ((flush1_5 t).mp hf) h
theorem noFlush1_6 (t : Fin cfg1.N) (h : ¬t.val % 32 = 31) : (cfg1.win 6).flush t = false := by
  cases hf : (cfg1.win 6).flush t
  · rfl
  · exact absurd ((flush1_6 t).mp hf) h
/-- and are live at the last step. -/
theorem liveAt1_5 (i : grid1.Coords) (h : cond1_1 i) : cfg1.idle 5 i = false := by
  show (!(k1_cond2 i == 1#1)) = false
  rw [show k1_cond2 i = 1#1 from h]; rfl
theorem liveAt1_6 (i : grid1.Coords) (h : cond1_1 i) : cfg1.idle 6 i = false := by
  show (!(k1_cond2 i == 1#1)) = false
  rw [show k1_cond2 i = 1#1 from h]; rfl

theorem leaves1_5_live (c : Dev nD) (t : Fin cfg1.N) (h : cond1_1 (grid1.coords t)) :
    (dat1 V c).leavesExact 5 t = owns (c : Thread nD τ) (st1_5 t) fullShare
      (out1_5 (acc1 V c t.val t.isLt).1 (acc1 V c t.val t.isLt).2 (iblk1 V c 3 t)) := by
  rw [← after1_5]; unfold Dat.leavesExact; rw [liveAt1_5 _ h]
theorem leaves1_6_live (c : Dev nD) (t : Fin cfg1.N) (h : cond1_1 (grid1.coords t)) :
    (dat1 V c).leavesExact 6 t = owns (c : Thread nD τ) (st1_6 t) fullShare
      (out1_6 (acc1 V c t.val t.isLt).1 (acc1 V c t.val t.isLt).2 (iblk1 V c 3 t) (iblk1 V c 4 t)) := by
  rw [← after1_6]; unfold Dat.leavesExact; rw [liveAt1_6 _ h]

/-! ### The invariant, position by position -/

theorem Phi1_castSucc (c : Dev nD) (t : Fin cfg1.N) :
    (dat1 V c).Φ t.castSucc = Phi1 V c t.val (Nat.le_of_lt t.isLt) := rfl

theorem Phi1_at_zero (c : Dev nD) (n : ℕ) (h : n ≤ cfg1.N) (hz : n = 0) : Phi1 V c n h = Pipeline.ΦA spec1 c := by
  subst hz; rfl

theorem Phi1_pos (c : Dev nD) (n : ℕ) (h : n ≤ cfg1.N) (hz : n ≠ 0) :
    Phi1 V c n h = iprop(owns (c : Thread nD τ) scM1_0 fullShare (acc1 V c (n - 1) (by omega)).1
      ∗ owns (c : Thread nD τ) scM1_1 fullShare (acc1 V c (n - 1) (by omega)).2 ∗ rest1 (F := F) c ∗ (∃ r, prngReg c r)) := by
  cases n with
  | zero => exact absurd rfl hz
  | succ n => rfl

/-- The class's invariant with the two carried buffers as memrefs owned at some contents. -/
theorem PhiA1_eq (c : Dev nD) :
    (Pipeline.ΦA spec1 c : sProp 𝕄)
      = iprop((((∃ d, owns (c : Thread nD τ) scM1_0 fullShare d) ∗ (∃ d, owns (c : Thread nD τ) scM1_1 fullShare d)) ∗ rest1 (F := F) c) ∗ (∃ r, prngReg c r)) := by
  unfold Pipeline.ΦA
  rw [Pipeline.scopedRest_split_of_list spec1 c [cc1_scratch0, cc1_scratch1] (by decide) (by decide)]
  simp only [scM1_0, scM1_1, owns_whole]
  rfl

/-- After any point the invariant gives the class's back: the carried buffers' named contents are forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨HS0, HS1, Hr, Hg⟩
  isplitl [HS0 HS1 Hr]
  · isplitl [HS0 HS1]
    · isplitl [HS0]
      · iexists _; iexact HS0
      · iexists _; iexact HS1
    · iexact Hr
  · iexact Hg

theorem Phi1_last_out (c : Dev nD) : (dat1 V c).Φ (Fin.last cfg1.N) ⊢ Pipeline.ΦA spec1 c :=
  Phi1_out V c _ (by rw [Fin.val_last]; have : cfg1.N = 64 := N_1; omega)

/-! ### The body on whole memrefs, in its three cases -/

set_option maxHeartbeats 1000000 in
/-- The body at the first step of a block of columns: both carried buffers are reset and the step's products added; the
    two results' buffers are not touched. -/
theorem kernel_run1_A (c : Dev nD) (E : Set ℕ) (i : grid1.Coords) (hc0 : cond1_0 i) (hc1 : ¬cond1_1 i)
    (a2 : Memref sig .tc .vmem S512x2048 .f32) (h2 : a2.IsWhole) (a3 : Memref sig .tc .vmem S512x256 .bf16) (h3 : a3.IsWhole)
    (a4 : Memref sig .tc .vmem S512x1 .f32) (h4 : a4.IsWhole) (a5 : Memref sig .tc .vmem S256x256 .f32) (h5 : a5.IsWhole)
    (a6 : Memref sig .tc .vmem S256x1 .f32) (h6 : a6.IsWhole) (a7 : Memref sig .tc .vmem S2048x256 .bf16) (h7 : a7.IsWhole)
    (a8 : Memref sig .tc .vmem S1x2048 .f32) (h8 : a8.IsWhole) (a9 : Memref sig .tc .vmem S2048x256 .f32) (h9 : a9.IsWhole)
    (a10 : Memref sig .tc .vmem S2048x1 .f32) (h10 : a10.IsWhole)
    (x0 : Vec F S512x2048 .f32) (x1 : Vec F S512x256 .bf16) (x2 : Vec F S512x1 .f32) (x3 : Vec F S256x256 .f32) (x4 : Vec F S256x1 .f32)
    (y5 : Vec F S2048x256 .bf16) (y6 : Vec F S1x2048 .f32) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
        ∗ owns (c : Thread nD τ) a7 fullShare y5 ∗ owns (c : Thread nD τ) a8 fullShare y6
        ∗ (∃ d, owns (c : Thread nD τ) a9 fullShare d) ∗ (∃ d, owns (c : Thread nD τ) a10 fullShare d)
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
            ∗ owns (c : Thread nD τ) a7 fullShare y5 ∗ owns (c : Thread nD τ) a8 fullShare y6
            ∗ owns (c : Thread nD τ) a9 fullShare (k1_pay7 x0 x2 x1 k1_pay4) ∗ owns (c : Thread nD τ) a10 fullShare (k1_pay8 x0 x2 k1_pay5)) -∗ K ⟨⟩))
      ⊢ wp frame (wpE (defs₀ (F := F)) Variants.none c none) E
          (cc1__passB_kernel i a2 h2 a3 h3 a4 h4 a5 h5 a6 h6 a7 h7 a8 h8 a9 h9 a10 h10) K := by
  simp only [cc1__passB_kernel_eq_skeleton]; unfold cc1__passB_kernel_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%d9, %f9, -, H9⟩, ⟨%d10, %f10, -, H10⟩, Hk⟩
  subst e2 e3 e4 e5 e6 e7 e8
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    (try unfold out1_5)
    (try unfold out1_6)
    rw [read_store_all _ _ zero2]
    repeat rw [load_store_all _ zero2]
    repeat rw [load_all _ _ zero2]
    (try rw [View.canon_unit_zero zero2])
  · iexists _; isplitr
    swap; · iexact H10
    ipureintro
    sl_unfold_run_names
    (try unfold out1_5)
    (try unfold out1_6)
    rw [read_store_all _ _ zero2]
    repeat rw [load_store_all _ zero2]
    repeat rw [load_all _ _ zero2]
    (try rw [View.canon_unit_zero zero2])

set_option maxHeartbeats 1000000 in
/-- The body at a middle step: the step's products are added into both carried buffers; the two results' buffers are not
    touched. -/
theorem kernel_run1_B (c : Dev nD) (E : Set ℕ) (i : grid1.Coords) (hc0 : ¬cond1_0 i) (hc1 : ¬cond1_1 i)
    (a2 : Memref sig .tc .vmem S512x2048 .f32) (h2 : a2.IsWhole) (a3 : Memref sig .tc .vmem S512x256 .bf16) (h3 : a3.IsWhole)
    (a4 : Memref sig .tc .vmem S512x1 .f32) (h4 : a4.IsWhole) (a5 : Memref sig .tc .vmem S256x256 .f32) (h5 : a5.IsWhole)
    (a6 : Memref sig .tc .vmem S256x1 .f32) (h6 : a6.IsWhole) (a7 : Memref sig .tc .vmem S2048x256 .bf16) (h7 : a7.IsWhole)
    (a8 : Memref sig .tc .vmem S1x2048 .f32) (h8 : a8.IsWhole) (a9 : Memref sig .tc .vmem S2048x256 .f32) (h9 : a9.IsWhole)
    (a10 : Memref sig .tc .vmem S2048x1 .f32) (h10 : a10.IsWhole)
    (x0 : Vec F S512x2048 .f32) (x1 : Vec F S512x256 .bf16) (x2 : Vec F S512x1 .f32) (x3 : Vec F S256x256 .f32) (x4 : Vec F S256x1 .f32)
    (y5 : Vec F S2048x256 .bf16) (y6 : Vec F S1x2048 .f32) (s0 : Vec F S2048x256 .f32) (s1 : Vec F S2048x1 .f32) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
        ∗ owns (c : Thread nD τ) a7 fullShare y5 ∗ owns (c : Thread nD τ) a8 fullShare y6
        ∗ owns (c : Thread nD τ) a9 fullShare s0 ∗ owns (c : Thread nD τ) a10 fullShare s1
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
            ∗ owns (c : Thread nD τ) a7 fullShare y5 ∗ owns (c : Thread nD τ) a8 fullShare y6
            ∗ owns (c : Thread nD τ) a9 fullShare (k1_pay7 x0 x2 x1 s0) ∗ owns (c : Thread nD τ) a10 fullShare (k1_pay8 x0 x2 s1)) -∗ K ⟨⟩))
      ⊢ wp frame (wpE (defs₀ (F := F)) Variants.none c none) E
          (cc1__passB_kernel i a2 h2 a3 h3 a4 h4 a5 h5 a6 h6 a7 h7 a8 h8 a9 h9 a10 h10) K := by
  simp only [cc1__passB_kernel_eq_skeleton]; unfold cc1__passB_kernel_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, ⟨%f10, %e10, H10⟩, Hk⟩
  subst e2 e3 e4 e5 e6 e7 e8 e9 e10
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    sl_unfold_run_names
    (try unfold out1_5)
    (try unfold out1_6)
    rw [read_store_all _ _ zero2]
    repeat rw [load_store_all _ zero2]
    repeat rw [load_all _ _ zero2]
    (try rw [View.canon_unit_zero zero2])
  · iexists _; isplitr
    swap; · iexact H10
    ipureintro
    sl_unfold_run_names
    (try unfold out1_5)
    (try unfold out1_6)
    rw [read_store_all _ _ zero2]
    repeat rw [load_store_all _ zero2]
    repeat rw [load_all _ _ zero2]
    (try rw [View.canon_unit_zero zero2])

set_option maxHeartbeats 1000000 in
/-- The body at the last step of a block of columns: the step's products are added into both carried buffers, and the two
    results' buffers are stored whole over the sums. -/
theorem kernel_run1_C (c : Dev nD) (E : Set ℕ) (i : grid1.Coords) (hc0 : ¬cond1_0 i) (hc1 : cond1_1 i)
    (a2 : Memref sig .tc .vmem S512x2048 .f32) (h2 : a2.IsWhole) (a3 : Memref sig .tc .vmem S512x256 .bf16) (h3 : a3.IsWhole)
    (a4 : Memref sig .tc .vmem S512x1 .f32) (h4 : a4.IsWhole) (a5 : Memref sig .tc .vmem S256x256 .f32) (h5 : a5.IsWhole)
    (a6 : Memref sig .tc .vmem S256x1 .f32) (h6 : a6.IsWhole) (a7 : Memref sig .tc .vmem S2048x256 .bf16) (h7 : a7.IsWhole)
    (a8 : Memref sig .tc .vmem S1x2048 .f32) (h8 : a8.IsWhole) (a9 : Memref sig .tc .vmem S2048x256 .f32) (h9 : a9.IsWhole)
    (a10 : Memref sig .tc .vmem S2048x1 .f32) (h10 : a10.IsWhole)
    (x0 : Vec F S512x2048 .f32) (x1 : Vec F S512x256 .bf16) (x2 : Vec F S512x1 .f32) (x3 : Vec F S256x256 .f32) (x4 : Vec F S256x1 .f32)
    (s0 : Vec F S2048x256 .f32) (s1 : Vec F S2048x1 .f32) (K : PUnit → sProp 𝕄) :
    iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
        ∗ (∃ d, owns (c : Thread nD τ) a7 fullShare d) ∗ (∃ d, owns (c : Thread nD τ) a8 fullShare d)
        ∗ owns (c : Thread nD τ) a9 fullShare s0 ∗ owns (c : Thread nD τ) a10 fullShare s1
        ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4
            ∗ owns (c : Thread nD τ) a7 fullShare (out1_5 (k1_pay7 x0 x2 x1 s0) (k1_pay8 x0 x2 s1) x3)
            ∗ owns (c : Thread nD τ) a8 fullShare (out1_6 (k1_pay7 x0 x2 x1 s0) (k1_pay8 x0 x2 s1) x3 x4)
            ∗ owns (c : Thread nD τ) a9 fullShare (k1_pay7 x0 x2 x1 s0) ∗ owns (c : Thread nD τ) a10 fullShare (k1_pay8 x0 x2 s1)) -∗ K ⟨⟩))
      ⊢ wp frame (wpE (defs₀ (F := F)) Variants.none c none) E
          (cc1__passB_kernel i a2 h2 a3 h3 a4 h4 a5 h5 a6 h6 a7 h7 a8 h8 a9 h9 a10 h10) K := by
  simp only [cc1__passB_kernel_eq_skeleton]; unfold cc1__passB_kernel_skel
  unfold owns
  iintro ⟨⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩,
    ⟨%f9, %e9, H9⟩, ⟨%f10, %e10, H10⟩, Hk⟩
  subst e2 e3 e4 e5 e6 e9 e10
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    (try unfold out1_5)
    (try unfold out1_6)
    rw [read_store_all _ _ zero2]
    repeat rw [load_store_all _ zero2]
    repeat rw [load_all _ _ zero2]
    (try rw [View.canon_unit_zero zero2])
  isplitl [H8]
  · iexists _; isplitr
    swap; · iexact H8
    ipureintro
    sl_unfold_run_names
    (try unfold out1_5)
    (try unfold out1_6)
    rw [read_store_all _ _ zero2]
    repeat rw [load_store_all _ zero2]
    repeat rw [load_all _ _ zero2]
    (try rw [View.canon_unit_zero zero2])
  isplitl [H9]
  · iexists _; isplitr
    swap; · iexact H9
    ipureintro
    sl_unfold_run_names
    (try unfold out1_5)
    (try unfold out1_6)
    rw [read_store_all _ _ zero2]
    repeat rw [load_store_all _ zero2]
    repeat rw [load_all _ _ zero2]
    (try rw [View.canon_unit_zero zero2])
  · iexists _; isplitr
    swap; · iexact H10
    ipureintro
    sl_unfold_run_names
    (try unfold out1_5)
    (try unfold out1_6)
    rw [read_store_all _ _ zero2]
    repeat rw [load_store_all _ zero2]
    repeat rw [load_all _ _ zero2]
    (try rw [View.canon_unit_zero zero2])

/-! ### The obligation at a point

At point `t` the five inputs' current buffers hold their blocks. The invariant hands the body the two carried buffers: at
anything before the first point, else at what the point before left. The step is the first of its block of columns, a
middle one or the last; in each case the body runs as stated above and hands the carried buffers back at this point's
sums. The results' buffers are idle but at a last step, where they are stored whole. What the core owes passes through. -/

set_option maxHeartbeats 2000000 in
theorem point_run1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d))
        ∗ (∃ d, owns (c : Thread nD τ) (st1_4 t) fullShare ((dat1 V c).before 4 t d))
        ∗ (∃ d, owns (c : Thread nD τ) (st1_5 t) fullShare ((dat1 V c).before 5 t d))
        ∗ (∃ d, owns (c : Thread nD τ) (st1_6 t) fullShare ((dat1 V c).before 6 t d)))
      ⊢ wp frame (wpE (defs₀ (F := F)) Variants.none c none) Set.univ (bodyAt1 t) fun _ =>
          iprop((dat1 V c).Φ t.succ ∗ (dat1 V c).owesAt () t.succ
            ∗ (dat1 V c).leavesExact 0 t
            ∗ (dat1 V c).leavesExact 1 t
            ∗ (dat1 V c).leavesExact 2 t
            ∗ (dat1 V c).leavesExact 3 t
            ∗ (dat1 V c).leavesExact 4 t
            ∗ (dat1 V c).leavesExact 5 t
            ∗ (dat1 V c).leavesExact 6 t) := by
  unfold bodyAt1
  simp only [before1_0, before1_1, before1_2, before1_3, before1_4]
  rw [leaves1_0, leaves1_1, leaves1_2, leaves1_3, leaves1_4, Phi1_succ, Phi1_castSucc,
    show (dat1 V c).owesAt () t.succ = (dat1 V c).owesAt () t.castSucc from rfl]
  have hN : t.val < 64 := lt_of_lt_of_eq t.isLt (show cfg1.N = 64 from N_1)
  by_cases h0 : t.val % 32 = 0
  · have h1 : ¬t.val % 32 = 31 := by omega
    have hc0 : cond1_0 (grid1.coords t) := (hcond1_0 t).mpr h0
    have hc1 : ¬cond1_1 (grid1.coords t) := fun h => h1 ((hcond1_1 t).mp h)
    rw [Dat.leavesExact_idle (dat1 V c) 5 t (idleAt1_5 _ hc1) (noFlush1_5 t h1),
      Dat.leavesExact_idle (dat1 V c) 6 t (idleAt1_6 _ hc1) (noFlush1_6 t h1), acc1_first V c t h0]
    dsimp only [step1]
    by_cases hz : t.val = 0
    · rw [Phi1_at_zero V c _ _ hz, PhiA1_eq]
      iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply (kernel_run1_A c Set.univ _ hc0 hc1 _ _ _ _ _ _ _ _ _ _ _ _ _ _ _ _ _ _ (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      iexists d6; iexact H6
    · rw [Phi1_pos V c _ _ hz]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩⟩
      iapply (kernel_run1_A c Set.univ _ hc0 hc1 _ _ _ _ _ _ _ _ _ _ _ _ _ _ _ _ _ _ (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      iintro ⟨H0, H1, H2, H3, H4, H5, H6, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      iexists d6; iexact H6
  · have hz : t.val ≠ 0 := fun h => h0 (by rw [h])
    have hc0 : ¬cond1_0 (grid1.coords t) := fun h => h0 ((hcond1_0 t).mp h)
    rw [Phi1_pos V c _ _ hz, acc1_later V c t h0]
    dsimp only [step1]
    by_cases h1 : t.val % 32 = 31
    · have hc1 : cond1_1 (grid1.coords t) := (hcond1_1 t).mpr h1
      rw [leaves1_5_live V c t hc1, leaves1_6_live V c t hc1, acc1_later V c t h0]
      dsimp only [step1]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩⟩
      iapply (kernel_run1_C c Set.univ _ hc0 hc1 _ _ _ _ _ _ _ _ _ _ _ _ _ _ _ _ _ _ (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1_1 (grid1.coords t) := fun h => h1 ((hcond1_1 t).mp h)
      rw [Dat.leavesExact_idle (dat1 V c) 5 t (idleAt1_5 _ hc1) (noFlush1_5 t h1),
        Dat.leavesExact_idle (dat1 V c) 6 t (idleAt1_6 _ hc1) (noFlush1_6 t h1)]
      iintro ⟨⟨HS0, HS1, Hr, Hg⟩, Ho, ⟨%d0, H0⟩, ⟨%d1, H1⟩, ⟨%d2, H2⟩, ⟨%d3, H3⟩, ⟨%d4, H4⟩, ⟨%d5, H5⟩, ⟨%d6, H6⟩⟩
      iapply (kernel_run1_B c Set.univ _ hc0 hc1 _ _ _ _ _ _ _ _ _ _ _ _ _ _ _ _ _ _ (iblk1 V c 0 t) (iblk1 V c 1 t) (iblk1 V c 2 t) (iblk1 V c 3 t) (iblk1 V c 4 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hr Hg]
      · isplitl [HS0]; · iexact HS0
        isplitl [HS1]; · iexact HS1
        isplitl [Hr]; · iexact Hr
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists d5; iexact H5
      iexists d6; iexact H6

/-- The body's obligation at every grid point. -/
theorem body_obligation1 (c : Dev nD) : BodyObligation (dat1 (F := F) V c) (defs₀ (F := F)) Variants.none () Set.univ := fun t => by
  rw [bigSep_W1, bigSep_W1]
  exact point_run1 V c t

end Cert.KernelIdeal.Hand

end
-- ==== Proof.KernelIdeal.Reg2.lean ====
/-
  The third launch: for a block of 256 nodes, the edge weights `b n j = exp (8 · tanh ((escore j + ns n) / 8)) · H n j`, their row
  sums, the product `b · fw2` divided by the row sum, and the leaky map; sixty-four grid points. Each point reads its block of
  `H` and of `ns` and the whole of `fw2` and `escore`, and writes its block of the result whole.
-/
import proofs.«428716_j47717086658967_3_alg».proof.Proof.Gen.KernelIdeal.Launch
import proofs.«428716_j47717086658967_3_alg».proof.Proof.Gen.KernelIdeal.Skeleton
import proofs.«428716_j47717086658967_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the launch is entered
variable (V : (c : Dev nD) → (b : Ref sig .tc) → Buf (Elt F) ((c : Thread nD τ).loc b))

/-- Window `w`'s block at grid point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-block rectangle the body stores through. -/
abbrev rOut : Rect S256x256 := Rect.unit (s := S256x256) ![0, 0] S256x256.size inb_S256x256_S256x256_0_0

/-- What the body leaves in the result's staging buffer: one whole-block store, over the block of `H` (window 0), the block of
    `ns` (window 1), the whole of `escore` (window 3) and the whole of `fw2` (window 2) — the payload takes them in that order. -/
def out2_4 (x0 : Vec F S256x4096 .f32) (x1 : Vec F S256x1 .f32) (x2 : Vec F S4096x256 .bf16) (x3 : Vec F S1x4096 .f32) : Vec F S256x256 .f32 :=
  View.canon [⟨rOut, k2_pay1 x0 x1 x3 x2⟩]

/-- The launch's proof data on core `c`: the arrays as it finds them; after the body at point `t` each input's buffer still at
    its block and the result's at what the body stored; the scoped rest and the generator register untouched; nothing owed. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

/-- The offsets of a whole-block rectangle are all zero. -/
theorem zeros2 : (![0, 0] : Fin 2 → Nat) = fun _ => 0 := funext fun a => by fin_cases a <;> rfl

/-- One store through the whole-block rectangle covers the result's buffer. -/
theorem cover2_4 (p : Vec F S256x256 .f32) (y : S256x256.Idx) :
    ∃ pc ∈ ([⟨rOut, p⟩] : List (View.Piece (Elt F) S256x256 .f32)), y ∈ pc.1.set :=
  View.cover_of_tiled [⟨rOut, p⟩] S256x256.size (by rfl) y

set_option maxHeartbeats 1000000 in
/-- The body on whole staging memrefs: the four inputs' at read contents `x0 … x3` and the result's at anything, it runs to the
    continuation holding the inputs' as they were and the result's at `out2_4` of them. -/
theorem kernel_triple2 (c : Dev nD) (E : Set ℕ) (i : grid2.Coords)
    (a1 : Memref sig .tc .vmem S256x4096 .f32) (h1 : a1.IsWhole) (a2 : Memref sig .tc .vmem S256x1 .f32) (h2 : a2.IsWhole)
    (a3 : Memref sig .tc .vmem S4096x256 .bf16) (h3 : a3.IsWhole) (a4 : Memref sig .tc .vmem S1x4096 .f32) (h4 : a4.IsWhole)
    (a5 : Memref sig .tc .vmem S256x256 .f32) (h5 : a5.IsWhole)
    (x0 : Vec F S256x4096 .f32) (x1 : Vec F S256x1 .f32) (x2 : Vec F S4096x256 .bf16) (x3 : Vec F S1x4096 .f32)
    (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (out2_4 x0 x1 x2 x3)) -∗ K ⟨⟩))
      ⊢ wp frame (wpE (defs₀ (F := F)) Variants.none c none) E (cc2__passC_kernel i a1 h1 a2 h2 a3 h3 a4 h4 a5 h5) K := by
  simp only [cc2__passC_kernel_eq_skeleton]; unfold cc2__passC_kernel_skel
  unfold owns
  iintro ⟨⟨%f1, %e1, H1⟩, ⟨%f2, %e2, H2⟩, ⟨%f3, %e3, H3⟩, ⟨%f4, %e4, H4⟩, ⟨%d5, %f5, -, H5⟩, Hk⟩
  subst e1 e2 e3 e4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _ (cover2_4 _)]
  unfold out2_4
  simp only [View.readAt_eq_ld, View.ld_unit_zero (S := S256x4096) zeros2, View.ld_unit_zero (S := S256x1) zeros2,
    View.ld_unit_zero (S := S1x4096) zeros2, View.ld_unit_zero (S := S4096x256) zeros2]

/-- A window's block as the proof data names it is its block of the array as the launch finds it. -/
theorem blockOf2 (c : Dev nD) (w : Fin cfg2.W) (t : Fin cfg2.N) : (dat2 V c).blockOf w t = iblk2 V c w t := rfl

/-- What the body leaves, window by window: an input's block in place, the result's at the body's one store. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out2_4 (iblk2 V c 0 t) (iblk2 V c 1 t) (iblk2 V c 2 t) (iblk2 V c 3 t) := by dsimp only [dat2]

/-- An input's staging buffer holds the window's block when the body runs at `t`, whether the block was fetched at `t` or at an
    earlier point: the body leaves it in place, and while no fetch happens the block index stands still. The windows are not
    clipped, so a fetch fills the whole buffer and nothing is cut. -/
theorem before2_0 (c : Dev nD) (t : Fin cfg2.N) (d) : (dat2 V c).before 0 t d = iblk2 V c 0 t := by
  have keep : ∀ s, (cfg2.win 0).cut (cfg2.grid.coords s) ((dat2 V c).after 0 s) = (dat2 V c).blockOf 0 s := fun s => by
    rw [after2_0, blockOf2]
  rw [(dat2 V c).before_in_eq_fetched 0 rfl (fun _ => rfl) (fun _ _ _ => rfl) keep t d]
  unfold Dat.fetched; rw [blockOf2]; rfl
theorem before2_1 (c : Dev nD) (t : Fin cfg2.N) (d) : (dat2 V c).before 1 t d = iblk2 V c 1 t := by
  have keep : ∀ s, (cfg2.win 1).cut (cfg2.grid.coords s) ((dat2 V c).after 1 s) = (dat2 V c).blockOf 1 s := fun s => by
    rw [after2_1, blockOf2]
  rw [(dat2 V c).before_in_eq_fetched 1 rfl (fun _ => rfl) (fun _ _ _ => rfl) keep t d]
  unfold Dat.fetched; rw [blockOf2]; rfl
theorem before2_2 (c : Dev nD) (t : Fin cfg2.N) (d) : (dat2 V c).before 2 t d = iblk2 V c 2 t := by
  have keep : ∀ s, (cfg2.win 2).cut (cfg2.grid.coords s) ((dat2 V c).after 2 s) = (dat2 V c).blockOf 2 s := fun s => by
    rw [after2_2, blockOf2]
  rw [(dat2 V c).before_in_eq_fetched 2 rfl (fun _ => rfl) (fun _ _ _ => rfl) keep t d]
  unfold Dat.fetched; rw [blockOf2]; rfl
theorem before2_3 (c : Dev nD) (t : Fin cfg2.N) (d) : (dat2 V c).before 3 t d = iblk2 V c 3 t := by
  have keep : ∀ s, (cfg2.win 3).cut (cfg2.grid.coords s) ((dat2 V c).after 3 s) = (dat2 V c).blockOf 3 s := fun s => by
    rw [after2_3, blockOf2]
  rw [(dat2 V c).before_in_eq_fetched 3 rfl (fun _ => rfl) (fun _ _ _ => rfl) keep t d]
  unfold Dat.fetched; rw [blockOf2]; rfl

/-- What the body is handed at point `t`: the invariant, what the core owes, and each window's current staging buffer, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it hands back. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at a point: the four inputs' buffers hold their blocks, so the body's triple applies at those blocks; the invariant
    and what the core owes are not touched and are the same at the next point. -/
theorem body_at2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2, before2_3]
  rw [after2_0, after2_1, after2_2, after2_3, after2_4,
    show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩⟩
  iapply (kernel_triple2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every grid point. -/
theorem body_obligation2 (c : Dev nD) : BodyObligation (dat2 (F := F) V c) (defs₀ (F := F)) Variants.none () Set.univ := fun t => by
  rw [bigSep_W2, bigSep_W2]
  exact body_at2 V c t

end Cert.KernelIdeal.Hand

end
-- ==== Proof.KernelIdeal.Run.lean ====
/-
  The whole program as four segments: the host's two reshapes, then the three launches, each entered from "every unscoped
  buffer at the previous boundary's contents" and left at the next boundary's. The contents at a boundary are a fold from
  the launch memory: the host operations applied, then, launch by launch, each window's array replaced by what the launch's
  write-backs leave there and every other buffer kept. One run over those segments ends with every unscoped buffer at the
  last boundary's contents; that the arguments are unchanged, and what the result buffer holds, are both read off it.
-/
import proofs.«428716_j47717086658967_3_alg».proof.Proof.KernelIdeal.Reg0
import proofs.«428716_j47717086658967_3_alg».proof.Proof.KernelIdeal.Reg1
import proofs.«428716_j47717086658967_3_alg».proof.Proof.KernelIdeal.Reg2
import proofs.«428716_j47717086658967_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents at the five boundaries -/

/-- At launch. -/
abbrev W0 : Dev nD → Valuation τ sig (Elt F) := fun c b => m (c, b)
/-- After the host's two reshapes. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- After the first launch: its windows' arrays at what its write-backs leave, every other buffer kept. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second launch. -/
def W3 (c : Dev nD) : Valuation τ sig (Elt F) :=
  Pipeline.withArrays spec1 c (W2 m c) fun w => (dat1 (V2 m) c).arrAt w cfg1.N
abbrev V3 : (c : Dev nD) → (b : Ref sig .tc) → Buf (Elt F) ((c : Thread nD τ).loc b) := fun c b => W3 m c b
/-- After the third launch. -/
def W4 (c : Dev nD) : Valuation τ sig (Elt F) :=
  Pipeline.withArrays spec2 c (W3 m c) fun w => (dat2 (V3 m) c).arrAt w cfg2.N
abbrev V4 : (c : Dev nD) → (b : Ref sig .tc) → Buf (Elt F) ((c : Thread nD τ).loc b) := fun c b => W4 m c b

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb

/-! ## The proof data of the three launches, each at its entry contents -/

abbrev adm : (p : Fin 3) → (pcfgs (F := F) p).Adm := fun p => (cfgs p).toPCfg_adm

def pdats : (p : Fin 3) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- The host's two reshapes as a segment from the launch contents. -/
abbrev seg0 : Pipeline.HostSeg (Name := ℕ) (U := Pipeline.UD sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp Cert.KernelIdeal.Gen.hostOps0_fresh) op h) (W0 m) R

/-! ## The first launch as a segment -/

theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

set_option backward.isDefEq.respectTransparency.types false in
/-- Entered from every unscoped buffer at the contents after the host's reshapes, left at the contents after its write-backs.
    Its windows' arrays are sorted out of the unscoped buffers at entry and put back, at what the write-backs left, at exit;
    the generator register goes into the launch's invariant and comes back; nothing is owed; it has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second launch as a segment -/

theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

set_option backward.isDefEq.respectTransparency.types false in
/-- Entered from every unscoped buffer at the contents after the first launch, left at the contents after its own write-backs.
    Its windows' arrays are sorted out of the unscoped buffers at entry and put back, at what the write-backs left, at exit;
    the generator register and the two accumulator buffers go into the launch's invariant, which tracks what the accumulators hold
    from point to point, and come back at the end; nothing is owed; it has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_last_out (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The third launch as a segment -/

theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

set_option backward.isDefEq.respectTransparency.types false in
/-- Entered from every unscoped buffer at the contents after the second launch, left at the last boundary's contents.
    Its windows' arrays are sorted out of the unscoped buffers at entry and put back, at what the write-backs left, at exit;
    the generator register goes into the launch's invariant and comes back; nothing is owed; it has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the one run -/

/-- The four segments in order. -/
abbrev segs : List (Pipeline.Seg (pcfgs (F := F)) adm (pdats m) () defs₀ 𝒱₀ L lv) :=
  [ .host (seg0 m), .region (reg0 m), .region (reg1 m), .region (reg2 m) ]

/-- The program is the run of its segments. -/
theorem main_run (c : Dev nD) : main (F := F) c = Pipeline.Seg.run (segs m) := (main_chain c).trans (by chain_rfl)

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the owes: every unscoped buffer at the last boundary's contents, the register at some state. -/
abbrev Tlast (c : Dev nD) : sProp 𝕄 := iprop(StableHlo.held (c : Thread nD τ) (Pipeline.ucRefs τ sig) (W4 m c) ∗ ∃ r, prngReg c r)

set_option backward.isDefEq.respectTransparency.types false in
/-- THE RUN. From any memory with zero counters every weakly fair execution of the program terminates, nothing faulting,
    and in every final memory each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tlast m)
    (hch := ⟨fun _ => .rfl, fun _ => .rfl, fun _ => .rfl, fun _ => .rfl, fun c => by
      -- the same resources, bracketed as the launch reads them: the buffers and the register, beside the owes
      show iprop(StableHlo.held (c : Thread nD τ) (Pipeline.ucRefs τ sig) (W4 m c) ∗ R c)
        ⊢ iprop(Tlast m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.KernelIdeal.Frame.lean ====
/-
  What the one run gives: every argument's buffer ends as launched, and the result buffer ends at what the third launch's
  write-backs leave in its array. An argument's contents at the last boundary are walked back boundary by boundary: a launch
  that only reads a buffer leaves its array as it found it, a launch that does not name it leaves it alone, and the host's two
  reshapes write only their own results.
-/
import proofs.«428716_j47717086658967_3_alg».proof.Proof.KernelIdeal.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- `main_arg0` ends as launched: read by the first launch only, written by none, and not by the host's reshapes. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := W3_of_ne m c main_arg0 (by decide)
    _ = W1 m c (Proc.devRef .tc main_arg0) := (W2_arr m c 0).trans (((dat0 (V1 m) c).arrAt_in 0 rfl _).trans (A_eq0 (V1 m) c 0))
    _ = m ((c : Thread nD τ).loc main_arg0) := Cert.KernelIdeal.Gen.V1_of m c main_arg0 (by decide)
/-- `main_arg1` ends as launched: read by the second and third launches, written by none, and not by the host's reshapes. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 0).trans (((dat2 (V3 m) c).arrAt_in 0 rfl _).trans (A_eq2 (V3 m) c 0))
    _ = W2 m c (Proc.devRef .tc main_arg1) := (W3_arr m c 0).trans (((dat1 (V2 m) c).arrAt_in 0 rfl _).trans (A_eq1 (V2 m) c 0))
    _ = W1 m c (Proc.devRef .tc main_arg1) := W2_of_ne m c main_arg1 (by decide)
    _ = m ((c : Thread nD τ).loc main_arg1) := Cert.KernelIdeal.Gen.V1_of m c main_arg1 (by decide)
/-- `main_arg2` ends as launched: read by the first launch only, written by none, and not by the host's reshapes. -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := W3_of_ne m c main_arg2 (by decide)
    _ = W1 m c (Proc.devRef .tc main_arg2) := (W2_arr m c 1).trans (((dat0 (V1 m) c).arrAt_in 1 rfl _).trans (A_eq0 (V1 m) c 1))
    _ = m ((c : Thread nD τ).loc main_arg2) := Cert.KernelIdeal.Gen.V1_of m c main_arg2 (by decide)
/-- `main_arg3` ends as launched: read by the second launch only, written by none, and not by the host's reshapes. -/
theorem W4_main_arg3 (c : Dev nD) : W4 m c (Proc.devRef .tc main_arg3) = m ((c : Thread nD τ).loc main_arg3) :=
  calc W4 m c (Proc.devRef .tc main_arg3)
    _ = W3 m c (Proc.devRef .tc main_arg3) := W4_of_ne m c main_arg3 (by decide)
    _ = W2 m c (Proc.devRef .tc main_arg3) := (W3_arr m c 3).trans (((dat1 (V2 m) c).arrAt_in 3 rfl _).trans (A_eq1 (V2 m) c 3))
    _ = W1 m c (Proc.devRef .tc main_arg3) := W2_of_ne m c main_arg3 (by decide)
    _ = m ((c : Thread nD τ).loc main_arg3) := Cert.KernelIdeal.Gen.V1_of m c main_arg3 (by decide)
/-- `main_arg4` ends as launched: read by no launch (its reshape is), written by none, and not by the host's reshapes. -/
theorem W4_main_arg4 (c : Dev nD) : W4 m c (Proc.devRef .tc main_arg4) = m ((c : Thread nD τ).loc main_arg4) :=
  calc W4 m c (Proc.devRef .tc main_arg4)
    _ = W3 m c (Proc.devRef .tc main_arg4) := W4_of_ne m c main_arg4 (by decide)
    _ = W2 m c (Proc.devRef .tc main_arg4) := W3_of_ne m c main_arg4 (by decide)
    _ = W1 m c (Proc.devRef .tc main_arg4) := W2_of_ne m c main_arg4 (by decide)
    _ = m ((c : Thread nD τ).loc main_arg4) := Cert.KernelIdeal.Gen.V1_of m c main_arg4 (by decide)
/-- `main_arg5` ends as launched: read by the second launch only, written by none, and not by the host's reshapes. -/
theorem W4_main_arg5 (c : Dev nD) : W4 m c (Proc.devRef .tc main_arg5) = m ((c : Thread nD τ).loc main_arg5) :=
  calc W4 m c (Proc.devRef .tc main_arg5)
    _ = W3 m c (Proc.devRef .tc main_arg5) := W4_of_ne m c main_arg5 (by decide)
    _ = W2 m c (Proc.devRef .tc main_arg5) := (W3_arr m c 4).trans (((dat1 (V2 m) c).arrAt_in 4 rfl _).trans (A_eq1 (V2 m) c 4))
    _ = W1 m c (Proc.devRef .tc main_arg5) := W2_of_ne m c main_arg5 (by decide)
    _ = m ((c : Thread nD τ).loc main_arg5) := Cert.KernelIdeal.Gen.V1_of m c main_arg5 (by decide)
/-- `main_arg6` ends as launched: read by no launch (its reshape is), written by none, and not by the host's reshapes. -/
theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := W3_of_ne m c main_arg6 (by decide)
    _ = W1 m c (Proc.devRef .tc main_arg6) := W2_of_ne m c main_arg6 (by decide)
    _ = m ((c : Thread nD τ).loc main_arg6) := Cert.KernelIdeal.Gen.V1_of m c main_arg6 (by decide)

/-- THE FRAME, at any float instance: every weakly fair execution terminates, nothing faults, the arguments end unchanged. -/
theorem frame_any : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c)⟩) (run_all m ρ)

/-- The same run with the result named: the result buffer ends at what the third launch's write-backs leave in its array. -/
theorem result_any : θ_run defs (onTc (τ := τ) (main (F := F))) ⟨m, fun _ => 0, ρ⟩ (fun r => ∀ c : Dev nD,
      r.2.mem ((c.tc : Thread nD τ).loc main_v4) = (dat2 (V3 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v4 (by decide))).trans (W4_arr m c 4),
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c)⟩) (run_all m ρ)

end Cert.KernelIdeal.Hand

end
-- ==== Proof.RefRun.lean ====
/-
  The reference's run and its stages read at an index, for the modules about the reference's value to import from one
  place. Both are copies of generated modules: the run's definition of the result term needed a larger elaboration
  budget than it was written with, and the stages' module follows that copy.
-/
import proofs.«428716_j47717086658967_3_alg».proof.Proof.RefRunP
import proofs.«428716_j47717086658967_3_alg».proof.Proof.RefReadP
-- ==== Proof.Spec.lean ====
/-
  The mathematics of the certificate, with no program in sight: a two-stage attention over a node-by-edge
  weight matrix `H`, written twice.

  Both programs form `xw = x · w1`, its leaky image `lx`, the node logits `f1 = lx · a1` and `ns = lx · a22`, the
  node weights `e n j = exp (8 · tanh (f1 n / 8)) · H n j` and their column sums `col j = ∑ n, e n j`.
  From there the two arrangements differ only in WHERE they divide:
  * the kernel sums first and divides once, `fK j d = leaky ((∑ n, e n j · xw n d) / col j)`, and at the end
    `outK n k = leaky ((∑ j, b n j · (f · w2) j k) / row n)`;
  * the reference divides every weight first, `fR j d = leaky (∑ n, (e n j / col j) · xw n d)`, and at the end
    `outR n k = leaky (∑ d, (∑ j, (b n j / row n) · f j d) · w2 d k)`.
  Over the reals, with `col j ≠ 0` and `row n ≠ 0`, a common nonzero divisor moves across a finite sum and a
  product of three matrices may be bracketed either way, so the two agree. On the extended reals neither step is
  free — a zero divisor gives `±∞` or the junk value of `0 / 0`, and sums of infinities do not distribute — which is
  why the statement asks that every entry be a real number and that the two divisors be nonzero.
-/
import Idealize.ShloMosaic.PureOps.Ideal
import Idealize.ShloMosaic.PureOps.Ideal.Laws

noncomputable section

namespace Cert.Spec

open Idealize.ShloMosaic

/-- The slope of the leaky map below zero: the f32 word both programs carry for `0.1`, never evaluated. -/
abbrev slope : EReal := Ideal.ofBits .f32 0x3DCCCCCD#32

/-- `v` above zero, `slope · v` otherwise. -/
def leaky (v : EReal) : EReal := if 0 < v then v else slope * v

/-- One eighth, as the real number it is. -/
abbrev eighth : EReal := ((1 / 8 : ℝ) : EReal)

/-- The bounded exponential weight `exp (8 · tanh (v / 8))`. -/
def weight (v : EReal) : EReal := Ideal.exp (Ideal.tanh (v * eighth) * ((8 : ℝ) : EReal))

variable (x : Fin 16384 → Fin 256 → EReal) (H : Fin 16384 → Fin 4096 → EReal)
  (w1 w2 : Fin 256 → Fin 256 → EReal) (a1 a21 a22 : Fin 256 → EReal)

/-- `x · w1`. -/
def xw (n : Fin 16384) (d : Fin 256) : EReal := ∑ k : Fin 256, x n k * w1 k d
/-- Its leaky image. -/
def lx (n : Fin 16384) (d : Fin 256) : EReal := leaky (xw x w1 n d)
/-- The node logit against `a1`. -/
def f1 (n : Fin 16384) : EReal := ∑ d : Fin 256, lx x w1 n d * a1 d
/-- The node logit against `a22`. -/
def ns (n : Fin 16384) : EReal := ∑ d : Fin 256, lx x w1 n d * a22 d
/-- The weight of node `n` in edge `j`. -/
def e (n : Fin 16384) (j : Fin 4096) : EReal := weight (f1 x w1 a1 n) * H n j
/-- The first divisor: an edge's total weight. -/
def col (j : Fin 4096) : EReal := ∑ n : Fin 16384, e x H w1 a1 n j

/-- Edge features, summed then divided (the kernel's arrangement). -/
def fK (j : Fin 4096) (d : Fin 256) : EReal :=
  leaky (Ideal.div (∑ n : Fin 16384, e x H w1 a1 n j * xw x w1 n d) (col x H w1 a1 j))
/-- Edge features, divided then summed (the reference's arrangement). -/
def fR (j : Fin 4096) (d : Fin 256) : EReal :=
  leaky (∑ n : Fin 16384, Ideal.div (e x H w1 a1 n j) (col x H w1 a1 j) * xw x w1 n d)

section Tail
variable (f : Fin 4096 → Fin 256 → EReal)
/-- `f · w2`. -/
def fw (j : Fin 4096) (k : Fin 256) : EReal := ∑ d : Fin 256, f j d * w2 d k
/-- The edge logit against `a21`. -/
def esc (j : Fin 4096) : EReal := ∑ d : Fin 256, leaky (fw w2 f j d) * a21 d
/-- The weight of edge `j` at node `n`. -/
def b (n : Fin 16384) (j : Fin 4096) : EReal := weight (esc w2 a21 f j + ns x w1 a22 n) * H n j
/-- The second divisor: a node's total weight. -/
def row (n : Fin 16384) : EReal := ∑ j : Fin 4096, b x H w1 w2 a21 a22 f n j
end Tail

/-- The result, summed then divided (the kernel's arrangement). -/
def outK (n : Fin 16384) (k : Fin 256) : EReal :=
  leaky (Ideal.div (∑ j : Fin 4096, b x H w1 w2 a21 a22 (fK x H w1 a1) n j * fw w2 (fK x H w1 a1) j k)
    (row x H w1 w2 a21 a22 (fK x H w1 a1) n))
/-- The result, divided then summed (the reference's arrangement). -/
def outR (n : Fin 16384) (k : Fin 256) : EReal :=
  leaky (∑ d : Fin 256, (∑ j : Fin 4096, Ideal.div (b x H w1 w2 a21 a22 (fR x H w1 a1) n j)
    (row x H w1 w2 a21 a22 (fR x H w1 a1) n) * fR x H w1 a1 j d) * w2 d k)

/-- An extended real that is a real number. -/
def IsReal (v : EReal) : Prop := ∃ r : ℝ, v = (r : EReal)

-- The law between the two arrangements is `Cert.Spec.law`, in the module that proves it.

end Cert.Spec

end
-- ==== Proof.Bridge.lean ====
/-
  From buffers to the mathematics. A rank-two buffer is read as a matrix of extended reals, a one-column buffer as a
  vector; over these readers the programs' side is joined to `Cert.Spec`: the reference's last stage is `Spec.outR` of its
  arguments, and the precondition gives exactly what `Spec.law` asks (each in its own module).
-/
import proofs.«428716_j47717086658967_3_alg».proof.Proof.Spec
import proofs.«428716_j47717086658967_3_alg».proof.Proof.RefRun
import proofs.«428716_j47717086658967_3_alg».proof.Pre_finite_inputs
import Idealize.ShloMosaic.Lib.ValueIdx

noncomputable section

namespace Cert.Bridge

open Cert.ReferenceIdeal Idealize.ShloMosaic Idealize.ShloMosaic.ValueIdx

/-- A rank-two buffer of extended reals as a matrix. -/
def mat {A B : ℕ} (X : (⟨2, ![A, B]⟩ : Shape).Idx → EReal) (p : Fin A) (q : Fin B) : EReal := X (ix2 p q)
/-- A one-column buffer as a vector. -/
def vec {A : ℕ} (X : (⟨2, ![A, 1]⟩ : Shape).Idx → EReal) (p : Fin A) : EReal := X (ix2 p 0)

end Cert.Bridge

end
-- ==== Proof.RefIsSpec.lean ====
/-
  The reference, stage by stage, is the divide-then-sum arrangement of `Cert.Spec`.

  Every intermediate array of the reference, read at an index given by its coordinates, is one of the specification's
  functions of the argument matrices: the product `x · w1` and its leaky image, the node logits, the node weights and
  their column sums, the divided weights, the edge features, their product with `w2` and the edge logits, the edge
  weights and their row sums, the divided edge weights, and the two final products under the leaky map.

  Three facts about single extended reals carry the constants: comparing with the zero word, multiplying by the slope
  word and choosing is the leaky map (the slope word is the same on both sides and is never evaluated); the word
  `0x41000000` denotes `8`; and dividing by it, taking `tanh`, multiplying by it and exponentiating is the
  specification's bounded weight, because division by the nonzero real `8` is the product with `1 / 8`.
-/
import proofs.«428716_j47717086658967_3_alg».proof.Proof.Bridge

noncomputable section

namespace Cert.RefIsSpec

open Cert.ReferenceIdeal Cert.ReferenceIdeal.ReadP Cert.Bridge
open Idealize.ShloMosaic Idealize.ShloMosaic.ValueIdx

/-! ## Three facts about one extended real -/

/-- Choosing `v` where it is above the zero word and the slope word's multiple of it elsewhere is the leaky map. -/
theorem leaky_word (v : EReal) :
    Scalar.select (FloatOps.cmpf (F := Ideal) (φ := .f32) .ogt v (FloatOps.ofBits .f32 0x00000000#32)) v
      (FloatOps.mulf (F := Ideal) (φ := .f32) (FloatOps.ofBits .f32 0x3DCCCCCD#32) v) = Spec.leaky v := by
  simp only [Ideal.cmpf_def, Ideal.ofBits_def, Ideal.ofBits_zero_f32, Ideal.mulf_def]
  unfold Spec.leaky
  by_cases h : 0 < v
  · rw [if_pos h, show Ideal.cmp .ogt v 0 = 1#1 by simp [Ideal.cmp, h], select_one]
  · rw [if_neg h, show Ideal.cmp .ogt v 0 = 0#1 by simp [Ideal.cmp, h], select_zero]

/-- The word `0x41000000`: sign clear, exponent `130`, no fraction, so `2 ^ 23 · 2 ^ (130 - 127 - 23) = 8`. -/
theorem eight_word : Ideal.ofBits .f32 0x41000000#32 = ((8 : ℝ) : EReal) := by
  simp [Ideal.ofBits, Ideal.ieee, -EReal.coe_mul]; norm_num

/-- `exp (tanh (v / 8) · 8)`, with both eights the word, is the specification's weight of `v`. -/
theorem weight_word (v : EReal) :
    FloatOps.hostUnary (F := Ideal) (φ := .f32) .exp
      (FloatOps.mulf (F := Ideal) (φ := .f32)
        (FloatOps.hostUnary (F := Ideal) (φ := .f32) .tanh
          (FloatOps.hostDivf (F := Ideal) (φ := .f32) v (FloatOps.ofBits .f32 0x41000000#32)))
        (FloatOps.ofBits .f32 0x41000000#32)) = Spec.weight v := by
  simp only [Ideal.hostUnary_exp_def, Ideal.mulf_def, Ideal.hostUnary_tanh_def, Ideal.hostDivf_def, Ideal.ofBits_def]
  rw [eight_word, Ideal.div_coe (by norm_num)]
  rfl

variable (x : FVec Ideal S16384x256 .f32) (H : FVec Ideal S16384x4096 .f32) (w1 w2 : FVec Ideal S256x256 .f32)
  (a1 a21 a22 : FVec Ideal S256x1 .f32)

/-! ## The node side -/

/-- `x · w1` at `(n, d)`. -/
theorem xw_at (n : Fin 16384) (d : Fin 256) :
    val_main_v0 (F := Ideal) x w1 (ix2 n d) = Spec.xw (mat x) (mat w1) n d := by
  rw [val_main_v0_apply]; unfold Spec.xw
  refine Finset.sum_congr rfl fun k _ => ?_
  rw [show lidx_main_v0 (ix2 n d) k = ix2 n k from funext fun a => by match a with | ⟨0, _⟩ => rfl | ⟨1, _⟩ => rfl,
    show ridx_main_v0 (ix2 n d) k = ix2 k d from funext fun a => by match a with | ⟨0, _⟩ => rfl | ⟨1, _⟩ => rfl]
  rfl

/-- Its leaky image, as the reference forms it for the logit against `a1`. -/
theorem lx_at (n : Fin 16384) (d : Fin 256) :
    val_main_v5 (F := Ideal) x w1 (ix2 n d) = Spec.lx (mat x) (mat w1) n d := by
  rw [val_main_v5_apply, val_main_v2_apply, val_main_v4_apply, val_main_v1_apply, val_main_v3_apply,
    val_main_cst_apply, val_main_cst_0_apply, xw_at]
  exact leaky_word _

/-- The same image, formed a second time for the logit against `a22`. -/
theorem lx_at' (n : Fin 16384) (d : Fin 256) :
    val_main_v38 (F := Ideal) x w1 (ix2 n d) = Spec.lx (mat x) (mat w1) n d := by
  rw [val_main_v38_apply, val_main_v35_apply, val_main_v37_apply, val_main_v34_apply, val_main_v36_apply,
    val_main_cst_8_apply, val_main_cst_9_apply, xw_at]
  exact leaky_word _

/-- The node logit against `a1`. -/
theorem f1_at (n : Fin 16384) :
    val_main_v6 (F := Ideal) x w1 a1 (ix2 n (0 : Fin 1)) = Spec.f1 (mat x) (mat w1) (vec a1) n := by
  rw [val_main_v6_apply]; unfold Spec.f1
  refine Finset.sum_congr rfl fun k _ => ?_
  rw [show lidx_main_v6 (ix2 n (0 : Fin 1)) k = ix2 n k from funext fun a => by match a with | ⟨0, _⟩ => rfl | ⟨1, _⟩ => rfl,
    show ridx_main_v6 (ix2 n (0 : Fin 1)) k = ix2 k (0 : Fin 1) from funext fun a => by match a with | ⟨0, _⟩ => rfl | ⟨1, _⟩ => rfl, lx_at]
  rfl

/-- The node logit against `a22`. -/
theorem ns_at (n : Fin 16384) :
    val_main_v39 (F := Ideal) x w1 a22 (ix2 n (0 : Fin 1)) = Spec.ns (mat x) (mat w1) (vec a22) n := by
  rw [val_main_v39_apply]; unfold Spec.ns
  refine Finset.sum_congr rfl fun k _ => ?_
  rw [show lidx_main_v39 (ix2 n (0 : Fin 1)) k = ix2 n k from funext fun a => by match a with | ⟨0, _⟩ => rfl | ⟨1, _⟩ => rfl,
    show ridx_main_v39 (ix2 n (0 : Fin 1)) k = ix2 k (0 : Fin 1) from funext fun a => by match a with | ⟨0, _⟩ => rfl | ⟨1, _⟩ => rfl, lx_at']
  rfl

/-- The bounded exponential of the first logit. -/
theorem wnode_at (n : Fin 16384) :
    val_main_v12 (F := Ideal) x w1 a1 (ix2 n (0 : Fin 1)) = Spec.weight (Spec.f1 (mat x) (mat w1) (vec a1) n) := by
  rw [val_main_v12_apply, val_main_v11_apply, val_main_v9_apply, val_main_v8_apply, val_main_v7_apply,
    val_main_v10_apply, val_main_cst_1_apply, val_main_cst_2_apply, f1_at]
  exact weight_word _

/-- The weight of node `n` in edge `j`. -/
theorem e_at (n : Fin 16384) (j : Fin 4096) :
    val_main_v14 (F := Ideal) x H w1 a1 (ix2 n j) = Spec.e (mat x) (mat H) (mat w1) (vec a1) n j := by
  rw [val_main_v14_apply, val_main_v13_apply,
    show idx_main_v13 (ix2 n j) = ix2 n (0 : Fin 1) from funext fun a => by match a with | ⟨0, _⟩ => rfl | ⟨1, _⟩ => rfl, wnode_at]
  rfl

/-- An edge's total weight: the zero word plus the sum over the nodes. -/
theorem col_at (j : Fin 4096) :
    val_main_v15 (F := Ideal) x H w1 a1 (ix1 j) = Spec.col (mat x) (mat H) (mat w1) (vec a1) j := by
  rw [val_main_v15_apply, val_main_cst_3_apply, Ideal.ofBits_def, Ideal.ofBits_zero_f32, zero_add]
  unfold Spec.col
  refine Finset.sum_congr rfl fun n _ => ?_
  rw [show idx_main_v15 (ix1 j) n = ix2 n j from funext fun a => by match a with | ⟨0, _⟩ => rfl | ⟨1, _⟩ => rfl, e_at]

/-- Each weight divided by its edge's total. -/
theorem ediv_at (n : Fin 16384) (j : Fin 4096) :
    val_main_v18 (F := Ideal) x H w1 a1 (ix2 n j) = Ideal.div (Spec.e (mat x) (mat H) (mat w1) (vec a1) n j) (Spec.col (mat x) (mat H) (mat w1) (vec a1) j) := by
  rw [val_main_v18_apply, val_main_v17_apply, val_main_v16_apply,
    show idx_main_v16 (idx_main_v17 (ix2 n j)) = ix1 j from funext fun a => by match a with | ⟨0, _⟩ => rfl, col_at, e_at]
  rfl

/-! ## The edge side -/

/-- The transposed divided weights against `x · w1`. -/
theorem fsum_at (j : Fin 4096) (d : Fin 256) :
    val_main_v20 (F := Ideal) x H w1 a1 (ix2 j d)
      = ∑ n : Fin 16384, Ideal.div (Spec.e (mat x) (mat H) (mat w1) (vec a1) n j) (Spec.col (mat x) (mat H) (mat w1) (vec a1) j) * Spec.xw (mat x) (mat w1) n d := by
  rw [val_main_v20_apply]
  refine Finset.sum_congr rfl fun n _ => ?_
  rw [val_main_v19_apply,
    show idx_main_v19 (lidx_main_v20 (ix2 j d) n) = ix2 n j from funext fun a => by match a with | ⟨0, _⟩ => rfl | ⟨1, _⟩ => rfl,
    show ridx_main_v20 (ix2 j d) n = ix2 n d from funext fun a => by match a with | ⟨0, _⟩ => rfl | ⟨1, _⟩ => rfl, ediv_at, xw_at]

/-- The edge features. -/
theorem fR_at (j : Fin 4096) (d : Fin 256) :
    val_main_v25 (F := Ideal) x H w1 a1 (ix2 j d) = Spec.fR (mat x) (mat H) (mat w1) (vec a1) j d := by
  rw [val_main_v25_apply, val_main_v22_apply, val_main_v24_apply, val_main_v21_apply, val_main_v23_apply,
    val_main_cst_4_apply, val_main_cst_5_apply, fsum_at]
  exact leaky_word _

/-- The edge features times `w2`. -/
theorem fw_at (j : Fin 4096) (k : Fin 256) :
    val_main_v26 (F := Ideal) x H w1 w2 a1 (ix2 j k) = Spec.fw (mat w2) (Spec.fR (mat x) (mat H) (mat w1) (vec a1)) j k := by
  rw [val_main_v26_apply]; unfold Spec.fw
  refine Finset.sum_congr rfl fun d _ => ?_
  rw [show lidx_main_v26 (ix2 j k) d = ix2 j d from funext fun a => by match a with | ⟨0, _⟩ => rfl | ⟨1, _⟩ => rfl,
    show ridx_main_v26 (ix2 j k) d = ix2 d k from funext fun a => by match a with | ⟨0, _⟩ => rfl | ⟨1, _⟩ => rfl, fR_at]
  rfl

/-- Its leaky image. -/
theorem lfw_at (j : Fin 4096) (k : Fin 256) :
    val_main_v31 (F := Ideal) x H w1 w2 a1 (ix2 j k) = Spec.leaky (Spec.fw (mat w2) (Spec.fR (mat x) (mat H) (mat w1) (vec a1)) j k) := by
  rw [val_main_v31_apply, val_main_v28_apply, val_main_v30_apply, val_main_v27_apply, val_main_v29_apply,
    val_main_cst_6_apply, val_main_cst_7_apply, fw_at]
  exact leaky_word _

/-- The edge logit against `a21`. -/
theorem esc_at (j : Fin 4096) :
    val_main_v32 (F := Ideal) x H w1 w2 a1 a21 (ix2 j (0 : Fin 1)) = Spec.esc (mat w2) (vec a21) (Spec.fR (mat x) (mat H) (mat w1) (vec a1)) j := by
  rw [val_main_v32_apply]; unfold Spec.esc
  refine Finset.sum_congr rfl fun d _ => ?_
  rw [show lidx_main_v32 (ix2 j (0 : Fin 1)) d = ix2 j d from funext fun a => by match a with | ⟨0, _⟩ => rfl | ⟨1, _⟩ => rfl,
    show ridx_main_v32 (ix2 j (0 : Fin 1)) d = ix2 d (0 : Fin 1) from funext fun a => by match a with | ⟨0, _⟩ => rfl | ⟨1, _⟩ => rfl, lfw_at]
  rfl

/-- The edge logit as a row, repeated down the nodes, plus the node logit repeated along the edges. -/
theorem logit_at (n : Fin 16384) (j : Fin 4096) :
    val_main_v42 (F := Ideal) x H w1 w2 a1 a21 a22 (ix2 n j)
      = Spec.esc (mat w2) (vec a21) (Spec.fR (mat x) (mat H) (mat w1) (vec a1)) j + Spec.ns (mat x) (mat w1) (vec a22) n := by
  rw [val_main_v42_apply, val_main_v40_apply, val_main_v33_apply, val_main_v41_apply,
    show idx_main_v33 (idx_main_v40 (ix2 n j)) = ix2 j (0 : Fin 1) from funext fun a => by match a with | ⟨0, _⟩ => rfl | ⟨1, _⟩ => rfl, esc_at,
    show idx_main_v41 (ix2 n j) = ix2 n (0 : Fin 1) from funext fun a => by match a with | ⟨0, _⟩ => rfl | ⟨1, _⟩ => rfl, ns_at]
  rfl

/-- The weight of edge `j` at node `n`. -/
theorem b_at (n : Fin 16384) (j : Fin 4096) :
    val_main_v49 (F := Ideal) x H w1 w2 a1 a21 a22 (ix2 n j) = Spec.b (mat x) (mat H) (mat w1) (mat w2) (vec a21) (vec a22) (Spec.fR (mat x) (mat H) (mat w1) (vec a1)) n j := by
  rw [val_main_v49_apply, val_main_v48_apply, val_main_v47_apply, val_main_v45_apply, val_main_v44_apply,
    val_main_v43_apply, val_main_v46_apply, val_main_cst_10_apply, val_main_cst_11_apply, logit_at, weight_word]
  rfl

/-- A node's total weight: the zero word plus the sum over the edges. -/
theorem row_at (n : Fin 16384) :
    val_main_v50 (F := Ideal) x H w1 w2 a1 a21 a22 (ix1 n) = Spec.row (mat x) (mat H) (mat w1) (mat w2) (vec a21) (vec a22) (Spec.fR (mat x) (mat H) (mat w1) (vec a1)) n := by
  rw [val_main_v50_apply, val_main_cst_12_apply, Ideal.ofBits_def, Ideal.ofBits_zero_f32, zero_add]
  unfold Spec.row
  refine Finset.sum_congr rfl fun j _ => ?_
  rw [show idx_main_v50 (ix1 n) j = ix2 n j from funext fun a => by match a with | ⟨0, _⟩ => rfl | ⟨1, _⟩ => rfl, b_at]

/-- Each edge weight divided by its node's total. -/
theorem bdiv_at (n : Fin 16384) (j : Fin 4096) :
    val_main_v53 (F := Ideal) x H w1 w2 a1 a21 a22 (ix2 n j) = Ideal.div (Spec.b (mat x) (mat H) (mat w1) (mat w2) (vec a21) (vec a22) (Spec.fR (mat x) (mat H) (mat w1) (vec a1)) n j) (Spec.row (mat x) (mat H) (mat w1) (mat w2) (vec a21) (vec a22) (Spec.fR (mat x) (mat H) (mat w1) (vec a1)) n) := by
  rw [val_main_v53_apply, val_main_v52_apply, val_main_v51_apply,
    show idx_main_v51 (idx_main_v52 (ix2 n j)) = ix1 n from funext fun a => by match a with | ⟨0, _⟩ => rfl, row_at, b_at]
  rfl

/-! ## The result -/

/-- The divided edge weights against the edge features. -/
theorem bf_at (n : Fin 16384) (d : Fin 256) :
    val_main_v54 (F := Ideal) x H w1 w2 a1 a21 a22 (ix2 n d)
      = ∑ j : Fin 4096, Ideal.div (Spec.b (mat x) (mat H) (mat w1) (mat w2) (vec a21) (vec a22) (Spec.fR (mat x) (mat H) (mat w1) (vec a1)) n j) (Spec.row (mat x) (mat H) (mat w1) (mat w2) (vec a21) (vec a22) (Spec.fR (mat x) (mat H) (mat w1) (vec a1)) n) * Spec.fR (mat x) (mat H) (mat w1) (vec a1) j d := by
  rw [val_main_v54_apply]
  refine Finset.sum_congr rfl fun j _ => ?_
  rw [show lidx_main_v54 (ix2 n d) j = ix2 n j from funext fun a => by match a with | ⟨0, _⟩ => rfl | ⟨1, _⟩ => rfl,
    show ridx_main_v54 (ix2 n d) j = ix2 j d from funext fun a => by match a with | ⟨0, _⟩ => rfl | ⟨1, _⟩ => rfl, bdiv_at, fR_at]

/-- That product against `w2`. -/
theorem bfw_at (n : Fin 16384) (k : Fin 256) :
    val_main_v55 (F := Ideal) x H w1 w2 a1 a21 a22 (ix2 n k)
      = ∑ d : Fin 256, (∑ j : Fin 4096, Ideal.div (Spec.b (mat x) (mat H) (mat w1) (mat w2) (vec a21) (vec a22) (Spec.fR (mat x) (mat H) (mat w1) (vec a1)) n j) (Spec.row (mat x) (mat H) (mat w1) (mat w2) (vec a21) (vec a22) (Spec.fR (mat x) (mat H) (mat w1) (vec a1)) n) * Spec.fR (mat x) (mat H) (mat w1) (vec a1) j d)
          * mat w2 d k := by
  rw [val_main_v55_apply]
  refine Finset.sum_congr rfl fun d _ => ?_
  rw [show lidx_main_v55 (ix2 n k) d = ix2 n d from funext fun a => by match a with | ⟨0, _⟩ => rfl | ⟨1, _⟩ => rfl,
    show ridx_main_v55 (ix2 n k) d = ix2 d k from funext fun a => by match a with | ⟨0, _⟩ => rfl | ⟨1, _⟩ => rfl, bf_at]
  rfl

/-- The reference's result, entry by entry, is the divide-then-sum arrangement of its arguments. -/
theorem ref_is_outR (x : FVec Ideal S16384x256 .f32) (H : FVec Ideal S16384x4096 .f32) (w1 w2 : FVec Ideal S256x256 .f32)
    (a1 a21 a22 : FVec Ideal S256x1 .f32) (n : Fin 16384) (k : Fin 256) :
    Cert.ReferenceIdeal.ReadP.val_main_v60 (F := Ideal) x H w1 w2 a1 a21 a22 (ix2 n k)
      = Cert.Spec.outR (mat x) (mat H) (mat w1) (mat w2) (vec a1) (vec a21) (vec a22) n k := by
  rw [val_main_v60_apply, val_main_v57_apply, val_main_v59_apply, val_main_v56_apply, val_main_v58_apply,
    val_main_cst_13_apply, val_main_cst_14_apply, bfw_at]
  exact leaky_word _

end Cert.RefIsSpec

end
-- ==== Proof.PreGives.lean ====
/-
  The precondition read back. The printed precondition is a conjunction of nine tests, each a `jnp.all`: seven say that
  an argument has no infinite entry, two that a normalisation divisor of the reference is nowhere zero. The two divisors
  are computed by the very operations the reference's own stages apply, so they ARE those stages (stage 16, the column
  sums as a row, and stage 51, the row sums as a column); read at an index these are `Spec.col` and, in the reference's
  arrangement, `Spec.row`.
-/
import proofs.«428716_j47717086658967_3_alg».proof.Proof.RefIsSpec
import Idealize.ShloMosaic.Lib.ReduceAll
import Idealize.ShloMosaic.Lib.StableHlo.Predicate

noncomputable section

namespace Cert.PreGives

open Cert Cert.ReferenceIdeal Idealize.ShloMosaic Idealize.ShloMosaic.ValueIdx Cert.Bridge

/-- The scalar shape has one index. -/
instance : Subsingleton (⟨0, ![]⟩ : Shape).Idx := ⟨fun a b => funext fun d => d.elim0⟩

/-! ## The two kinds of test -/

/-- `jnp.all (|v| < +∞)` as it is printed: the reduce-and of the elementwise comparison of `|v|` with the word of `+∞`. -/
def finAll {s : Shape} (hb : (⟨0, ![]⟩ : Shape).BroadcastsInDim s (![] : Fin 0 → Fin s.rank)) {axes : List (Fin s.rank)}
    (hr : s.ReducesTo axes ⟨0, ![]⟩) (h0 : 0 < (⟨0, ![]⟩ : Shape).numel) (v : FVec Ideal s .f32) : IVec ⟨0, ![]⟩ 1 :=
  Host.reduce IntOp.andi (cmpf .olt (Host.absf v) (broadcastInDim s ![] hb (constant ⟨0, ![]⟩ .f32 0x7F800000#32)))
    (constantI ⟨0, ![]⟩ 1 1#1) hr h0

/-- `jnp.all (v ≠ 0)` as it is printed. -/
def nzAll {s : Shape} (hb : (⟨0, ![]⟩ : Shape).BroadcastsInDim s (![] : Fin 0 → Fin s.rank)) {axes : List (Fin s.rank)}
    (hr : s.ReducesTo axes ⟨0, ![]⟩) (h0 : 0 < (⟨0, ![]⟩ : Shape).numel) (v : FVec Ideal s .f32) : IVec ⟨0, ![]⟩ 1 :=
  Host.reduce IntOp.andi (cmpf .une v (broadcastInDim s ![] hb (constant ⟨0, ![]⟩ .f32 0x00000000#32)))
    (constantI ⟨0, ![]⟩ 1 1#1) hr h0

/-- The word `0x7F800000` is `+∞`. -/
theorem top_word : Ideal.ofBits .f32 0x7F800000#32 = ⊤ := by simp [Ideal.ofBits, Ideal.ieee]

/-- An extended real whose absolute value `max a (-a)` is below `+∞` is a real number: at either infinity the absolute
    value is `+∞` itself. -/
theorem isReal_of_abs_lt_top (a : EReal) (h : max a (-a) < ⊤) : Spec.IsReal a := by
  induction a using EReal.rec with
  | bot => exact absurd h (by simp)
  | coe r => exact ⟨r, rfl⟩
  | top => exact absurd h (by simp)

/-- A finiteness test that came out true: every entry is a real number. -/
theorem finAll_real {s : Shape} (hb : (⟨0, ![]⟩ : Shape).BroadcastsInDim s (![] : Fin 0 → Fin s.rank)) {axes : List (Fin s.rank)}
    (hr : s.ReducesTo axes ⟨0, ![]⟩) (h0 : 0 < (⟨0, ![]⟩ : Shape).numel) (v : FVec Ideal s .f32)
    (h : finAll hb hr h0 v ix0 = 1#1) (i : s.Idx) : Spec.IsReal (v i) := by
  -- the comparison at `i`: the broadcast scalar reads its word everywhere, and `|·|` is `max a (-a)`
  have hi : BitVec.ofBool (decide (max (v i) (-(v i)) < Ideal.ofBits .f32 0x7F800000#32)) = 1#1 :=
    Host.reduce_andi_all _ _ hr h0 ix0 h i
  rw [top_word] at hi
  exact isReal_of_abs_lt_top _ (of_decide_eq_true ((StableHlo.Predicate.ofBool_eq_one_iff _).1 hi))

/-- A nonzero test that came out true: no entry is zero. -/
theorem nzAll_ne {s : Shape} (hb : (⟨0, ![]⟩ : Shape).BroadcastsInDim s (![] : Fin 0 → Fin s.rank)) {axes : List (Fin s.rank)}
    (hr : s.ReducesTo axes ⟨0, ![]⟩) (h0 : 0 < (⟨0, ![]⟩ : Shape).numel) (v : FVec Ideal s .f32)
    (h : nzAll hb hr h0 v ix0 = 1#1) (i : s.Idx) : v i ≠ 0 := by
  have hi : BitVec.ofBool (decide (v i ≠ Ideal.ofBits .f32 0x00000000#32)) = 1#1 :=
    Host.reduce_andi_all _ _ hr h0 ix0 h i
  rw [Ideal.ofBits_zero_f32] at hi
  exact of_decide_eq_true ((StableHlo.Predicate.ofBool_eq_one_iff _).1 hi)

variable (x : FVec Ideal S16384x256 .f32) (H : FVec Ideal S16384x4096 .f32) (w1 w2 : FVec Ideal S256x256 .f32)
  (a1 a21 a22 : FVec Ideal S256x1 .f32)

/-! ## The printed precondition is the nine tests -/

open Cert.Pre_finite_inputs.Facts in
/-- The printed precondition at its one index is the conjunction of the nine tests, the two divisors being the reference's
    stages 16 and 51: the precondition computes them by the same operations, in the same order, as the reference does. -/
theorem fn_ix0 [Cert.Pre_finite_inputs.Facts] :
    Cert.Pre_finite_inputs.fn (F := Ideal) x H w1 w2 a1 a21 a22 ix0
      = IntOp.andi (IntOp.andi (IntOp.andi (IntOp.andi (IntOp.andi (IntOp.andi (IntOp.andi (IntOp.andi
          (finAll bcast_S_S16384x256 reducesTo_S16384x256_S_d0_1 h_S_ x ix0)
          (finAll bcast_S_S16384x4096 reducesTo_S16384x4096_S_d0_1 h_S_ H ix0))
          (finAll bcast_S_S256x256 reducesTo_S256x256_S_d0_1 h_S_ w1 ix0))
          (finAll bcast_S_S256x256 reducesTo_S256x256_S_d0_1 h_S_ w2 ix0))
          (finAll bcast_S_S256x1 reducesTo_S256x1_S_d0_1 h_S_ a1 ix0))
          (finAll bcast_S_S256x1 reducesTo_S256x1_S_d0_1 h_S_ a21 ix0))
          (finAll bcast_S_S256x1 reducesTo_S256x1_S_d0_1 h_S_ a22 ix0))
          (nzAll bcast_S_S1x4096 reducesTo_S1x4096_S_d0_1 h_S_ (ReadP.val_main_v16 (F := Ideal) x H w1 a1) ix0))
          (nzAll bcast_S_S16384x1 reducesTo_S16384x1_S_d0_1 h_S_ (ReadP.val_main_v51 (F := Ideal) x H w1 w2 a1 a21 a22) ix0) :=
  rfl

/-! ## The two divisors at an index -/

/-- Stage 16, the column sums laid out as a row, at column `j` is `Spec.col` there. -/
theorem v16_at (j : Fin 4096) :
    ReadP.val_main_v16 (F := Ideal) x H w1 a1 (ix2 0 j) = Spec.col (mat x) (mat H) (mat w1) (vec a1) j := by
  rw [ReadP.val_main_v16_apply,
    show ReadP.idx_main_v16 (ix2 (0 : Fin 1) j) = ix1 j from funext fun a => by match a with | ⟨0, _⟩ => rfl,
    RefIsSpec.col_at]

/-- Stage 51, the row sums laid out as a column, at row `n` is `Spec.row` there, in the reference's arrangement. -/
theorem v51_at (n : Fin 16384) :
    ReadP.val_main_v51 (F := Ideal) x H w1 w2 a1 a21 a22 (ix2 n 0)
      = Spec.row (mat x) (mat H) (mat w1) (mat w2) (vec a21) (vec a22) (Spec.fR (mat x) (mat H) (mat w1) (vec a1)) n := by
  rw [ReadP.val_main_v51_apply,
    show ReadP.idx_main_v51 (ix2 n (0 : Fin 1)) = ix1 n from funext fun a => by match a with | ⟨0, _⟩ => rfl,
    RefIsSpec.row_at]

/-! ## The precondition read back -/

/-- Every entry of every argument is a real number, every edge's total weight is nonzero, and every node's total weight, in
    the reference's arrangement, is nonzero. -/
theorem pre_gives [Cert.Pre_finite_inputs.Facts]
    (h : Cert.Pre_finite_inputs.fn (F := Ideal) x H w1 w2 a1 a21 a22 = fun _ => 1#1) :
    (∀ n k, Cert.Spec.IsReal (mat x n k)) ∧ (∀ n j, Cert.Spec.IsReal (mat H n j))
    ∧ (∀ k d, Cert.Spec.IsReal (mat w1 k d)) ∧ (∀ d k, Cert.Spec.IsReal (mat w2 d k))
    ∧ (∀ d, Cert.Spec.IsReal (vec a1 d)) ∧ (∀ d, Cert.Spec.IsReal (vec a21 d)) ∧ (∀ d, Cert.Spec.IsReal (vec a22 d))
    ∧ (∀ j, Cert.Spec.col (mat x) (mat H) (mat w1) (vec a1) j ≠ 0)
    ∧ (∀ n, Cert.Spec.row (mat x) (mat H) (mat w1) (mat w2) (vec a21) (vec a22)
          (Cert.Spec.fR (mat x) (mat H) (mat w1) (vec a1)) n ≠ 0) := by
  have h0 := (fn_ix0 x H w1 w2 a1 a21 a22).symm.trans (congrFun h ix0)
  obtain ⟨h0, hrow⟩ := IntOp.andi_eq_one.1 h0
  obtain ⟨h0, hcol⟩ := IntOp.andi_eq_one.1 h0
  obtain ⟨h0, ha22⟩ := IntOp.andi_eq_one.1 h0
  obtain ⟨h0, ha21⟩ := IntOp.andi_eq_one.1 h0
  obtain ⟨h0, ha1⟩ := IntOp.andi_eq_one.1 h0
  obtain ⟨h0, hw2⟩ := IntOp.andi_eq_one.1 h0
  obtain ⟨h0, hw1⟩ := IntOp.andi_eq_one.1 h0
  obtain ⟨hx, hH⟩ := IntOp.andi_eq_one.1 h0
  refine ⟨fun n k => finAll_real _ _ _ x hx _, fun n j => finAll_real _ _ _ H hH _, fun k d => finAll_real _ _ _ w1 hw1 _,
    fun d k => finAll_real _ _ _ w2 hw2 _, fun d => finAll_real _ _ _ a1 ha1 _, fun d => finAll_real _ _ _ a21 ha21 _,
    fun d => finAll_real _ _ _ a22 ha22 _, fun j => ?_, fun n => ?_⟩
  · rw [← v16_at]
    exact nzAll_ne _ _ _ _ hcol _
  · rw [← v51_at]
    exact nzAll_ne _ _ _ _ hrow _

end Cert.PreGives

end
-- ==== Proof.SpecLaw.lean ====
/-
  The law between the two arrangements of `Cert.Spec`, proved over the reals.

  Every intermediate of either arrangement is a real number once the arguments are and the two divisors are nonzero:
  sums and products of reals are real, the leaky map picks one of two reals, `exp (8 · tanh (v / 8))` of a real is a
  (positive) real, and a quotient by a nonzero real is the product with its inverse. On real numbers the two steps that
  separate the arrangements are plain algebra: a common divisor moves across a finite sum,
  `(∑ aₙ bₙ) / S = ∑ (aₙ / S) bₙ`, and a product of three matrices may be bracketed either way,
  `(∑ⱼ Bⱼ ∑_d f_jd w_d) / R = ∑_d (∑ⱼ (Bⱼ / R) f_jd) w_d`.
-/
import proofs.«428716_j47717086658967_3_alg».proof.Proof.Spec

noncomputable section

namespace Cert.Spec

open Idealize.ShloMosaic

/-! ## Real numbers among the extended reals -/

theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

theorem IsReal.mul {u v : EReal} (hu : IsReal u) (hv : IsReal v) : IsReal (u * v) := by
  obtain ⟨a, rfl⟩ := hu; obtain ⟨b, rfl⟩ := hv; exact ⟨a * b, (EReal.coe_mul a b).symm⟩

theorem IsReal.add {u v : EReal} (hu : IsReal u) (hv : IsReal v) : IsReal (u + v) := by
  obtain ⟨a, rfl⟩ := hu; obtain ⟨b, rfl⟩ := hv; exact ⟨a + b, (EReal.coe_add a b).symm⟩

theorem IsReal.sum {ι : Type} [Fintype ι] {g : ι → EReal} (h : ∀ i, IsReal (g i)) : IsReal (∑ i, g i) := by
  choose r hr using h
  exact ⟨∑ i, r i, by rw [coe_sum]; exact Finset.sum_congr rfl fun i _ => hr i⟩

/-- The leaky map's slope is a real number: its word denotes a quotient of two integers. -/
theorem isReal_slope : IsReal slope := by
  have htop : slope ≠ ⊤ := by
    simp [slope, Ideal.ofBits, Ideal.ieee]
    rw [← EReal.coe_mul]; exact EReal.coe_ne_top _
  have hbot : slope ≠ ⊥ := by
    simp [slope, Ideal.ofBits, Ideal.ieee]
    rw [← EReal.coe_mul]; exact EReal.coe_ne_bot _
  exact ⟨_, (EReal.coe_toReal htop hbot).symm⟩

theorem IsReal.leaky {v : EReal} (hv : IsReal v) : IsReal (leaky v) := by
  unfold Cert.Spec.leaky; split
  · exact hv
  · exact isReal_slope.mul hv

theorem IsReal.weight {v : EReal} (hv : IsReal v) : IsReal (weight v) := by
  obtain ⟨r, rfl⟩ := hv
  exact ⟨Real.exp (Real.tanh (r * (1 / 8)) * 8), by
    unfold Cert.Spec.weight eighth; rw [← EReal.coe_mul, Ideal.tanh_coe, ← EReal.coe_mul, Ideal.exp_coe]⟩

theorem div_real (a S : ℝ) (hS : S ≠ 0) : Ideal.div (a : EReal) (S : EReal) = ((a / S : ℝ) : EReal) := by
  rw [Ideal.div_coe hS, ← EReal.coe_mul]; congr 1; ring

theorem IsReal.div {u v : EReal} (hu : IsReal u) (hv : IsReal v) (h0 : v ≠ 0) : IsReal (Ideal.div u v) := by
  obtain ⟨a, rfl⟩ := hu; obtain ⟨S, rfl⟩ := hv
  have hS : S ≠ 0 := fun h => h0 (by rw [h]; rfl)
  exact ⟨a / S, div_real a S hS⟩

/-! ## The two identities, on real families -/

/-- A common nonzero divisor moves across a finite sum of products. -/
theorem div_sum_mul {ι : Type} [Fintype ι] (a b : ι → ℝ) (S : ℝ) (hS : S ≠ 0) :
    Ideal.div (∑ i, (a i : EReal) * (b i : EReal)) (S : EReal) = ∑ i, Ideal.div (a i : EReal) (S : EReal) * (b i : EReal) := by
  have h1 : (∑ i, (a i : EReal) * (b i : EReal)) = ((∑ i, a i * b i : ℝ) : EReal) := by
    rw [coe_sum]; exact Finset.sum_congr rfl fun i _ => (EReal.coe_mul _ _).symm
  have h2 : (∑ i, Ideal.div (a i : EReal) (S : EReal) * (b i : EReal)) = ((∑ i, a i / S * b i : ℝ) : EReal) := by
    rw [coe_sum]; exact Finset.sum_congr rfl fun i _ => by rw [div_real _ _ hS, ← EReal.coe_mul]
  rw [h1, h2, div_real _ _ hS]; congr 1
  rw [Finset.sum_div]; exact Finset.sum_congr rfl fun i _ => by ring

/-- The same with the summand a row of a matrix product: the three factors may be bracketed either way. -/
theorem div_sum_mul_sum {ι κ : Type} [Fintype ι] [Fintype κ] (B : ι → ℝ) (f : ι → κ → ℝ) (w : κ → ℝ) (R : ℝ) (hR : R ≠ 0) :
    Ideal.div (∑ j, (B j : EReal) * ∑ d, (f j d : EReal) * (w d : EReal)) (R : EReal)
      = ∑ d, (∑ j, Ideal.div (B j : EReal) (R : EReal) * (f j d : EReal)) * (w d : EReal) := by
  have h1 : (∑ j, (B j : EReal) * ∑ d, (f j d : EReal) * (w d : EReal)) = ((∑ j, B j * ∑ d, f j d * w d : ℝ) : EReal) := by
    rw [coe_sum]; refine Finset.sum_congr rfl fun j _ => ?_
    rw [EReal.coe_mul, coe_sum]; congr 1
  have h2 : (∑ d, (∑ j, Ideal.div (B j : EReal) (R : EReal) * (f j d : EReal)) * (w d : EReal))
      = ((∑ d, (∑ j, B j / R * f j d) * w d : ℝ) : EReal) := by
    rw [coe_sum]; refine Finset.sum_congr rfl fun d _ => ?_
    rw [EReal.coe_mul, coe_sum]; congr 1
    exact Finset.sum_congr rfl fun j _ => by rw [div_real _ _ hR, ← EReal.coe_mul]
  rw [h1, h2, div_real _ _ hR]; congr 1
  -- over the reals: push the division and the products inside both double sums, exchange the sums, compare termwise
  simp only [Finset.sum_div, Finset.mul_sum, Finset.sum_mul]
  rw [Finset.sum_comm]
  exact Finset.sum_congr rfl fun d _ => Finset.sum_congr rfl fun j _ => by ring

/-! ## The law -/

variable (x : Fin 16384 → Fin 256 → EReal) (H : Fin 16384 → Fin 4096 → EReal)
  (w1 w2 : Fin 256 → Fin 256 → EReal) (a1 a21 a22 : Fin 256 → EReal)

/-- With every entry a real number, every edge's total weight nonzero and every node's total weight (in the divide-first
    arrangement) nonzero, summing then dividing and dividing then summing give the same result. First the edge features
    agree, `fK = fR` (the divisor `col j` moves across the sum over nodes); hence so do the edge weights and their row sums;
    then the results agree (the divisor `row n` moves across the sum over edges, and `b · (f · w2) = (b · f) · w2`). -/
theorem law
    (hx : ∀ n k, IsReal (x n k)) (hH : ∀ n j, IsReal (H n j)) (hw1 : ∀ k d, IsReal (w1 k d)) (hw2 : ∀ d k, IsReal (w2 d k))
    (ha1 : ∀ d, IsReal (a1 d)) (ha21 : ∀ d, IsReal (a21 d)) (ha22 : ∀ d, IsReal (a22 d))
    (hcol : ∀ j, col x H w1 a1 j ≠ 0) (hrow : ∀ n, row x H w1 w2 a21 a22 (fR x H w1 a1) n ≠ 0)
    (n : Fin 16384) (k : Fin 256) :
    outK x H w1 w2 a1 a21 a22 n k = outR x H w1 w2 a1 a21 a22 n k := by
  -- every intermediate up to the first divisor is a real number
  have hxw : ∀ n d, IsReal (xw x w1 n d) := fun n d => IsReal.sum fun k => (hx n k).mul (hw1 k d)
  have hlx : ∀ n d, IsReal (lx x w1 n d) := fun n d => (hxw n d).leaky
  have hf1 : ∀ n, IsReal (f1 x w1 a1 n) := fun n => IsReal.sum fun d => (hlx n d).mul (ha1 d)
  have hns : ∀ n, IsReal (ns x w1 a22 n) := fun n => IsReal.sum fun d => (hlx n d).mul (ha22 d)
  have he : ∀ n j, IsReal (e x H w1 a1 n j) := fun n j => (hf1 n).weight.mul (hH n j)
  have hcolR : ∀ j, IsReal (col x H w1 a1 j) := fun j => IsReal.sum fun n => he n j
  -- the edge features agree
  have hfeq : fK x H w1 a1 = fR x H w1 a1 := by
    funext j d
    unfold Cert.Spec.fK Cert.Spec.fR
    refine congrArg Cert.Spec.leaky ?_
    obtain ⟨S, hS⟩ := hcolR j
    have hS0 : S ≠ 0 := fun h => hcol j (by rw [hS, h]; rfl)
    choose ev hev using he
    choose xv hxv using hxw
    rw [hS]
    simp only [hev, hxv]
    exact div_sum_mul (fun n => ev n j) (fun n => xv n d) S hS0
  -- so everything downstream may be read in the divide-first arrangement, where it is real
  have hf : ∀ j d, IsReal (fR x H w1 a1 j d) := fun j d =>
    (IsReal.sum fun n => ((he n j).div (hcolR j) (hcol j)).mul (hxw n d)).leaky
  have hesc : ∀ j, IsReal (esc w2 a21 (fR x H w1 a1) j) := fun j =>
    IsReal.sum fun d => (IsReal.sum fun d' => (hf j d').mul (hw2 d' d)).leaky.mul (ha21 d)
  have hb : ∀ n j, IsReal (b x H w1 w2 a21 a22 (fR x H w1 a1) n j) := fun n j =>
    ((hesc j).add (hns n)).weight.mul (hH n j)
  have hrowR : IsReal (row x H w1 w2 a21 a22 (fR x H w1 a1) n) := IsReal.sum fun j => hb n j
  -- the results agree
  unfold Cert.Spec.outK Cert.Spec.outR
  rw [hfeq]
  refine congrArg Cert.Spec.leaky ?_
  obtain ⟨R, hR⟩ := hrowR
  have hR0 : R ≠ 0 := fun h => hrow n (by rw [hR, h]; rfl)
  choose bv hbv using hb
  choose fv hfv using hf
  choose wv hwv using hw2
  rw [hR]
  unfold Cert.Spec.fw
  simp only [hbv, hfv, hwv]
  exact div_sum_mul_sum (fun j => bv n j) fv (fun d => wv d k) R hR0

end Cert.Spec

end
-- ==== Proof.KernelIdeal.Val0.lean ====
/-
  The first launch read as mathematics, at the ideal values.

  A block of the launch is 2048 consecutive rows. On its block of `x` and the whole of `w1` the body forms the product
  `x · w1` on the matrix unit (into a zero accumulator, its operands and its stored copy passed through the narrower float
  format, which changes no ideal value), takes the leaky image entry by entry, multiplies it by each logit row and sums
  along the lanes. Entry by entry these are `Spec.xw`, `Spec.f1` and `Spec.ns` of the arrays the launch found; since row `n`
  lies in block `n / 2048`, written back at point `n / 2048`, the three result arrays after the launch hold those functions.
-/
import proofs.«428716_j47717086658967_3_alg».proof.Proof.KernelIdeal.Reg0
import proofs.«428716_j47717086658967_3_alg».proof.Proof.Spec
import proofs.«428716_j47717086658967_3_alg».proof.Proof.Bridge
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (Pipeline.UD sig nD τ) ℕ

-- the TensorCore's buffer contents when the launch is entered
variable (V : (c : Dev nD) → (b : Ref sig .tc) → Buf (Elt Ideal) ((c : Thread nD τ).loc b))

/-! ## The arrays the launch reads, as the mathematics sees them -/

/-- `x`, node by feature. -/
abbrev xMat0 (c : Dev nD) : Fin 16384 → Fin 256 → EReal := Cert.Bridge.mat (A := 16384) (B := 256) (V c main_arg0)
/-- `w1`. -/
abbrev w1Mat0 (c : Dev nD) : Fin 256 → Fin 256 → EReal := Cert.Bridge.mat (A := 256) (B := 256) (V c main_arg2)
/-- The first logit row, `a1ᵀ`. -/
abbrev a1Row0 (c : Dev nD) : Fin 256 → EReal := fun d => V c main_v0 (ix2 (0 : Fin 1) d)
/-- The second logit row, `a22ᵀ`. -/
abbrev a22Row0 (c : Dev nD) : Fin 256 → EReal := fun d => V c main_v1 (ix2 (0 : Fin 1) d)

namespace Val0

/-- The offsets of a whole-block rectangle of rank two. -/
theorem zero_off : (![0, 0] : Fin 2 → ℕ) = fun _ => 0 := by
  funext a; fin_cases a <;> rfl

/-! ## The body's values, entry by entry

Each lemma is over any block `v0` of 2048 rows, any `v2` of the shape of `w1` and any row `v10`, at explicit coordinates. -/

section Entries

/-! ### The product: entry `(p, q)` is row `p` of the block against column `q` of the weights

Where the matrix unit reads its two operands for output entry `j` and contraction index `u`: the left operand at
`(j 0, u)`, the right at `(u, j 1)`. -/

theorem mm_lhs_0 (j : S2048x256.Idx) (u : dot_S2048x256_S256x256_S2048x256_1_0_0_1_n_n.contr.Idx) :
    (dot_S2048x256_S256x256_S2048x256_1_0_0_1_n_n.lhsIdx j u 0).val = (j 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
theorem mm_lhs_1 (j : S2048x256.Idx) (u : dot_S2048x256_S256x256_S2048x256_1_0_0_1_n_n.contr.Idx) :
    (dot_S2048x256_S256x256_S2048x256_1_0_0_1_n_n.lhsIdx j u 1).val = (u ⟨0, by decide⟩).val :=
  dot_S2048x256_S256x256_S2048x256_1_0_0_1_n_n.lhsIdx_val_of_single rfl j u
theorem mm_rhs_0 (j : S2048x256.Idx) (u : dot_S2048x256_S256x256_S2048x256_1_0_0_1_n_n.contr.Idx) :
    (dot_S2048x256_S256x256_S2048x256_1_0_0_1_n_n.rhsIdx j u 0).val = (u ⟨0, by decide⟩).val :=
  dot_S2048x256_S256x256_S2048x256_1_0_0_1_n_n.rhsIdx_val_of_single rfl j u
theorem mm_rhs_1 (j : S2048x256.Idx) (u : dot_S2048x256_S256x256_S2048x256_1_0_0_1_n_n.contr.Idx) :
    (dot_S2048x256_S256x256_S2048x256_1_0_0_1_n_n.rhsIdx j u 1).val = (j 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The product's entry: the narrowing of the operands is the identity on ideal values and the accumulator is zero, so the
    entry is the plain sum of products. -/
theorem pay1_entry (v0 : Vec Ideal S2048x256 .f32) (v2 : Vec Ideal S256x256 .f32) (p : Fin 2048) (q : Fin 256) :
    k0_pay1 (F := Ideal) v0 v2 (ix2 p q) = ∑ k : Fin 256, v0 (ix2 p k) * v2 (ix2 k q) := by
  unfold k0_pay1
  refine (Ideal.matmul_constant_zero_apply dot_S2048x256_S256x256_S2048x256_1_0_0_1_n_n none
    (truncf .bf16 v0 bitsLt_bf16_f32) (truncf .bf16 v2 bitsLt_bf16_f32) (ix2 p q)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q)
      ((contrEquiv1 dot_S2048x256_S256x256_S2048x256_1_0_0_1_n_n 256 rfl rfl).symm k) = ix2 p k :=
    funext fun a => Fin.ext (by
      match a with
      | ⟨0, _⟩ => exact mm_lhs_0 _ _
      | ⟨1, _⟩ => exact (mm_lhs_1 _ _).trans hk)
  have er : dot_S2048x256_S256x256_S2048x256_1_0_0_1_n_n.rhsIdx (ix2 p q)
      ((contrEquiv1 dot_S2048x256_S256x256_S2048x256_1_0_0_1_n_n 256 rfl rfl).symm k) = ix2 k q :=
    funext fun a => Fin.ext (by
      match a with
      | ⟨0, _⟩ => exact (mm_rhs_0 _ _).trans hk
      | ⟨1, _⟩ => exact mm_rhs_1 _ _)
  rw [el, er]
  rfl

/-- The stored copy of the product, in the narrower format, has the same ideal entries. -/
theorem pay5_entry (v0 : Vec Ideal S2048x256 .f32) (v2 : Vec Ideal S256x256 .f32) (p : Fin 2048) (q : Fin 256) :
    k0_pay5 (F := Ideal) v0 v2 (ix2 p q) = ∑ k : Fin 256, v0 (ix2 p k) * v2 (ix2 k q) :=
  pay1_entry v0 v2 p q

/-! ### The leaky image

The body compares with the zero word, keeps the entry above it and scales it by the slope's word otherwise. -/

theorem leaky_word (v : EReal) :
    Scalar.select (Ideal.cmp .ogt v (Ideal.ofBits .f32 0x00000000#32)) v (Ideal.ofBits .f32 0x3DCCCCCD#32 * v)
      = Cert.Spec.leaky v := by
  unfold Cert.Spec.leaky Scalar.select Ideal.cmp
  rw [Ideal.ofBits_zero_f32]
  by_cases h : (0 : EReal) < v <;> simp [h]

theorem pay2_entry (v0 : Vec Ideal S2048x256 .f32) (v2 : Vec Ideal S256x256 .f32) (p : Fin 2048) (q : Fin 256) :
    k0_pay2 (F := Ideal) v0 v2 (ix2 p q) = Cert.Spec.leaky (k0_pay1 (F := Ideal) v0 v2 (ix2 p q)) :=
  leaky_word _

/-! ### A logit: the leaky row against a logit row, summed along the lanes -/

/-- The sum along the lanes of a block, at row `p`. -/
theorem lane_sum (src : FVec Ideal S2048x256 .f32) (hφ : FKind.Formats .f32)
    (hacc : (0x00000000#32 : BitVec 32) = 0x00000000#32) (p : Fin 2048) :
    multiReduction (F := Ideal) .add [1] S2048 src 0x00000000#32 reduces_S2048x256_S2048 hφ hacc (ix1 p)
      = ∑ k : Fin 256, src (ix2 p k) := by
  refine (Ideal.multiReduction_add_single src 0x00000000#32 reduces_S2048x256_S2048 hφ hacc (ix1 p)).trans ?_
  refine Finset.sum_congr rfl fun k _ => congrArg src ?_
  funext a
  apply Fin.ext
  match a with
  | ⟨0, _⟩ => rfl
  | ⟨1, _⟩ => rfl

theorem pay3_entry (v0 : Vec Ideal S2048x256 .f32) (v2 : Vec Ideal S256x256 .f32) (v10 : Vec Ideal S1x256 .f32) (p : Fin 2048) :
    k0_pay3 (F := Ideal) v0 v2 v10 (ix2 p 0) = ∑ d : Fin 256, k0_pay2 (F := Ideal) v0 v2 (ix2 p d) * v10 (ix2 0 d) := by
  unfold k0_pay3
  refine (shapeCast_apply _ shapeCasts_S2048_S2048x1 (ix2 p 0) (ix1 p) ?_).trans ?_
  · rw [Shape.rowMajor_val_one, Shape.rowMajor_val_two]
    show p.val = p.val * 1 + 0
    omega
  refine (lane_sum _ (.inl rfl) rfl p).trans ?_
  refine Finset.sum_congr rfl fun d _ => ?_
  show k0_pay2 (F := Ideal) v0 v2 (ix2 p d)
      * broadcastTo S2048x256 (shapeCast S1x256 v10 shapeCasts_S1x256_S1x256) broadcasts_S1x256_S2048x256 (ix2 p d) = _
  rw [broadcastTo_apply _ broadcasts_S1x256_S2048x256 (ix2 p d) (ix2 0 d)
    (fun a => match a with | ⟨0, _⟩ => rfl | ⟨1, _⟩ => rfl), shapeCast_self]

theorem pay4_entry (v0 : Vec Ideal S2048x256 .f32) (v2 : Vec Ideal S256x256 .f32) (v12 : Vec Ideal S1x256 .f32) (p : Fin 2048) :
    k0_pay4 (F := Ideal) v0 v2 v12 (ix2 p 0) = ∑ d : Fin 256, k0_pay2 (F := Ideal) v0 v2 (ix2 p d) * v12 (ix2 0 d) := by
  unfold k0_pay4
  refine (shapeCast_apply _ shapeCasts_S2048_S2048x1 (ix2 p 0) (ix1 p) ?_).trans ?_
  · rw [Shape.rowMajor_val_one, Shape.rowMajor_val_two]
    show p.val = p.val * 1 + 0
    omega
  refine (lane_sum _ (.inl rfl) rfl p).trans ?_
  refine Finset.sum_congr rfl fun d _ => ?_
  show k0_pay2 (F := Ideal) v0 v2 (ix2 p d)
      * broadcastTo S2048x256 (shapeCast S1x256 v12 shapeCasts_S1x256_S1x256) broadcasts_S1x256_S2048x256 (ix2 p d) = _
  rw [broadcastTo_apply _ broadcasts_S1x256_S2048x256 (ix2 p d) (ix2 0 d)
    (fun a => match a with | ⟨0, _⟩ => rfl | ⟨1, _⟩ => rfl), shapeCast_self]

end Entries

/-- What each result array is to hold: the product, and the two logit columns. -/
def xwArr (c : Dev nD) : S16384x256.Idx → EReal := fun i => Cert.Spec.xw (xMat0 V c) (w1Mat0 V c) (i 0) (i 1)
def f1Arr (c : Dev nD) : S16384x1.Idx → EReal := fun i => Cert.Spec.f1 (xMat0 V c) (w1Mat0 V c) (a1Row0 V c) (i 0)
def nsArr (c : Dev nD) : S16384x1.Idx → EReal := fun i => Cert.Spec.ns (xMat0 V c) (w1Mat0 V c) (a22Row0 V c) (i 0)

/-! ## Where the blocks sit

The launch has eight points. At point `t` the block of `x` and the block of each result is the `t`-th run of 2048 rows; the
weights and the two logit rows are one block each, the whole array. -/

theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 8 := by
  have h : t.val < grid0.N := t.isLt
  have hN : grid0.N = 8 := N_0
  omega

/-! ### An input block read back to its array

Entry `(p, k)` of point `t`'s block of `x` is entry `(2048·t + p, k)` of `x`; a block of the weights or of a logit row is the
array itself. -/

theorem xblk_entry (c : Dev nD) (t : Fin cfg0.N) (p : Fin 2048) (k : Fin 256) (n : Fin 16384)
    (hn : n.val = t.val * 2048 + p.val) : iblk0 V c 0 t (ix2 p k) = xMat0 V c n k := by
  obtain ⟨e0, e1, -⟩ := block_index0 t
  show V c main_arg0 (((cfg0.win 0).blk t).view.emb (ix2 p k)) = V c main_arg0 (ix2 n k)
  refine congrArg (V c main_arg0) ?_
  funext a
  apply Fin.ext
  match a with
  | ⟨0, _⟩ => show win0_0.index t (0 : Fin 2) * 2048 + 1 * p.val = n.val; omega
  | ⟨1, _⟩ => show win0_0.index t (1 : Fin 2) * 256 + 1 * k.val = k.val; omega

theorem wblk_entry (c : Dev nD) (t : Fin cfg0.N) (k q : Fin 256) : iblk0 V c 1 t (ix2 k q) = w1Mat0 V c k q := by
  obtain ⟨-, -, e0, e1, -⟩ := block_index0 t
  show V c main_arg2 (((cfg0.win 1).blk t).view.emb (ix2 k q)) = V c main_arg2 (ix2 k q)
  refine congrArg (V c main_arg2) ?_
  funext a
  apply Fin.ext
  match a with
  | ⟨0, _⟩ => show win0_1.index t (0 : Fin 2) * 256 + 1 * k.val = k.val; omega
  | ⟨1, _⟩ => show win0_1.index t (1 : Fin 2) * 256 + 1 * q.val = q.val; omega

theorem r1blk_entry (c : Dev nD) (t : Fin cfg0.N) (d : Fin 256) : iblk0 V c 2 t (ix2 (0 : Fin 1) d) = a1Row0 V c d := by
  obtain ⟨-, -, -, -, e0, e1, -⟩ := block_index0 t
  show V c main_v0 (((cfg0.win 2).blk t).view.emb (ix2 (0 : Fin 1) d)) = V c main_v0 (ix2 (0 : Fin 1) d)
  refine congrArg (V c main_v0) ?_
  funext a
  apply Fin.ext
  match a with
  | ⟨0, _⟩ => show win0_2.index t (0 : Fin 2) * 1 + 1 * 0 = 0; omega
  | ⟨1, _⟩ => show win0_2.index t (1 : Fin 2) * 256 + 1 * d.val = d.val; omega

theorem r22blk_entry (c : Dev nD) (t : Fin cfg0.N) (d : Fin 256) : iblk0 V c 3 t (ix2 (0 : Fin 1) d) = a22Row0 V c d := by
  obtain ⟨-, -, -, -, -, -, e0, e1, -⟩ := block_index0 t
  show V c main_v1 (((cfg0.win 3).blk t).view.emb (ix2 (0 : Fin 1) d)) = V c main_v1 (ix2 (0 : Fin 1) d)
  refine congrArg (V c main_v1) ?_
  funext a
  apply Fin.ext
  match a with
  | ⟨0, _⟩ => show win0_3.index t (0 : Fin 2) * 1 + 1 * 0 = 0; omega
  | ⟨1, _⟩ => show win0_3.index t (1 : Fin 2) * 256 + 1 * d.val = d.val; omega

/-! ### The body's results on the blocks of a point, as the specification's functions

Row `p` at point `t` is row `n = 2048·t + p` of the arrays. -/

theorem xw_at (c : Dev nD) (t : Fin cfg0.N) (p : Fin 2048) (q : Fin 256) (n : Fin 16384) (hn : n.val = t.val * 2048 + p.val) :
    k0_pay1 (F := Ideal) (iblk0 V c 0 t) (iblk0 V c 1 t) (ix2 p q) = Cert.Spec.xw (xMat0 V c) (w1Mat0 V c) n q := by
  refine (pay1_entry (iblk0 V c 0 t) (iblk0 V c 1 t) p q).trans ?_
  unfold Cert.Spec.xw
  exact Finset.sum_congr rfl fun k _ => congrArg₂ (· * ·) (xblk_entry V c t p k n hn) (wblk_entry V c t k q)

theorem lx_at (c : Dev nD) (t : Fin cfg0.N) (p : Fin 2048) (q : Fin 256) (n : Fin 16384) (hn : n.val = t.val * 2048 + p.val) :
    k0_pay2 (F := Ideal) (iblk0 V c 0 t) (iblk0 V c 1 t) (ix2 p q) = Cert.Spec.lx (xMat0 V c) (w1Mat0 V c) n q := by
  refine (pay2_entry (iblk0 V c 0 t) (iblk0 V c 1 t) p q).trans ?_
  unfold Cert.Spec.lx
  exact congrArg Cert.Spec.leaky (xw_at V c t p q n hn)

theorem f1_at (c : Dev nD) (t : Fin cfg0.N) (p : Fin 2048) (n : Fin 16384) (hn : n.val = t.val * 2048 + p.val) :
    k0_pay3 (F := Ideal) (iblk0 V c 0 t) (iblk0 V c 1 t) (iblk0 V c 2 t) (ix2 p (0 : Fin 1))
      = Cert.Spec.f1 (xMat0 V c) (w1Mat0 V c) (a1Row0 V c) n := by
  refine (pay3_entry (iblk0 V c 0 t) (iblk0 V c 1 t) (iblk0 V c 2 t) p).trans ?_
  unfold Cert.Spec.f1
  exact Finset.sum_congr rfl fun d _ => congrArg₂ (· * ·) (lx_at V c t p d n hn) (r1blk_entry V c t d)

theorem ns_at (c : Dev nD) (t : Fin cfg0.N) (p : Fin 2048) (n : Fin 16384) (hn : n.val = t.val * 2048 + p.val) :
    k0_pay4 (F := Ideal) (iblk0 V c 0 t) (iblk0 V c 1 t) (iblk0 V c 3 t) (ix2 p (0 : Fin 1))
      = Cert.Spec.ns (xMat0 V c) (w1Mat0 V c) (a22Row0 V c) n := by
  refine (pay4_entry (iblk0 V c 0 t) (iblk0 V c 1 t) (iblk0 V c 3 t) p).trans ?_
  unfold Cert.Spec.ns
  exact Finset.sum_congr rfl fun d _ => congrArg₂ (· * ·) (lx_at V c t p d n hn) (r22blk_entry V c t d)

/-! ## What each point writes back is its block of the whole-array function -/

/-- The array row under row `p` of point `t`'s block. -/
def rowOf (t : Fin cfg0.N) (p : Fin 2048) : Fin 16384 :=
  ⟨t.val * 2048 + p.val, by have := point_lt t; have := p.isLt; omega⟩

theorem flushed4_eq (c : Dev nD) (t : Fin cfg0.N) :
    (dat0 V c).flushed 4 t = ((cfg0.win 4).blk t).view.read (Elt Ideal) (xwArr V c) := by
  show (cfg0.win 4).cut (grid0.coords t) ((dat0 V c).after 4 t) = _
  rw [after0_4]
  unfold out0_4
  rw [View.canon_unit_zero zero_off]
  obtain ⟨-, -, -, -, -, -, -, -, e0, e1, -⟩ := block_index0 t
  funext j
  obtain ⟨p, q, rfl⟩ : ∃ (p : Fin 2048) (q : Fin 256), j = ix2 p q := ⟨j 0, j 1, eq_ix2 (n0 := 2048) (n1 := 256) j⟩
  have hemb : ((cfg0.win 4).blk t).view.emb (ix2 p q) = ix2 (rowOf t p) q := by
    funext a
    apply Fin.ext
    match a with
    | ⟨0, _⟩ => show win0_4.index t (0 : Fin 2) * 2048 + 1 * p.val = t.val * 2048 + p.val; omega
    | ⟨1, _⟩ => show win0_4.index t (1 : Fin 2) * 256 + 1 * q.val = q.val; omega
  show k0_pay5 (F := Ideal) (iblk0 V c 0 t) (iblk0 V c 1 t) (ix2 p q) = xwArr V c (((cfg0.win 4).blk t).view.emb (ix2 p q))
  rw [hemb]
  exact xw_at V c t p q (rowOf t p) rfl

theorem flushed5_eq (c : Dev nD) (t : Fin cfg0.N) :
    (dat0 V c).flushed 5 t = ((cfg0.win 5).blk t).view.read (Elt Ideal) (f1Arr V c) := by
  show (cfg0.win 5).cut (grid0.coords t) ((dat0 V c).after 5 t) = _
  rw [after0_5]
  unfold out0_5
  rw [View.canon_unit_zero zero_off]
  obtain ⟨-, -, -, -, -, -, -, -, -, -, e0, e1, -⟩ := block_index0 t
  funext j
  obtain ⟨p, z, rfl⟩ : ∃ (p : Fin 2048) (z : Fin 1), j = ix2 p z := ⟨j 0, j 1, eq_ix2 (n0 := 2048) (n1 := 1) j⟩
  obtain rfl : z = 0 := Subsingleton.elim _ _
  have hemb : ((cfg0.win 5).blk t).view.emb (ix2 p (0 : Fin 1)) = ix2 (rowOf t p) (0 : Fin 1) := by
    funext a
    apply Fin.ext
    match a with
    | ⟨0, _⟩ => show win0_5.index t (0 : Fin 2) * 2048 + 1 * p.val = t.val * 2048 + p.val; omega
    | ⟨1, _⟩ => show win0_5.index t (1 : Fin 2) * 1 + 1 * 0 = 0; omega
  show k0_pay3 (F := Ideal) (iblk0 V c 0 t) (iblk0 V c 1 t) (iblk0 V c 2 t) (ix2 p (0 : Fin 1))
    = f1Arr V c (((cfg0.win 5).blk t).view.emb (ix2 p (0 : Fin 1)))
  rw [hemb]
  exact f1_at V c t p (rowOf t p) rfl

theorem flushed6_eq (c : Dev nD) (t : Fin cfg0.N) :
    (dat0 V c).flushed 6 t = ((cfg0.win 6).blk t).view.read (Elt Ideal) (nsArr V c) := by
  show (cfg0.win 6).cut (grid0.coords t) ((dat0 V c).after 6 t) = _
  rw [after0_6]
  unfold out0_6
  rw [View.canon_unit_zero zero_off]
  obtain ⟨-, -, -, -, -, -, -, -, -, -, -, -, e0, e1⟩ := block_index0 t
  funext j
  obtain ⟨p, z, rfl⟩ : ∃ (p : Fin 2048) (z : Fin 1), j = ix2 p z := ⟨j 0, j 1, eq_ix2 (n0 := 2048) (n1 := 1) j⟩
  obtain rfl : z = 0 := Subsingleton.elim _ _
  have hemb : ((cfg0.win 6).blk t).view.emb (ix2 p (0 : Fin 1)) = ix2 (rowOf t p) (0 : Fin 1) := by
    funext a
    apply Fin.ext
    match a with
    | ⟨0, _⟩ => show win0_6.index t (0 : Fin 2) * 2048 + 1 * p.val = t.val * 2048 + p.val; omega
    | ⟨1, _⟩ => show win0_6.index t (1 : Fin 2) * 1 + 1 * 0 = 0; omega
  show k0_pay4 (F := Ideal) (iblk0 V c 0 t) (iblk0 V c 1 t) (iblk0 V c 3 t) (ix2 p (0 : Fin 1))
    = nsArr V c (((cfg0.win 6).blk t).view.emb (ix2 p (0 : Fin 1)))
  rw [hemb]
  exact ns_at V c t p (rowOf t p) rfl

/-! ## Every row is in the block of the point `row / 2048` -/

theorem mem_blk4 (t : Fin cfg0.N) (i : S16384x256.Idx) :
    i ∈ ((cfg0.win 4).blk t).view.set ↔ ∀ a : Fin 2, win0_4.index t a * S2048x256.size a ≤ (i a).val
      ∧ (i a).val < win0_4.index t a * S2048x256.size a + S2048x256.size a := by
  show i ∈ ((View.whole main_v2_0).slice (win0_4.rect t)).set ↔ _
  rw [View.set_slice_whole, Rect.mem_set_unit]
  exact Iff.rfl

theorem mem_blk5 (t : Fin cfg0.N) (i : S16384x1.Idx) :
    i ∈ ((cfg0.win 5).blk t).view.set ↔ ∀ a : Fin 2, win0_5.index t a * S2048x1.size a ≤ (i a).val
      ∧ (i a).val < win0_5.index t a * S2048x1.size a + S2048x1.size a := by
  show i ∈ ((View.whole main_v2_1).slice (win0_5.rect t)).set ↔ _
  rw [View.set_slice_whole, Rect.mem_set_unit]
  exact Iff.rfl

theorem mem_blk6 (t : Fin cfg0.N) (i : S16384x1.Idx) :
    i ∈ ((cfg0.win 6).blk t).view.set ↔ ∀ a : Fin 2, win0_6.index t a * S2048x1.size a ≤ (i a).val
      ∧ (i a).val < win0_6.index t a * S2048x1.size a + S2048x1.size a := by
  show i ∈ ((View.whole main_v2_2).slice (win0_6.rect t)).set ↔ _
  rw [View.set_slice_whole, Rect.mem_set_unit]
  exact Iff.rfl

/-- The point whose blocks hold row `r`. -/
def pointOf (r : ℕ) (hr : r < 16384) : Fin cfg0.N :=
  ⟨r / 2048, by show r / 2048 < grid0.N; have hN : grid0.N = 8 := N_0; omega⟩

theorem cover4 (i : S16384x256.Idx) :
    ∃ t : Fin cfg0.N, (cfg0.win 4).flush t = true ∧ i ∈ ((cfg0.win 4).blk t).view.set := by
  have hi0 : (i 0).val < 16384 := idx2_lt0 i
  have hi1 : (i 1).val < 256 := idx2_lt1 i
  refine ⟨pointOf (i 0).val hi0, flush0_4 _, ?_⟩
  obtain ⟨-, -, -, -, -, -, -, -, e0, e1, -⟩ := block_index0 (pointOf (i 0).val hi0)
  have ev : (pointOf (i 0).val hi0).val = (i 0).val / 2048 := rfl
  rw [mem_blk4]
  intro a
  match a with
  | ⟨0, _⟩ =>
    show win0_4.index (pointOf (i 0).val hi0) (0 : Fin 2) * 2048 ≤ (i 0).val
      ∧ (i 0).val < win0_4.index (pointOf (i 0).val hi0) (0 : Fin 2) * 2048 + 2048
    omega
  | ⟨1, _⟩ =>
    show win0_4.index (pointOf (i 0).val hi0) (1 : Fin 2) * 256 ≤ (i 1).val
      ∧ (i 1).val < win0_4.index (pointOf (i 0).val hi0) (1 : Fin 2) * 256 + 256
    omega

theorem cover5 (i : S16384x1.Idx) :
    ∃ t : Fin cfg0.N, (cfg0.win 5).flush t = true ∧ i ∈ ((cfg0.win 5).blk t).view.set := by
  have hi0 : (i 0).val < 16384 := idx2_lt0 i
  have hi1 : (i 1).val < 1 := idx2_lt1 i
  refine ⟨pointOf (i 0).val hi0, flush0_5 _, ?_⟩
  obtain ⟨-, -, -, -, -, -, -, -, -, -, e0, e1, -⟩ := block_index0 (pointOf (i 0).val hi0)
  have ev : (pointOf (i 0).val hi0).val = (i 0).val / 2048 := rfl
  rw [mem_blk5]
  intro a
  match a with
  | ⟨0, _⟩ =>
    show win0_5.index (pointOf (i 0).val hi0) (0 : Fin 2) * 2048 ≤ (i 0).val
      ∧ (i 0).val < win0_5.index (pointOf (i 0).val hi0) (0 : Fin 2) * 2048 + 2048
    omega
  | ⟨1, _⟩ =>
    show win0_5.index (pointOf (i 0).val hi0) (1 : Fin 2) * 1 ≤ (i 1).val
      ∧ (i 1).val < win0_5.index (pointOf (i 0).val hi0) (1 : Fin 2) * 1 + 1
    omega

theorem cover6 (i : S16384x1.Idx) :
    ∃ t : Fin cfg0.N, (cfg0.win 6).flush t = true ∧ i ∈ ((cfg0.win 6).blk t).view.set := by
  have hi0 : (i 0).val < 16384 := idx2_lt0 i
  have hi1 : (i 1).val < 1 := idx2_lt1 i
  refine ⟨pointOf (i 0).val hi0, flush0_6 _, ?_⟩
  obtain ⟨-, -, -, -, -, -, -, -, -, -, -, -, e0, e1⟩ := block_index0 (pointOf (i 0).val hi0)
  have ev : (pointOf (i 0).val hi0).val = (i 0).val / 2048 := rfl
  rw [mem_blk6]
  intro a
  match a with
  | ⟨0, _⟩ =>
    show win0_6.index (pointOf (i 0).val hi0) (0 : Fin 2) * 2048 ≤ (i 0).val
      ∧ (i 0).val < win0_6.index (pointOf (i 0).val hi0) (0 : Fin 2) * 2048 + 2048
    omega
  | ⟨1, _⟩ =>
    show win0_6.index (pointOf (i 0).val hi0) (1 : Fin 2) * 1 ≤ (i 1).val
      ∧ (i 1).val < win0_6.index (pointOf (i 0).val hi0) (1 : Fin 2) * 1 + 1
    omega

/-! ## The three result arrays after the launch -/

theorem arr4_eq (c : Dev nD) : (dat0 V c).arrAt 4 cfg0.N = xwArr V c :=
  (dat0 V c).arrAt_eq_of_cover 4 (xwArr V c) (fun t _ => flushed4_eq V c t) cover4
theorem arr5_eq (c : Dev nD) : (dat0 V c).arrAt 5 cfg0.N = f1Arr V c :=
  (dat0 V c).arrAt_eq_of_cover 5 (f1Arr V c) (fun t _ => flushed5_eq V c t) cover5
theorem arr6_eq (c : Dev nD) : (dat0 V c).arrAt 6 cfg0.N = nsArr V c :=
  (dat0 V c).arrAt_eq_of_cover 6 (nsArr V c) (fun t _ => flushed6_eq V c t) cover6

end Val0

/-- After the launch the first result array holds `x · w1`, -/
theorem arr0_4_eq_xw (c : Dev nD) (n : Fin 16384) (d : Fin 256) :
    (dat0 V c).arrAt 4 cfg0.N (ix2 n d) = Cert.Spec.xw (xMat0 V c) (w1Mat0 V c) n d :=
  congrFun (Val0.arr4_eq V c) (ix2 n d)
/-- the second the node logit against `a1`, -/
theorem arr0_5_eq_f1 (c : Dev nD) (n : Fin 16384) :
    (dat0 V c).arrAt 5 cfg0.N (ix2 n (0 : Fin 1)) = Cert.Spec.f1 (xMat0 V c) (w1Mat0 V c) (a1Row0 V c) n :=
  congrFun (Val0.arr5_eq V c) (ix2 n (0 : Fin 1))
/-- and the third the node logit against `a22`. -/
theorem arr0_6_eq_ns (c : Dev nD) (n : Fin 16384) :
    (dat0 V c).arrAt 6 cfg0.N (ix2 n (0 : Fin 1)) = Cert.Spec.ns (xMat0 V c) (w1Mat0 V c) (a22Row0 V c) n :=
  congrFun (Val0.arr6_eq V c) (ix2 n (0 : Fin 1))

end Cert.KernelIdeal.Hand

end
-- ==== Proof.KernelIdeal.Val2.lean ====
/-
  The third launch read as mathematics, at the ideal values. A block's payload at an entry is the leaky image of a quotient:
  the edge weights `b p j = exp (8 · tanh ((escore j + ns p) / 8)) · H p j` of the block's row `p` against column `q` of `fw2`,
  summed over the 4096 edges, divided by the row's total weight. Grid point `t` handles rows `256 t … 256 t + 255`, the sixty-four
  blocks tile the 16384 rows, so the result array after the launch is that function of the arrays the launch found, entry by entry.
-/
import proofs.«428716_j47717086658967_3_alg».proof.Proof.KernelIdeal.Reg2
import proofs.«428716_j47717086658967_3_alg».proof.Proof.Spec
import proofs.«428716_j47717086658967_3_alg».proof.Proof.Bridge
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

namespace Val2

/-! ## The two words the weight multiplies by -/

/-- The word `0x3E000000` denotes one eighth. -/
theorem word_eighth : Ideal.ofBits .f32 0x3E000000#32 = ((1 / 8 : ℝ) : EReal) := by
  simp [Ideal.ofBits, Ideal.ieee, -EReal.coe_mul]; norm_num

/-- The word `0x41000000` denotes eight. -/
theorem word_eight : Ideal.ofBits .f32 0x41000000#32 = ((8 : ℝ) : EReal) := by
  simp [Ideal.ofBits, Ideal.ieee, -EReal.coe_mul]; norm_num

/-! ## Layout operations of the payload, read at an entry -/

section Layout
variable {α : Type}

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The payload in two steps: the weights, then what is made of them -/

/-- The edge weights of a block as the payload computes them: the row of edge logits and the column of node logits broadcast
    over the block and added, the bounded exponential of the sum, times the block of `H`. -/
def wts2 (x0 : Vec Ideal S256x4096 .f32) (x1 : Vec Ideal S256x1 .f32) (x3 : Vec Ideal S1x4096 .f32) : FVec Ideal S256x4096 .f32 :=
  mulf (exp (mulf (tanh (mulf (addf (broadcastTo S256x4096 (shapeCast S1x4096 x3 shapeCasts_S1x4096_S1x4096) broadcasts_S1x4096_S256x4096)
        (broadcastTo S256x4096 (shapeCast S256x1 x1 shapeCasts_S256x1_S256x1) broadcasts_S256x1_S256x4096))
      (broadcast S256x4096 (Scalar.ofBits .f32 0x3E000000#32)))) (broadcast S256x4096 (Scalar.ofBits .f32 0x41000000#32)))) x0

/-- The weighted sum of the rows of `fw2` divided by the total weight, row by row. -/
def quot2 (w : FVec Ideal S256x4096 .f32) (x2 : FVec Ideal S4096x256 .bf16) : FVec Ideal S256x256 .f32 :=
  divf (matmul dot_S256x4096_S4096x256_S256x256_1_0_0_1_n_n none (truncf .bf16 w bitsLt_bf16_f32)
      (shapeCast S4096x256 x2 shapeCasts_S4096x256_S4096x256) (constant S256x256 .f32 0x00000000#32))
    (broadcastTo S256x256 (shapeCast S256x1 (multiReduction .add [1] S256 w 0x00000000#32 reduces_S256x4096_S256 (.inl rfl) rfl)
      shapeCasts_S256_S256x1) broadcasts_S256x1_S256x256)

/-- The leaky map of a block, as a comparison with zero and a select. -/
def lk2 (r : FVec Ideal S256x256 .f32) : FVec Ideal S256x256 .f32 :=
  select (cmpf .ogt r (broadcast S256x256 (Scalar.ofBits .f32 0x00000000#32))) r
    (mulf (broadcast S256x256 (Scalar.ofBits .f32 0x3DCCCCCD#32)) r)

/-- The payload is the leaky image of the quotient made of the weights. -/
theorem pay2_eq (x0 : Vec Ideal S256x4096 .f32) (x1 : Vec Ideal S256x1 .f32) (x3 : Vec Ideal S1x4096 .f32) (x2 : FVec Ideal S4096x256 .bf16) :
    k2_pay1 x0 x1 x3 x2 = lk2 (quot2 (wts2 x0 x1 x3) x2) := rfl

/-- A weight at `(p, j)`: the bounded exponential of edge `j`'s logit plus node `p`'s, times `H` there. -/
theorem wts2_apply (x0 : Vec Ideal S256x4096 .f32) (x1 : Vec Ideal S256x1 .f32) (x3 : Vec Ideal S1x4096 .f32) (p : Fin 256) (j : Fin 4096) :
    wts2 x0 x1 x3 (ix2 p j) = Cert.Spec.weight (x3 (ix2 (0 : Fin 1) j) + x1 (ix2 p (0 : Fin 1))) * x0 (ix2 p j) := by
  have e3 : broadcastTo S256x4096 (shapeCast S1x4096 x3 shapeCasts_S1x4096_S1x4096) broadcasts_S1x4096_S256x4096 (ix2 p j)
      = x3 (ix2 (0 : Fin 1) j) := by
    rw [shapeCast_self]; exact broadcastTo_1b_ab_apply x3 _ p j
  have e1 : broadcastTo S256x4096 (shapeCast S256x1 x1 shapeCasts_S256x1_S256x1) broadcasts_S256x1_S256x4096 (ix2 p j)
      = x1 (ix2 p (0 : Fin 1)) := by
    rw [shapeCast_self]; exact broadcastTo_a1_ab_apply x1 _ p j
  show Ideal.exp (Ideal.tanh ((_ + _) * Ideal.ofBits .f32 0x3E000000#32) * Ideal.ofBits .f32 0x41000000#32) * x0 (ix2 p j) = _
  rw [e3, e1, word_eighth, word_eight]
  rfl

/-- The leaky map at an entry. -/
theorem lk2_apply (r : FVec Ideal S256x256 .f32) (i : S256x256.Idx) : lk2 r i = Cert.Spec.leaky (r i) := by
  show Scalar.select (Ideal.cmp .ogt (r i) (Ideal.ofBits .f32 0x00000000#32)) (r i) (Ideal.ofBits .f32 0x3DCCCCCD#32 * r i) = _
  rw [Ideal.ofBits_zero_f32]
  unfold Cert.Spec.leaky Ideal.cmp
  by_cases h : 0 < r i
  · rw [if_pos h]; simp only [h, decide_true]; rfl
  · rw [if_neg h]; simp only [h, decide_false]; rfl

/-! ## The lane sum and the product at an entry -/

/-- The sum along the edges of a block, at row `p`. -/
theorem rowsum2_apply (w : FVec Ideal S256x4096 .f32) (p : Fin 256) :
    multiReduction .add [1] S256 w 0x00000000#32 reduces_S256x4096_S256 (.inl rfl) rfl (ix1 p) = ∑ j : Fin 4096, w (ix2 p j) := by
  refine (Ideal.multiReduction_add_single w 0x00000000#32 reduces_S256x4096_S256 (.inl rfl) rfl (ix1 p)).trans ?_
  refine Finset.sum_congr rfl fun j _ => congrArg w ?_
  funext a; apply Fin.ext
  match a with
  | ⟨0, _⟩ => rfl
  | ⟨1, _⟩ => rfl

/-- The product's operand indices, axis by axis: entry `(r, c)` of the product contracts row `r` of the left operand with
    column `c` of the right one. -/
theorem lhs2_0 (i : S256x256.Idx) (q : dot_S256x4096_S4096x256_S256x256_1_0_0_1_n_n.contr.Idx) :
    (dot_S256x4096_S4096x256_S256x256_1_0_0_1_n_n.lhsIdx i q 0).val = (i 0).val := by
  unfold DotDims.lhsIdx
  rw [dif_neg (show ¬(0 : Fin S256x4096.rank) ∈ dot_S256x4096_S4096x256_S256x256_1_0_0_1_n_n.lhsBatch by decide), dif_pos (show (0 : Fin S256x4096.rank) ∈ dot_S256x4096_S4096x256_S256x256_1_0_0_1_n_n.lhsNonContracting by decide)]
  rfl
theorem lhs2_1 (i : S256x256.Idx) (q : dot_S256x4096_S4096x256_S256x256_1_0_0_1_n_n.contr.Idx) :
    (dot_S256x4096_S4096x256_S256x256_1_0_0_1_n_n.lhsIdx i q 1).val = (q ⟨0, by decide⟩).val :=
  dot_S256x4096_S4096x256_S256x256_1_0_0_1_n_n.lhsIdx_val_of_single rfl i q
theorem rhs2_0 (i : S256x256.Idx) (q : dot_S256x4096_S4096x256_S256x256_1_0_0_1_n_n.contr.Idx) :
    (dot_S256x4096_S4096x256_S256x256_1_0_0_1_n_n.rhsIdx i q 0).val = (q ⟨0, by decide⟩).val :=
  dot_S256x4096_S4096x256_S256x256_1_0_0_1_n_n.rhsIdx_val_of_single rfl i q
theorem rhs2_1 (i : S256x256.Idx) (q : dot_S256x4096_S4096x256_S256x256_1_0_0_1_n_n.contr.Idx) :
    (dot_S256x4096_S4096x256_S256x256_1_0_0_1_n_n.rhsIdx i q 1).val = (i 1).val := by
  unfold DotDims.rhsIdx
  rw [dif_neg (show ¬(1 : Fin S4096x256.rank) ∈ dot_S256x4096_S4096x256_S256x256_1_0_0_1_n_n.rhsBatch by decide), dif_pos (show (1 : Fin S4096x256.rank) ∈ dot_S256x4096_S4096x256_S256x256_1_0_0_1_n_n.rhsNonContracting by decide)]
  rfl

/-- The product of the (narrowed) weights with `fw2`, into zero, at `(p, q)`: the sum over the edges. Narrowing changes
    nothing at the ideal values. -/
theorem prod2_apply (w : FVec Ideal S256x4096 .f32) (y : FVec Ideal S4096x256 .bf16) (p q : Fin 256) :
    matmul dot_S256x4096_S4096x256_S256x256_1_0_0_1_n_n none (truncf .bf16 w bitsLt_bf16_f32) y (constant S256x256 .f32 0x00000000#32) (ix2 p q)
      = ∑ j : Fin 4096, w (ix2 p j) * y (ix2 j q) := by
  refine (Ideal.matmul_constant_zero_apply dot_S256x4096_S4096x256_S256x256_1_0_0_1_n_n none _ _ (ix2 p q)).trans ?_
  rw [← Equiv.sum_comp (ValueIdx.contrEquiv1 dot_S256x4096_S4096x256_S256x256_1_0_0_1_n_n 4096 rfl rfl).symm]
  refine Finset.sum_congr rfl fun k _ => ?_
  have hk := ValueIdx.contrEquiv1_symm_val dot_S256x4096_S4096x256_S256x256_1_0_0_1_n_n 4096 rfl rfl k
  have el : dot_S256x4096_S4096x256_S256x256_1_0_0_1_n_n.lhsIdx (ix2 p q) ((ValueIdx.contrEquiv1 dot_S256x4096_S4096x256_S256x256_1_0_0_1_n_n 4096 rfl rfl).symm k) = ix2 p k := funext fun a => Fin.ext (by
    match a with
    | ⟨0, _⟩ => exact lhs2_0 _ _
    | ⟨1, _⟩ => exact (lhs2_1 _ _).trans hk)
  have er : dot_S256x4096_S4096x256_S256x256_1_0_0_1_n_n.rhsIdx (ix2 p q) ((ValueIdx.contrEquiv1 dot_S256x4096_S4096x256_S256x256_1_0_0_1_n_n 4096 rfl rfl).symm k) = ix2 k q := funext fun a => Fin.ext (by
    match a with
    | ⟨0, _⟩ => exact (rhs2_0 _ _).trans hk
    | ⟨1, _⟩ => exact rhs2_1 _ _)
  rw [el, er]
  rfl

/-- The quotient at `(p, q)`: row `p`'s weighted sum of column `q` of `fw2` over row `p`'s total weight. -/
theorem quot2_apply (w : FVec Ideal S256x4096 .f32) (x2 : FVec Ideal S4096x256 .bf16) (p q : Fin 256) :
    quot2 w x2 (ix2 p q) = Ideal.div (∑ j : Fin 4096, w (ix2 p j) * x2 (ix2 j q)) (∑ j : Fin 4096, w (ix2 p j)) := by
  have en : matmul dot_S256x4096_S4096x256_S256x256_1_0_0_1_n_n none (truncf .bf16 w bitsLt_bf16_f32)
      (shapeCast S4096x256 x2 shapeCasts_S4096x256_S4096x256) (constant S256x256 .f32 0x00000000#32) (ix2 p q)
      = ∑ j : Fin 4096, w (ix2 p j) * x2 (ix2 j q) := by
    rw [shapeCast_self]; exact prod2_apply w x2 p q
  have ed : broadcastTo S256x256 (shapeCast S256x1 (multiReduction .add [1] S256 w 0x00000000#32 reduces_S256x4096_S256 (.inl rfl) rfl)
      shapeCasts_S256_S256x1) broadcasts_S256x1_S256x256 (ix2 p q) = ∑ j : Fin 4096, w (ix2 p j) :=
    (broadcastTo_a1_ab_apply _ _ p q).trans ((shapeCast_a_a1_apply _ _ p 0).trans (rowsum2_apply w p))
  show Ideal.div _ _ = _
  rw [en, ed]

/-- THE PAYLOAD AT AN ENTRY: the leaky image of row `p`'s weighted sum of column `q` of `fw2` over the row's total weight, the
    weights those of the block's rows against all 4096 edges. -/
theorem pay2_apply (x0 : Vec Ideal S256x4096 .f32) (x1 : Vec Ideal S256x1 .f32) (x3 : Vec Ideal S1x4096 .f32) (x2 : FVec Ideal S4096x256 .bf16)
    (p q : Fin 256) :
    k2_pay1 x0 x1 x3 x2 (ix2 p q)
      = Cert.Spec.leaky (Ideal.div
          (∑ j : Fin 4096, (Cert.Spec.weight (x3 (ix2 (0 : Fin 1) j) + x1 (ix2 p (0 : Fin 1))) * x0 (ix2 p j)) * x2 (ix2 j q))
          (∑ j : Fin 4096, Cert.Spec.weight (x3 (ix2 (0 : Fin 1) j) + x1 (ix2 p (0 : Fin 1))) * x0 (ix2 p j))) := by
  rw [pay2_eq, lk2_apply, quot2_apply]
  simp only [wts2_apply]

end Val2

/-! ## From blocks to the array -/

-- the TensorCore's buffer contents when the launch is entered
variable (V : (c : Dev nD) → (b : Ref sig .tc) → Buf (Elt Ideal) ((c : Thread nD τ).loc b))

/-- `H`, the node logits, `fw2` and the edge logits as the launch finds them, and the edge weights made of them. -/
abbrev Hm2 (c : Dev nD) : Fin 16384 → Fin 4096 → EReal := Cert.Bridge.mat (V c main_arg1)
abbrev NS2 (c : Dev nD) : Fin 16384 → EReal := Cert.Bridge.vec (V c main_v2_2)
abbrev FW2 (c : Dev nD) : Fin 4096 → Fin 256 → EReal := Cert.Bridge.mat (V c main_v3_0)
abbrev ESC2 (c : Dev nD) (j : Fin 4096) : EReal := V c main_v3_1 (ix2 (0 : Fin 1) j)
abbrev B2 (c : Dev nD) (n : Fin 16384) (j : Fin 4096) : EReal := Cert.Spec.weight (ESC2 V c j + NS2 V c n) * Hm2 V c n j

/-- The result array the launch leaves, entry by entry. -/
def G2 (c : Dev nD) : S16384x256.Idx → EReal := fun i =>
  Cert.Spec.leaky (Ideal.div (∑ j : Fin 4096, B2 V c (i 0) j * FW2 V c j (i 1)) (∑ j : Fin 4096, B2 V c (i 0) j))

namespace Val2

/-- The index maps over the grid: point `t` takes block-row `t` of `H`, of the node logits and of the result, and the whole
    of `fw2` and of the edge logits. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- WHAT POINT `t` WRITES BACK is block `t` of `G2`: the payload at `(p, q)` reads row `256 t + p` of `H` and of the node logits,
    every edge logit and every row of `fw2`, and the block's entry `(p, q)` sits at `(256 t + p, q)` of the array. -/
theorem flushed2_4 (c : Dev nD) (t : Fin cfg2.N) :
    (dat2 V c).flushed 4 t = ((cfg2.win 4).blk t).view.read (Elt Ideal) (G2 V c) := by
  show (cfg2.win 4).cut (grid2.coords t) ((dat2 V c).after 4 t) = _
  rw [after2_4]
  unfold out2_4
  rw [View.canon_unit_zero zeros2]
  obtain ⟨i00, i01, i10, i11, i20, i21, i30, i31, i40, i41⟩ := idx2 t
  have ht : t.val < 64 := N_2 ▸ t.isLt
  funext y
  obtain ⟨p, q, rfl⟩ : ∃ (p : Fin 256) (q : Fin 256), y = ix2 p q := ⟨y 0, y 1, eq_ix2 y⟩
  refine (pay2_apply (iblk2 V c 0 t) (iblk2 V c 1 t) (iblk2 V c 3 t) (iblk2 V c 2 t) p q).trans ?_
  have hp : p.val < 256 := p.isLt
  have e0 : ∀ j : Fin 4096, iblk2 V c 0 t (ix2 p j) = Hm2 V c ⟨t.val * 256 + p.val, by omega⟩ j := fun j => by
    show V c main_arg1 (((cfg2.win 0).blk t).view.emb (ix2 p j)) = V c main_arg1 (ix2 ⟨t.val * 256 + p.val, by omega⟩ j)
    refine congrArg _ (funext fun a => Fin.ext ?_)
    match a with
    | ⟨0, _⟩ => show win2_0.index t (0 : Fin 2) * 256 + 1 * p.val = t.val * 256 + p.val; omega
    | ⟨1, _⟩ => show win2_0.index t (1 : Fin 2) * 4096 + 1 * j.val = j.val; omega
  have e1 : iblk2 V c 1 t (ix2 p (0 : Fin 1)) = NS2 V c ⟨t.val * 256 + p.val, by omega⟩ := by
    show V c main_v2_2 (((cfg2.win 1).blk t).view.emb (ix2 p (0 : Fin 1))) = V c main_v2_2 (ix2 ⟨t.val * 256 + p.val, by omega⟩ (0 : Fin 1))
    refine congrArg _ (funext fun a => Fin.ext ?_)
    match a with
    | ⟨0, _⟩ => show win2_1.index t (0 : Fin 2) * 256 + 1 * p.val = t.val * 256 + p.val; omega
    | ⟨1, _⟩ => show win2_1.index t (1 : Fin 2) * 1 + 1 * 0 = 0; omega
  have e2 : ∀ j : Fin 4096, iblk2 V c 2 t (ix2 j q) = FW2 V c j q := fun j => by
    show V c main_v3_0 (((cfg2.win 2).blk t).view.emb (ix2 j q)) = V c main_v3_0 (ix2 j q)
    refine congrArg _ (funext fun a => Fin.ext ?_)
    match a with
    | ⟨0, _⟩ => show win2_2.index t (0 : Fin 2) * 4096 + 1 * j.val = j.val; omega
    | ⟨1, _⟩ => show win2_2.index t (1 : Fin 2) * 256 + 1 * q.val = q.val; omega
  have e3 : ∀ j : Fin 4096, iblk2 V c 3 t (ix2 (0 : Fin 1) j) = ESC2 V c j := fun j => by
    show V c main_v3_1 (((cfg2.win 3).blk t).view.emb (ix2 (0 : Fin 1) j)) = V c main_v3_1 (ix2 (0 : Fin 1) j)
    refine congrArg _ (funext fun a => Fin.ext ?_)
    match a with
    | ⟨0, _⟩ => show win2_3.index t (0 : Fin 2) * 1 + 1 * 0 = 0; omega
    | ⟨1, _⟩ => show win2_3.index t (1 : Fin 2) * 4096 + 1 * j.val = j.val; omega
  have e4 : ((cfg2.win 4).blk t).view.emb (ix2 p q) = (ix2 ⟨t.val * 256 + p.val, by omega⟩ q : S16384x256.Idx) := by
    refine funext fun a => Fin.ext ?_
    match a with
    | ⟨0, _⟩ => show win2_4.index t (0 : Fin 2) * 256 + 1 * p.val = t.val * 256 + p.val; omega
    | ⟨1, _⟩ => show win2_4.index t (1 : Fin 2) * 256 + 1 * q.val = q.val; omega
  show _ = G2 V c (((cfg2.win 4).blk t).view.emb (ix2 p q))
  rw [e4, e1]
  simp only [e0, e2, e3]
  rfl

/-- An entry of the result array lies in point `t`'s block iff, on each axis, it lies in the block's range. -/
theorem mem_blk2_4 (t : Fin cfg2.N) (i : S16384x256.Idx) :
    i ∈ ((cfg2.win 4).blk t).view.set ↔ ∀ a : Fin 2, win2_4.index t a * S256x256.size a ≤ (i a).val
      ∧ (i a).val < win2_4.index t a * S256x256.size a + S256x256.size a := by
  show i ∈ ((View.whole main_v4).slice (win2_4.rect t)).set ↔ _
  rw [View.set_slice_whole, Rect.mem_set_unit]
  exact Iff.rfl

/-- Row `r` of the result is written back by point `r / 256`: the blocks tile the array. -/
theorem cover2_arr (i : S16384x256.Idx) : ∃ t : Fin cfg2.N, (cfg2.win 4).flush t = true ∧ i ∈ ((cfg2.win 4).blk t).view.set := by
  have hi0 : (i 0).val < 16384 := (i 0).isLt
  have hi1 : (i 1).val < 256 := (i 1).isLt
  let t : Fin cfg2.N := ⟨(i 0).val / 256, by rw [show cfg2.N = 64 from N_2]; omega⟩
  obtain ⟨-, -, -, -, -, -, -, -, i40, i41⟩ := idx2 t
  have tv : t.val = (i 0).val / 256 := rfl
  refine ⟨t, flush2_4 t, ?_⟩
  rw [mem_blk2_4]
  intro a
  match a with
  | ⟨0, _⟩ => show win2_4.index t (0 : Fin 2) * 256 ≤ (i 0).val ∧ (i 0).val < win2_4.index t (0 : Fin 2) * 256 + 256; omega
  | ⟨1, _⟩ => show win2_4.index t (1 : Fin 2) * 256 ≤ (i 1).val ∧ (i 1).val < win2_4.index t (1 : Fin 2) * 256 + 256; omega

end Val2

/-- THE RESULT ARRAY AFTER THE LAUNCH is `G2` of the arrays the launch found. -/
theorem arr2_4 (c : Dev nD) : (dat2 V c).arrAt 4 cfg2.N = G2 V c :=
  (dat2 V c).arrAt_eq_of_cover 4 (G2 V c) (fun t _ => Val2.flushed2_4 V c t) Val2.cover2_arr

/-- Entry by entry: the leaky image of node `n`'s weighted sum of column `k` of `fw2` over the node's total weight. -/
theorem arr2_4_apply (c : Dev nD) (n : Fin 16384) (k : Fin 256) :
    (dat2 V c).arrAt 4 cfg2.N (ix2 n k)
      = Cert.Spec.leaky (Ideal.div (∑ j : Fin 4096, B2 V c n j * FW2 V c j k) (∑ j : Fin 4096, B2 V c n j)) := by
  rw [arr2_4]
  rfl

end Cert.KernelIdeal.Hand

end
-- ==== Proof.KernelIdeal.KernelIsSpec.lean ====
/-
  The composition: the three launches in a row compute `Spec.outK` of the arguments.

  The host first lays the two logit columns `a1`, `a22` out as rows. The first launch then leaves `x · w1`, and the node logits
  `f1`, `ns`; the second reads `H`, `x · w1` and `f1` and leaves `fK · w2` and the edge logits; the third reads `H`, `ns` and the
  second's two results and leaves the result. No launch changes an array it only reads, so each launch finds the arguments as
  launched and the earlier launches' results as they left them; substituting each launch's value into the next one's gives the
  kernel's arrangement of the specification, entry by entry.
-/
import proofs.«428716_j47717086658967_3_alg».proof.Proof.KernelIdeal.Run
import proofs.«428716_j47717086658967_3_alg».proof.Proof.KernelIdeal.Val0
import proofs.«428716_j47717086658967_3_alg».proof.Proof.KernelIdeal.Val2
import proofs.«428716_j47717086658967_3_alg».proof.Proof.Spec
import proofs.«428716_j47717086658967_3_alg».proof.Proof.Bridge
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Bridge (mat vec)
open scoped BigOperators

variable (m : (ℓ : Loc nD τ sig) → Buf (Elt Ideal) ℓ)

namespace Comp

/-- An argument as launched. -/
abbrev arg (c : Dev nD) (b : Ref sig .tc) : Buf (Elt Ideal) ((c : Thread nD τ).loc b) := m ((c : Thread nD τ).loc b)

/-! ## The host's two reshapes

They write the two logit rows and nothing else: the arguments the launches read keep their launch contents, and a row's entry
`(0, d)` is the column's entry `(d, 0)`. -/

theorem V1_arg0 (c : Dev nD) : V1 m c main_arg0 = arg m c main_arg0 := by
  show StableHlo.after hostOps0 (W0 m c) (Proc.devRef .tc main_arg0) = _
  dsimp only [hostOps0]
  after_results
theorem V1_arg1 (c : Dev nD) : V1 m c main_arg1 = arg m c main_arg1 := by
  show StableHlo.after hostOps0 (W0 m c) (Proc.devRef .tc main_arg1) = _
  dsimp only [hostOps0]
  after_results
theorem V1_arg2 (c : Dev nD) : V1 m c main_arg2 = arg m c main_arg2 := by
  show StableHlo.after hostOps0 (W0 m c) (Proc.devRef .tc main_arg2) = _
  dsimp only [hostOps0]
  after_results
theorem V1_arg3 (c : Dev nD) : V1 m c main_arg3 = arg m c main_arg3 := by
  show StableHlo.after hostOps0 (W0 m c) (Proc.devRef .tc main_arg3) = _
  dsimp only [hostOps0]
  after_results
theorem V1_arg5 (c : Dev nD) : V1 m c main_arg5 = arg m c main_arg5 := by
  show StableHlo.after hostOps0 (W0 m c) (Proc.devRef .tc main_arg5) = _
  dsimp only [hostOps0]
  after_results

/-- A column `[256, 1]` laid out as a row `[1, 256]` reads, at `(0, d)`, the column at `(d, 0)`. -/
theorem row_of_col (x : S256x1.Idx → EReal) (d : Fin 256) :
    shapeCast S1x256 x shapeCasts_S256x1_S1x256 (ix2 (0 : Fin 1) d) = x (ix2 d (0 : Fin 1)) :=
  shapeCast_apply x shapeCasts_S256x1_S1x256 (ix2 (0 : Fin 1) d) (ix2 d (0 : Fin 1)) (by
    rw [Shape.rowMajor_val_two, Shape.rowMajor_val_two]
    show d.val * 1 + 0 = 0 * 256 + d.val
    omega)

theorem V1_v0 (c : Dev nD) (d : Fin 256) : V1 m c main_v0 (ix2 (0 : Fin 1) d) = arg m c main_arg4 (ix2 d (0 : Fin 1)) := by
  show StableHlo.after hostOps0 (W0 m c) (Proc.devRef .tc main_v0) (ix2 (0 : Fin 1) d) = _
  dsimp only [hostOps0]
  after_results
  exact row_of_col (arg m c main_arg4) d
theorem V1_v1 (c : Dev nD) (d : Fin 256) : V1 m c main_v1 (ix2 (0 : Fin 1) d) = arg m c main_arg6 (ix2 d (0 : Fin 1)) := by
  show StableHlo.after hostOps0 (W0 m c) (Proc.devRef .tc main_v1) (ix2 (0 : Fin 1) d) = _
  dsimp only [hostOps0]
  after_results
  exact row_of_col (arg m c main_arg6) d

/-! ## No launch changes an array it only reads

An array that is no window of a launch is kept by it; an input window's array is never written back. -/

theorem V2_arg1 (c : Dev nD) : V2 m c main_arg1 = arg m c main_arg1 :=
  (W2_of_ne m c main_arg1 (by decide)).trans (V1_arg1 m c)
theorem V2_arg3 (c : Dev nD) : V2 m c main_arg3 = arg m c main_arg3 :=
  (W2_of_ne m c main_arg3 (by decide)).trans (V1_arg3 m c)
theorem V2_arg5 (c : Dev nD) : V2 m c main_arg5 = arg m c main_arg5 :=
  (W2_of_ne m c main_arg5 (by decide)).trans (V1_arg5 m c)
theorem V2_v2_0 (c : Dev nD) : V2 m c main_v2_0 = (dat0 (V1 m) c).arrAt 4 cfg0.N := W2_arr m c 4
theorem V2_v2_1 (c : Dev nD) : V2 m c main_v2_1 = (dat0 (V1 m) c).arrAt 5 cfg0.N := W2_arr m c 5
theorem V2_v2_2 (c : Dev nD) : V2 m c main_v2_2 = (dat0 (V1 m) c).arrAt 6 cfg0.N := W2_arr m c 6

theorem V3_arg1 (c : Dev nD) : V3 m c main_arg1 = arg m c main_arg1 :=
  (W3_arr m c 0).trans ((((dat1 (V2 m) c).arrAt_in 0 rfl _).trans (A_eq1 (V2 m) c 0)).trans (V2_arg1 m c))
theorem V3_v2_2 (c : Dev nD) : V3 m c main_v2_2 = (dat0 (V1 m) c).arrAt 6 cfg0.N :=
  (W3_of_ne m c main_v2_2 (by decide)).trans (V2_v2_2 m c)
theorem V3_v3_0 (c : Dev nD) : V3 m c main_v3_0 = (dat1 (V2 m) c).arrAt 5 cfg1.N := W3_arr m c 5
theorem V3_v3_1 (c : Dev nD) : V3 m c main_v3_1 = (dat1 (V2 m) c).arrAt 6 cfg1.N := W3_arr m c 6

/-! ## The arguments as the specification reads them, and the other launches' values -/

abbrev aX (c : Dev nD) : Fin 16384 → Fin 256 → EReal := mat (A := 16384) (B := 256) (arg m c main_arg0)
abbrev aH (c : Dev nD) : Fin 16384 → Fin 4096 → EReal := mat (A := 16384) (B := 4096) (arg m c main_arg1)
abbrev aW1 (c : Dev nD) : Fin 256 → Fin 256 → EReal := mat (A := 256) (B := 256) (arg m c main_arg2)
abbrev aW2 (c : Dev nD) : Fin 256 → Fin 256 → EReal := mat (A := 256) (B := 256) (arg m c main_arg3)
abbrev aA1 (c : Dev nD) : Fin 256 → EReal := vec (A := 256) (arg m c main_arg4)
abbrev aA21 (c : Dev nD) : Fin 256 → EReal := vec (A := 256) (arg m c main_arg5)
abbrev aA22 (c : Dev nD) : Fin 256 → EReal := vec (A := 256) (arg m c main_arg6)

/-- A core's buffer contents at a launch's entry. -/
abbrev Entry : Type := (c : Dev nD) → (b : Ref sig .tc) → Buf (Elt Ideal) ((c : Thread nD τ).loc b)

/-- The second launch's node weights and edge features, over the arrays it finds. -/
abbrev E1 (V : Entry) (c : Dev nD) (n : Fin 16384) (j : Fin 4096) : EReal :=
  Cert.Spec.weight (vec (A := 16384) (V c main_v2_1) n) * mat (A := 16384) (B := 4096) (V c main_arg1) n j
abbrev FK1 (V : Entry) (c : Dev nD) (j : Fin 4096) (d : Fin 256) : EReal :=
  Cert.Spec.leaky (Ideal.div (∑ n : Fin 16384, E1 V c n j * mat (A := 16384) (B := 256) (V c main_v2_0) n d) (∑ n : Fin 16384, E1 V c n j))

/-- What the first launch leaves: `x · w1` and the two node logits, of the arrays it finds. -/
abbrev Val04 : Prop := ∀ (V : Entry) (c : Dev nD) (n : Fin 16384) (d : Fin 256),
  (dat0 V c).arrAt 4 cfg0.N (ix2 n d) = Cert.Spec.xw (mat (A := 16384) (B := 256) (V c main_arg0)) (mat (A := 256) (B := 256) (V c main_arg2)) n d
abbrev Val05 : Prop := ∀ (V : Entry) (c : Dev nD) (n : Fin 16384),
  (dat0 V c).arrAt 5 cfg0.N (ix2 n (0 : Fin 1))
    = Cert.Spec.f1 (mat (A := 16384) (B := 256) (V c main_arg0)) (mat (A := 256) (B := 256) (V c main_arg2)) (fun d => V c main_v0 (ix2 (0 : Fin 1) d)) n
abbrev Val06 : Prop := ∀ (V : Entry) (c : Dev nD) (n : Fin 16384),
  (dat0 V c).arrAt 6 cfg0.N (ix2 n (0 : Fin 1))
    = Cert.Spec.ns (mat (A := 16384) (B := 256) (V c main_arg0)) (mat (A := 256) (B := 256) (V c main_arg2)) (fun d => V c main_v1 (ix2 (0 : Fin 1) d)) n
/-- What the second launch leaves: the edge features times `w2`, and the edge logits. -/
abbrev Val15 : Prop := ∀ (V : Entry) (c : Dev nD) (j : Fin 4096) (k : Fin 256),
  (dat1 V c).arrAt 5 cfg1.N (ix2 j k) = ∑ d : Fin 256, FK1 V c j d * mat (A := 256) (B := 256) (V c main_arg3) d k
abbrev Val16 : Prop := ∀ (V : Entry) (c : Dev nD) (j : Fin 4096),
  (dat1 V c).arrAt 6 cfg1.N (ix2 (0 : Fin 1) j)
    = ∑ d : Fin 256, Cert.Spec.leaky (∑ d' : Fin 256, FK1 V c j d' * mat (A := 256) (B := 256) (V c main_arg3) d' d) * vec (A := 256) (V c main_arg5) d

/-! ## Each array a later launch reads, as the specification's function of the arguments -/

/-- The first launch's product is `x · w1` of the arguments. -/
theorem xw_eq (h04 : Val04) (c : Dev nD) :
    mat (A := 16384) (B := 256) (V2 m c main_v2_0) = Cert.Spec.xw (aX m c) (aW1 m c) := by
  funext n d
  refine (congrFun (V2_v2_0 m c) (ix2 n d)).trans ((h04 (V1 m) c n d).trans ?_)
  rw [V1_arg0, V1_arg2]

/-- Its first logit column is `f1`, the row it reads being `a1` laid out as a row. -/
theorem f1_eq (h05 : Val05) (c : Dev nD) :
    vec (A := 16384) (V2 m c main_v2_1) = Cert.Spec.f1 (aX m c) (aW1 m c) (aA1 m c) := by
  funext n
  refine (congrFun (V2_v2_1 m c) (ix2 n (0 : Fin 1))).trans ((h05 (V1 m) c n).trans ?_)
  rw [V1_arg0, V1_arg2, show (fun d => V1 m c main_v0 (ix2 (0 : Fin 1) d)) = aA1 m c from funext (V1_v0 m c)]

/-- Its second logit column, as the third launch finds it, is `ns`. -/
theorem ns_eq (h06 : Val06) (c : Dev nD) :
    vec (A := 16384) (V3 m c main_v2_2) = Cert.Spec.ns (aX m c) (aW1 m c) (aA22 m c) := by
  funext n
  refine (congrFun (V3_v2_2 m c) (ix2 n (0 : Fin 1))).trans ((h06 (V1 m) c n).trans ?_)
  rw [V1_arg0, V1_arg2, show (fun d => V1 m c main_v1 (ix2 (0 : Fin 1) d)) = aA22 m c from funext (V1_v1 m c)]

/-- So the second launch's edge features are `fK` of the arguments. -/
theorem fK_eq (h04 : Val04) (h05 : Val05) (c : Dev nD) :
    FK1 (V2 m) c = Cert.Spec.fK (aX m c) (aH m c) (aW1 m c) (aA1 m c) := by
  funext j d
  unfold FK1 E1
  rw [xw_eq m h04 c, f1_eq m h05 c, V2_arg1]
  rfl

/-- Its first result is `fK · w2`, -/
theorem fw_eq (h04 : Val04) (h05 : Val05) (h15 : Val15) (c : Dev nD) :
    mat (A := 4096) (B := 256) (V3 m c main_v3_0)
      = Cert.Spec.fw (aW2 m c) (Cert.Spec.fK (aX m c) (aH m c) (aW1 m c) (aA1 m c)) := by
  funext j k
  refine (congrFun (V3_v3_0 m c) (ix2 j k)).trans ((h15 (V2 m) c j k).trans ?_)
  rw [fK_eq m h04 h05 c, V2_arg3]
  rfl

/-- and its second the edge logits against `a21`. -/
theorem esc_eq (h04 : Val04) (h05 : Val05) (h16 : Val16) (c : Dev nD) :
    (fun j : Fin 4096 => V3 m c main_v3_1 (ix2 (0 : Fin 1) j))
      = Cert.Spec.esc (aW2 m c) (aA21 m c) (Cert.Spec.fK (aX m c) (aH m c) (aW1 m c) (aA1 m c)) := by
  funext j
  refine (congrFun (V3_v3_1 m c) (ix2 (0 : Fin 1) j)).trans ((h16 (V2 m) c j).trans ?_)
  rw [fK_eq m h04 h05 c, V2_arg3, V2_arg5]
  rfl

/-! ## The third launch's result -/

/-- With the other two launches' values given, the result array after the third launch is the kernel's arrangement of the
    specification: the edge weights are `b` over `fK`, the matrix they are summed against is `fK · w2`, and the divisor is the
    row total. -/
theorem result_eq (h04 : Val04) (h05 : Val05) (h06 : Val06) (h15 : Val15) (h16 : Val16) (c : Dev nD) (n : Fin 16384) (k : Fin 256) :
    (dat2 (V3 m) c).arrAt 4 cfg2.N (ix2 n k)
      = Cert.Spec.outK (aX m c) (aH m c) (aW1 m c) (aW2 m c) (aA1 m c) (aA21 m c) (aA22 m c) n k := by
  refine (arr2_4_apply (V3 m) c n k).trans ?_
  unfold B2 FW2 NS2 Hm2 ESC2
  rw [fw_eq m h04 h05 h15 c, ns_eq m h06 c, V3_arg1]
  have hesc := esc_eq m h04 h05 h16 c
  simp only [congrFun hesc]
  rfl

end Comp

/-- THE COMPOSITION, every other launch's value assumed. Given what the first launch leaves (`x · w1`, `f1`, `ns` of the arrays
    it finds) and what the second leaves (`fK · w2` and the edge logits of the arrays it finds), the result array after the third
    launch holds `Spec.outK` of the arguments as launched, entry by entry. -/
theorem kernel_is_outK_of (h04 : Comp.Val04) (h05 : Comp.Val05) (h06 : Comp.Val06) (h15 : Comp.Val15) (h16 : Comp.Val16)
    (c : Dev nD) (n : Fin 16384) (k : Fin 256) :
    (dat2 (V3 m) c).arrAt 4 cfg2.N (ix2 n k)
      = Cert.Spec.outK (mat (A := 16384) (B := 256) (m ((c : Thread nD τ).loc main_arg0)))
          (mat (A := 16384) (B := 4096) (m ((c : Thread nD τ).loc main_arg1)))
          (mat (A := 256) (B := 256) (m ((c : Thread nD τ).loc main_arg2)))
          (mat (A := 256) (B := 256) (m ((c : Thread nD τ).loc main_arg3)))
          (vec (A := 256) (m ((c : Thread nD τ).loc main_arg4)))
          (vec (A := 256) (m ((c : Thread nD τ).loc main_arg5)))
          (vec (A := 256) (m ((c : Thread nD τ).loc main_arg6))) n k :=
  Comp.result_eq m h04 h05 h06 h15 h16 c n k

/-- THE COMPOSITION, with the first launch's three values cited: only the second launch's two are left to give. -/
theorem kernel_is_outK (h15 : Comp.Val15) (h16 : Comp.Val16) (c : Dev nD) (n : Fin 16384) (k : Fin 256) :
    (dat2 (V3 m) c).arrAt 4 cfg2.N (ix2 n k)
      = Cert.Spec.outK (mat (A := 16384) (B := 256) (m ((c : Thread nD τ).loc main_arg0)))
          (mat (A := 16384) (B := 4096) (m ((c : Thread nD τ).loc main_arg1)))
          (mat (A := 256) (B := 256) (m ((c : Thread nD τ).loc main_arg2)))
          (mat (A := 256) (B := 256) (m ((c : Thread nD τ).loc main_arg3)))
          (vec (A := 256) (m ((c : Thread nD τ).loc main_arg4)))
          (vec (A := 256) (m ((c : Thread nD τ).loc main_arg5)))
          (vec (A := 256) (m ((c : Thread nD τ).loc main_arg6))) n k :=
  kernel_is_outK_of m (fun V c n d => arr0_4_eq_xw V c n d) (fun V c n => arr0_5_eq_f1 V c n) (fun V c n => arr0_6_eq_ns V c n)
    h15 h16 c n k

/-- The same read at the last boundary's contents: the result buffer there is that array. -/
theorem kernel_is_outK_W4 (h15 : Comp.Val15) (h16 : Comp.Val16) (c : Dev nD) (n : Fin 16384) (k : Fin 256) :
    W4 m c (Proc.devRef .tc main_v4) (ix2 n k)
      = Cert.Spec.outK (mat (A := 16384) (B := 256) (m ((c : Thread nD τ).loc main_arg0)))
          (mat (A := 16384) (B := 4096) (m ((c : Thread nD τ).loc main_arg1)))
          (mat (A := 256) (B := 256) (m ((c : Thread nD τ).loc main_arg2)))
          (mat (A := 256) (B := 256) (m ((c : Thread nD τ).loc main_arg3)))
          (vec (A := 256) (m ((c : Thread nD τ).loc main_arg4)))
          (vec (A := 256) (m ((c : Thread nD τ).loc main_arg5)))
          (vec (A := 256) (m ((c : Thread nD τ).loc main_arg6))) n k :=
  (congrFun (W4_arr m c 4) (ix2 n k)).trans (kernel_is_outK m h15 h16 c n k)

end Cert.KernelIdeal.Hand

end
-- ==== Proof.KernelIdeal.Val1.lean ====
/-
  The second launch's two results as mathematics, at the extended reals. Reading each array by row and column: over the
  thirty-two steps of a block of 2048 edge columns the two carried buffers gather, node by node, the sums
  sum_n e n j * xw n d and sum_n e n j with e n j = exp (8 * tanh (f1 n / 8)) * H n j; at the last step the block of fw2 is the
  leaky image of their quotient times w2, and the logit row is a21 against the leaky image of that block. Each block of
  columns is written back once, at its last step, so the arrays after the launch hold these values at every column.
-/
import proofs.«428716_j47717086658967_3_alg».proof.Proof.KernelIdeal.Reg1
import proofs.«428716_j47717086658967_3_alg».proof.Proof.Spec
import proofs.«428716_j47717086658967_3_alg».proof.Proof.Bridge
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.Hand

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

/-- The weight of node `n` in edge column `j`, over the launch's arguments. -/
def E1 (V : (c : Dev nD) → (b : Ref sig .tc) → Buf (Elt Ideal) ((c : Thread nD τ).loc b)) (c : Dev nD) (n : Fin 16384) (j : Fin 4096) : EReal :=
  Cert.Spec.weight (Cert.Bridge.vec (A := 16384) (V c main_v2_1) n) * Cert.Bridge.mat (A := 16384) (B := 4096) (V c main_arg1) n j
/-- The edge features the launch forms: the first sum over the second, under the leaky map. -/
def FK1 (V : (c : Dev nD) → (b : Ref sig .tc) → Buf (Elt Ideal) ((c : Thread nD τ).loc b)) (c : Dev nD) (j : Fin 4096) (d : Fin 256) : EReal :=
  Cert.Spec.leaky (Ideal.div (∑ n : Fin 16384, E1 V c n j * Cert.Bridge.mat (A := 16384) (B := 256) (V c main_v2_0) n d)
    (∑ n : Fin 16384, E1 V c n j))

end Cert.KernelIdeal.Hand

namespace Cert.KernelIdeal.Hand.Val1

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

/-! ### Words -/

/-- The word of one eighth. -/
theorem word_eighth : Ideal.ofBits .f32 0x3E000000#32 = Cert.Spec.eighth := by
  simp [Ideal.ofBits, Ideal.ieee, Cert.Spec.eighth, -EReal.coe_mul]; norm_num
/-- The word of eight. -/
theorem word_eight : Ideal.ofBits .f32 0x41000000#32 = ((8 : ℝ) : EReal) := by
  simp [Ideal.ofBits, Ideal.ieee, -EReal.coe_mul]; norm_num

/-- The leaky map as the two programs select it. -/
theorem leaky_select (v : EReal) :
    Scalar.select (FloatOps.cmpf (F := Ideal) (φ := .f32) .ogt v (Ideal.ofBits .f32 0x00000000#32)) v
      (FloatOps.mulf (F := Ideal) (φ := .f32) (Ideal.ofBits .f32 0x3DCCCCCD#32) v) = Cert.Spec.leaky v := by
  rw [Ideal.cmpf_def, Ideal.ofBits_zero_f32]
  unfold Cert.Spec.leaky Ideal.cmp Scalar.select
  by_cases h : 0 < v
  · simp [h]
  · simp [h]

/-! ### The four products' operand indices -/

/-- The one contraction coordinate of each product, as a number. -/
abbrev e7 := contrEquiv1 dot_S512x2048_S512x256_S2048x256_0_0_1_1_n_n 512 rfl rfl
abbrev e8 := contrEquiv1 dot_S512x2048_S512x1_S2048x1_0_0_1_1_n_n 512 rfl rfl
abbrev e1 := contrEquiv1 dot_S2048x256_S256x256_S2048x256_1_0_0_1_n_n 256 rfl rfl
abbrev e2 := contrEquiv1 dot_S256x1_S2048x256_S1x2048_0_1_1_0_n_n 256 rfl rfl

theorem lhs7 (a : Fin 2048) (d : Fin 256) (n : Fin 512) :
    dot_S512x2048_S512x256_S2048x256_0_0_1_1_n_n.lhsIdx (ix2 a d) (e7.symm n) = ix2 n a := by
  funext ax; apply Fin.ext
  match ax with
  | ⟨0, _⟩ => exact contrEquiv1_symm_val dot_S512x2048_S512x256_S2048x256_0_0_1_1_n_n 512 rfl rfl n
  | ⟨1, _⟩ => rfl
theorem rhs7 (a : Fin 2048) (d : Fin 256) (n : Fin 512) :
    dot_S512x2048_S512x256_S2048x256_0_0_1_1_n_n.rhsIdx (ix2 a d) (e7.symm n) = ix2 n d := by
  funext ax; apply Fin.ext
  match ax with
  | ⟨0, _⟩ => exact contrEquiv1_symm_val dot_S512x2048_S512x256_S2048x256_0_0_1_1_n_n 512 rfl rfl n
  | ⟨1, _⟩ => rfl
theorem lhs8 (a : Fin 2048) (z : Fin 1) (n : Fin 512) :
    dot_S512x2048_S512x1_S2048x1_0_0_1_1_n_n.lhsIdx (ix2 a z) (e8.symm n) = ix2 n a := by
  funext ax; apply Fin.ext
  match ax with
  | ⟨0, _⟩ => exact contrEquiv1_symm_val dot_S512x2048_S512x1_S2048x1_0_0_1_1_n_n 512 rfl rfl n
  | ⟨1, _⟩ => rfl
theorem lhs1 (a : Fin 2048) (k : Fin 256) (d : Fin 256) :
    dot_S2048x256_S256x256_S2048x256_1_0_0_1_n_n.lhsIdx (ix2 a k) (e1.symm d) = ix2 a d := by
  funext ax; apply Fin.ext
  match ax with
  | ⟨0, _⟩ => rfl
  | ⟨1, _⟩ => exact contrEquiv1_symm_val dot_S2048x256_S256x256_S2048x256_1_0_0_1_n_n 256 rfl rfl d
theorem rhs1 (a : Fin 2048) (k : Fin 256) (d : Fin 256) :
    dot_S2048x256_S256x256_S2048x256_1_0_0_1_n_n.rhsIdx (ix2 a k) (e1.symm d) = ix2 d k := by
  funext ax; apply Fin.ext
  match ax with
  | ⟨0, _⟩ => exact contrEquiv1_symm_val dot_S2048x256_S256x256_S2048x256_1_0_0_1_n_n 256 rfl rfl d
  | ⟨1, _⟩ => rfl
theorem lhs2 (z : Fin 1) (a : Fin 2048) (d : Fin 256) :
    dot_S256x1_S2048x256_S1x2048_0_1_1_0_n_n.lhsIdx (ix2 z a) (e2.symm d) = ix2 d z := by
  funext ax; apply Fin.ext
  match ax with
  | ⟨0, _⟩ => exact contrEquiv1_symm_val dot_S256x1_S2048x256_S1x2048_0_1_1_0_n_n 256 rfl rfl d
  | ⟨1, _⟩ => rfl
theorem rhs2 (z : Fin 1) (a : Fin 2048) (d : Fin 256) :
    dot_S256x1_S2048x256_S1x2048_0_1_1_0_n_n.rhsIdx (ix2 z a) (e2.symm d) = ix2 a d := by
  funext ax; apply Fin.ext
  match ax with
  | ⟨0, _⟩ => rfl
  | ⟨1, _⟩ => exact contrEquiv1_symm_val dot_S256x1_S2048x256_S1x2048_0_1_1_0_n_n 256 rfl rfl d

/-! ### The payloads at an index -/

/-- A node's weight times its row of the block of `H`. -/
theorem pay6_apply (x0 : Vec Ideal S512x2048 .f32) (x2 : Vec Ideal S512x1 .f32) (n : Fin 512) (a : Fin 2048) :
    k1_pay6 x0 x2 (ix2 n a) = Cert.Spec.weight (x2 (ix2 n 0)) * x0 (ix2 n a) := by
  unfold k1_pay6
  simp only [shapeCast_self]
  show (broadcastTo S512x2048 _ broadcasts_S512x1_S512x2048 (ix2 n a) : EReal) * x0 (ix2 n a) = _
  rw [broadcastTo_apply _ _ (ix2 n a) (ix2 n 0) (fun ax => by match ax with | ⟨0, _⟩ => rfl | ⟨1, _⟩ => rfl)]
  show Ideal.exp (Ideal.tanh (x2 (ix2 n 0) * Ideal.ofBits .f32 0x3E000000#32) * Ideal.ofBits .f32 0x41000000#32) * _ = _
  rw [word_eighth, word_eight]; rfl

/-- The reset values are zero. -/
theorem pay4_apply (i : S2048x256.Idx) : k1_pay4 (F := Ideal) i = 0 := Ideal.ofBits_zero_f32
theorem pay5_apply (i : S2048x1.Idx) : k1_pay5 (F := Ideal) i = 0 := Ideal.ofBits_zero_f32

/-- One step of the first sum. -/
theorem pay7_apply (x0 : Vec Ideal S512x2048 .f32) (x2 : Vec Ideal S512x1 .f32) (x1 : Vec Ideal S512x256 .bf16)
    (s0 : Vec Ideal S2048x256 .f32) (a : Fin 2048) (d : Fin 256) :
    k1_pay7 x0 x2 x1 s0 (ix2 a d)
      = s0 (ix2 a d) + ∑ n : Fin 512, Cert.Spec.weight (x2 (ix2 n 0)) * x0 (ix2 n a) * x1 (ix2 n d) := by
  unfold k1_pay7
  simp only [shapeCast_self]
  show s0 (ix2 a d) + FloatOps.matmul (F := Ideal) _ none _ _ (constant S2048x256 .f32 0x00000000#32) (ix2 a d) = _
  rw [Ideal.matmul_constant_zero_apply, ← Equiv.sum_comp e7.symm]
  congr 1
  refine Finset.sum_congr rfl fun n _ => ?_
  rw [lhs7, rhs7, pay6_apply]

/-- One step of the second sum. -/
theorem pay8_apply (x0 : Vec Ideal S512x2048 .f32) (x2 : Vec Ideal S512x1 .f32) (s1 : Vec Ideal S2048x1 .f32) (a : Fin 2048) :
    k1_pay8 x0 x2 s1 (ix2 a 0)
      = s1 (ix2 a 0) + ∑ n : Fin 512, Cert.Spec.weight (x2 (ix2 n 0)) * x0 (ix2 n a) := by
  unfold k1_pay8
  simp only [shapeCast_self]
  show s1 (ix2 a 0) + FloatOps.matmul (F := Ideal) _ none _ _ (constant S2048x1 .f32 0x00000000#32) (ix2 a 0) = _
  rw [Ideal.matmul_constant_zero_apply, ← Equiv.sum_comp e8.symm]
  congr 1
  refine Finset.sum_congr rfl fun n _ => ?_
  rw [lhs8, pay6_apply]
  show _ * Ideal.ofBits .bf16 0x3F80#16 = _
  rw [Ideal.ofBits_one_bf16, mul_one]

/-- The quotient of the two sums, its leaky image, times `w2`. -/
theorem pay1_apply (s0 : Vec Ideal S2048x256 .f32) (s1 : Vec Ideal S2048x1 .f32) (w2 : Vec Ideal S256x256 .f32)
    (a : Fin 2048) (k : Fin 256) :
    k1_pay1 s0 s1 w2 (ix2 a k)
      = ∑ d : Fin 256, Cert.Spec.leaky (Ideal.div (s0 (ix2 a d)) (s1 (ix2 a 0))) * w2 (ix2 d k) := by
  unfold k1_pay1
  show FloatOps.matmul (F := Ideal) _ none _ _ (constant S2048x256 .f32 0x00000000#32) (ix2 a k) = _
  rw [Ideal.matmul_constant_zero_apply, ← Equiv.sum_comp e1.symm]
  refine Finset.sum_congr rfl fun d _ => ?_
  rw [lhs1, rhs1]
  have hb : broadcastTo S2048x256 s1 broadcasts_S2048x1_S2048x256 (ix2 a d) = s1 (ix2 a 0) :=
    broadcastTo_apply _ _ (ix2 a d) (ix2 a 0) (fun ax => by match ax with | ⟨0, _⟩ => rfl | ⟨1, _⟩ => rfl)
  have key : ∀ B : EReal, B = s1 (ix2 a 0) →
      Scalar.select (FloatOps.cmpf (F := Ideal) (φ := .f32) .ogt (FloatOps.divf (F := Ideal) (φ := .f32) (s0 (ix2 a d)) B) (Ideal.ofBits .f32 0x00000000#32))
        (FloatOps.divf (F := Ideal) (φ := .f32) (s0 (ix2 a d)) B)
        (FloatOps.mulf (F := Ideal) (φ := .f32) (Ideal.ofBits .f32 0x3DCCCCCD#32) (FloatOps.divf (F := Ideal) (φ := .f32) (s0 (ix2 a d)) B))
      = Cert.Spec.leaky (Ideal.div (s0 (ix2 a d)) (s1 (ix2 a 0))) := by
    intro B hB; subst hB; exact leaky_select _
  exact congrArg (· * w2 (ix2 d k)) (key _ hb)

/-- The stored block of `fw2`: the same, the narrower format being the identity on extended reals. -/
theorem pay3_apply (s0 : Vec Ideal S2048x256 .f32) (s1 : Vec Ideal S2048x1 .f32) (w2 : Vec Ideal S256x256 .f32)
    (i : S2048x256.Idx) : k1_pay3 s0 s1 w2 i = k1_pay1 s0 s1 w2 i := rfl

/-- The logit row: `a21` against the leaky image of the block of `fw2`. -/
theorem pay2_apply (s0 : Vec Ideal S2048x256 .f32) (s1 : Vec Ideal S2048x1 .f32) (w2 : Vec Ideal S256x256 .f32)
    (a21 : Vec Ideal S256x1 .f32) (a : Fin 2048) :
    k1_pay2 s0 s1 w2 a21 (ix2 0 a)
      = ∑ d : Fin 256, a21 (ix2 d 0) * Cert.Spec.leaky (k1_pay1 s0 s1 w2 (ix2 a d)) := by
  unfold k1_pay2
  show FloatOps.matmul (F := Ideal) _ none _ _ (constant S1x2048 .f32 0x00000000#32) (ix2 0 a) = _
  rw [Ideal.matmul_constant_zero_apply, ← Equiv.sum_comp e2.symm]
  refine Finset.sum_congr rfl fun d _ => ?_
  rw [lhs2, rhs2]
  exact congrArg (a21 (ix2 d 0) * ·) (leaky_select (k1_pay1 s0 s1 w2 (ix2 a d)))

/-! ### The arguments as functions of two numbers

Each array the launch reads, at a row and a column given as natural numbers (zero off the array): sums over a step's
512 nodes and over all 16384 are then sums over ranges of numbers. -/

variable (V : (c : Dev nD) → (b : Ref sig .tc) → Buf (Elt Ideal) ((c : Thread nD τ).loc b))

def Hn (c : Dev nD) (n j : ℕ) : EReal :=
  if h : n < 16384 ∧ j < 4096 then Cert.Bridge.mat (A := 16384) (B := 4096) (V c main_arg1) ⟨n, h.1⟩ ⟨j, h.2⟩ else 0
def XWn (c : Dev nD) (n d : ℕ) : EReal :=
  if h : n < 16384 ∧ d < 256 then Cert.Bridge.mat (A := 16384) (B := 256) (V c main_v2_0) ⟨n, h.1⟩ ⟨d, h.2⟩ else 0
def F1n (c : Dev nD) (n : ℕ) : EReal :=
  if h : n < 16384 then Cert.Bridge.vec (A := 16384) (V c main_v2_1) ⟨n, h⟩ else 0

/-- The block indices over the grid: point `t` is step `t % 32` of the block of columns `t / 32`. -/
theorem index1 : ∀ t : Fin grid1.N,
    win1_0.index t 0 = t.val % 32 ∧ win1_0.index t 1 = t.val / 32 ∧ win1_1.index t 0 = t.val % 32 ∧ win1_1.index t 1 = 0
    ∧ win1_2.index t 0 = t.val % 32 ∧ win1_2.index t 1 = 0 ∧ win1_3.index t 0 = 0 ∧ win1_3.index t 1 = 0
    ∧ win1_4.index t 0 = 0 ∧ win1_4.index t 1 = 0 ∧ win1_5.index t 0 = t.val / 32 ∧ win1_5.index t 1 = 0
    ∧ win1_6.index t 0 = 0 ∧ win1_6.index t 1 = t.val / 32 := by decide +kernel

theorem iblk1_0_apply (c : Dev nD) (t : Fin cfg1.N) (n' : Fin 512) (a : Fin 2048) :
    (iblk1 V c 0 t : Vec Ideal S512x2048 .f32) (ix2 n' a) = Hn V c (512 * (t.val % 32) + n') (2048 * (t.val / 32) + a) := by
  have hN : t.val < 64 := lt_of_lt_of_eq t.isLt (show cfg1.N = 64 from N_1)
  obtain ⟨h0, h1, -⟩ := index1 t
  unfold Hn; rw [dif_pos ⟨by omega, by omega⟩]
  unfold iblk1 Cert.Bridge.mat
  rw [View.read_apply]
  show V c main_arg1 _ = V c main_arg1 _
  congr 1
  funext ax; apply Fin.ext
  match ax with
  | ⟨0, _⟩ => show win1_0.index t 0 * 512 + 1 * n'.val = 512 * (t.val % 32) + n'.val; rw [h0]; omega
  | ⟨1, _⟩ => show win1_0.index t 1 * 2048 + 1 * a.val = 2048 * (t.val / 32) + a.val; rw [h1]; omega

theorem iblk1_1_apply (c : Dev nD) (t : Fin cfg1.N) (n' : Fin 512) (d : Fin 256) :
    (iblk1 V c 1 t : Vec Ideal S512x256 .bf16) (ix2 n' d) = XWn V c (512 * (t.val % 32) + n') d := by
  have hN : t.val < 64 := lt_of_lt_of_eq t.isLt (show cfg1.N = 64 from N_1)
  obtain ⟨-, -, h0, h1, -⟩ := index1 t
  unfold XWn; rw [dif_pos ⟨by omega, d.isLt⟩]
  unfold iblk1 Cert.Bridge.mat
  rw [View.read_apply]
  show V c main_v2_0 _ = V c main_v2_0 _
  congr 1
  funext ax; apply Fin.ext
  match ax with
  | ⟨0, _⟩ => show win1_1.index t 0 * 512 + 1 * n'.val = 512 * (t.val % 32) + n'.val; rw [h0]; omega
  | ⟨1, _⟩ => show win1_1.index t 1 * 256 + 1 * d.val = d.val; rw [h1]; omega

theorem iblk1_2_apply (c : Dev nD) (t : Fin cfg1.N) (n' : Fin 512) :
    (iblk1 V c 2 t : Vec Ideal S512x1 .f32) (ix2 n' 0) = F1n V c (512 * (t.val % 32) + n') := by
  have hN : t.val < 64 := lt_of_lt_of_eq t.isLt (show cfg1.N = 64 from N_1)
  obtain ⟨-, -, -, -, h0, h1, -⟩ := index1 t
  unfold F1n; rw [dif_pos (by omega)]
  unfold iblk1 Cert.Bridge.vec
  rw [View.read_apply]
  show V c main_v2_1 _ = V c main_v2_1 _
  congr 1
  funext ax; apply Fin.ext
  match ax with
  | ⟨0, _⟩ => show win1_2.index t 0 * 512 + 1 * n'.val = 512 * (t.val % 32) + n'.val; rw [h0]; omega
  | ⟨1, _⟩ => show win1_2.index t 1 * 1 + 1 * 0 = 0; rw [h1]

theorem iblk1_3_apply (c : Dev nD) (t : Fin cfg1.N) (d k : Fin 256) :
    (iblk1 V c 3 t : Vec Ideal S256x256 .f32) (ix2 d k) = Cert.Bridge.mat (A := 256) (B := 256) (V c main_arg3) d k := by
  obtain ⟨-, -, -, -, -, -, h0, h1, -⟩ := index1 t
  unfold iblk1 Cert.Bridge.mat
  rw [View.read_apply]
  show V c main_arg3 _ = V c main_arg3 _
  congr 1
  funext ax; apply Fin.ext
  match ax with
  | ⟨0, _⟩ => show win1_3.index t 0 * 256 + 1 * d.val = d.val; rw [h0]; omega
  | ⟨1, _⟩ => show win1_3.index t 1 * 256 + 1 * k.val = k.val; rw [h1]; omega

theorem iblk1_4_apply (c : Dev nD) (t : Fin cfg1.N) (d : Fin 256) :
    (iblk1 V c 4 t : Vec Ideal S256x1 .f32) (ix2 d 0) = Cert.Bridge.vec (A := 256) (V c main_arg5) d := by
  obtain ⟨-, -, -, -, -, -, -, -, h0, h1, -⟩ := index1 t
  unfold iblk1 Cert.Bridge.vec
  rw [View.read_apply]
  show V c main_arg5 _ = V c main_arg5 _
  congr 1
  funext ax; apply Fin.ext
  match ax with
  | ⟨0, _⟩ => show win1_4.index t 0 * 256 + 1 * d.val = d.val; rw [h0]; omega
  | ⟨1, _⟩ => show win1_4.index t 1 * 1 + 1 * 0 = 0; rw [h1]

/-! ### The two sums, step by step -/

/-- Node `n`'s term of the first sum at column `j` and feature `d`, and of the second at column `j`. -/
def term7 (c : Dev nD) (j d n : ℕ) : EReal := Cert.Spec.weight (F1n V c n) * Hn V c n j * XWn V c n d
def term8 (c : Dev nD) (j n : ℕ) : EReal := Cert.Spec.weight (F1n V c n) * Hn V c n j

theorem acc1_congr (c : Dev nD) {n m : ℕ} (e : n = m) (hn : n < cfg1.N) (hm : m < cfg1.N) :
    acc1 V c n hn = acc1 V c m hm := by subst e; rfl

/-- What step `s` of block `q` adds to the first sum: the terms of its 512 nodes. -/
theorem step_sum7 (c : Dev nD) (t : Fin cfg1.N) (q s : ℕ) (hq : t.val / 32 = q) (hs : t.val % 32 = s) (a : Fin 2048) (d : Fin 256) :
    ∑ n' : Fin 512, Cert.Spec.weight ((iblk1 V c 2 t : Vec Ideal S512x1 .f32) (ix2 n' 0))
        * (iblk1 V c 0 t : Vec Ideal S512x2048 .f32) (ix2 n' a) * (iblk1 V c 1 t : Vec Ideal S512x256 .bf16) (ix2 n' d)
      = ∑ n' ∈ Finset.range 512, term7 V c (2048 * q + a) d (512 * s + n') := by
  rw [← Fin.sum_univ_eq_sum_range]
  refine Finset.sum_congr rfl fun n' _ => ?_
  rw [iblk1_0_apply, iblk1_1_apply, iblk1_2_apply, hq, hs]; rfl
/-- and to the second. -/
theorem step_sum8 (c : Dev nD) (t : Fin cfg1.N) (q s : ℕ) (hq : t.val / 32 = q) (hs : t.val % 32 = s) (a : Fin 2048) :
    ∑ n' : Fin 512, Cert.Spec.weight ((iblk1 V c 2 t : Vec Ideal S512x1 .f32) (ix2 n' 0))
        * (iblk1 V c 0 t : Vec Ideal S512x2048 .f32) (ix2 n' a)
      = ∑ n' ∈ Finset.range 512, term8 V c (2048 * q + a) (512 * s + n') := by
  rw [← Fin.sum_univ_eq_sum_range]
  refine Finset.sum_congr rfl fun n' _ => ?_
  rw [iblk1_0_apply, iblk1_2_apply, hq, hs]; rfl

/-- After step `s` of block `q` the carried buffers hold the sums over the first `512 · (s + 1)` nodes. -/
theorem acc1_sum (c : Dev nD) (q : ℕ) : ∀ (s : ℕ) (hs : s < 32) (h : 32 * q + s < cfg1.N) (a : Fin 2048) (d : Fin 256),
    (acc1 V c (32 * q + s) h).1 (ix2 a d) = ∑ n ∈ Finset.range (512 * (s + 1)), term7 V c (2048 * q + a) d n
    ∧ (acc1 V c (32 * q + s) h).2 (ix2 a 0) = ∑ n ∈ Finset.range (512 * (s + 1)), term8 V c (2048 * q + a) n
  | 0, hs, h, a, d => by
    have e := acc1_first V c ⟨32 * q + 0, h⟩ (by show (32 * q + 0) % 32 = 0; omega)
    have hq : (⟨32 * q + 0, h⟩ : Fin cfg1.N).val / 32 = q := by show (32 * q + 0) / 32 = q; omega
    have hs0 : (⟨32 * q + 0, h⟩ : Fin cfg1.N).val % 32 = 0 := by show (32 * q + 0) % 32 = 0; omega
    constructor
    · rw [show acc1 V c (32 * q + 0) h = _ from e]
      show k1_pay7 _ _ _ k1_pay4 (ix2 a d) = _
      rw [pay7_apply, pay4_apply, zero_add, step_sum7 V c _ q 0 hq hs0]
      refine Finset.sum_congr rfl fun n _ => ?_
      rw [Nat.mul_zero, Nat.zero_add]
    · rw [show acc1 V c (32 * q + 0) h = _ from e]
      show k1_pay8 _ _ k1_pay5 (ix2 a 0) = _
      rw [pay8_apply, pay5_apply, zero_add, step_sum8 V c _ q 0 hq hs0]
      refine Finset.sum_congr rfl fun n _ => ?_
      rw [Nat.mul_zero, Nat.zero_add]
  | s + 1, hs, h, a, d => by
    have ih := acc1_sum c q s (by omega) (Nat.lt_of_succ_lt h) a
    have e := acc1_later V c ⟨32 * q + (s + 1), h⟩ (by show ¬(32 * q + (s + 1)) % 32 = 0; omega)
    have hq : (⟨32 * q + (s + 1), h⟩ : Fin cfg1.N).val / 32 = q := by show (32 * q + (s + 1)) / 32 = q; omega
    have hs1 : (⟨32 * q + (s + 1), h⟩ : Fin cfg1.N).val % 32 = s + 1 := by show (32 * q + (s + 1)) % 32 = s + 1; omega
    have ep := acc1_congr V c (show (⟨32 * q + (s + 1), h⟩ : Fin cfg1.N).val - 1 = 32 * q + s from by show 32 * q + (s + 1) - 1 = _; omega)
      (Nat.lt_of_le_of_lt (Nat.sub_le _ _) h) (Nat.lt_of_succ_lt h)
    rw [ep] at e
    have hr : 512 * (s + 1 + 1) = 512 * (s + 1) + 512 := by omega
    constructor
    · rw [show acc1 V c (32 * q + (s + 1)) h = _ from e]
      show k1_pay7 _ _ _ (acc1 V c (32 * q + s) _).1 (ix2 a d) = _
      rw [pay7_apply, (ih d).1, step_sum7 V c _ q (s + 1) hq hs1, hr, Finset.sum_range_add]
    · rw [show acc1 V c (32 * q + (s + 1)) h = _ from e]
      show k1_pay8 _ _ (acc1 V c (32 * q + s) _).2 (ix2 a 0) = _
      rw [pay8_apply, (ih d).2, step_sum8 V c _ q (s + 1) hq hs1, hr, Finset.sum_range_add]

/-! ### The sums over all nodes -/

theorem sum7_fin (c : Dev nD) (j : Fin 4096) (d : Fin 256) :
    ∑ n : Fin 16384, E1 V c n j * Cert.Bridge.mat (A := 16384) (B := 256) (V c main_v2_0) n d
      = ∑ n ∈ Finset.range 16384, term7 V c j d n := by
  rw [← Fin.sum_univ_eq_sum_range]
  refine Finset.sum_congr rfl fun n _ => ?_
  unfold term7 F1n Hn XWn E1
  rw [dif_pos n.isLt, dif_pos ⟨n.isLt, j.isLt⟩, dif_pos ⟨n.isLt, d.isLt⟩]
theorem sum8_fin (c : Dev nD) (j : Fin 4096) :
    ∑ n : Fin 16384, E1 V c n j = ∑ n ∈ Finset.range 16384, term8 V c j n := by
  rw [← Fin.sum_univ_eq_sum_range]
  refine Finset.sum_congr rfl fun n _ => ?_
  unfold term8 F1n Hn E1
  rw [dif_pos n.isLt, dif_pos ⟨n.isLt, j.isLt⟩]

/-- At the last step of block `q` the two carried buffers hold the sums over all nodes. -/
theorem acc1_last (c : Dev nD) (t : Fin cfg1.N) (h31 : t.val % 32 = 31) (a : Fin 2048) (d : Fin 256)
    (j : Fin 4096) (hj : j.val = 2048 * (t.val / 32) + a) :
    (acc1 V c t.val t.isLt).1 (ix2 a d) = ∑ n : Fin 16384, E1 V c n j * Cert.Bridge.mat (A := 16384) (B := 256) (V c main_v2_0) n d
    ∧ (acc1 V c t.val t.isLt).2 (ix2 a 0) = ∑ n : Fin 16384, E1 V c n j := by
  have e : t.val = 32 * (t.val / 32) + 31 := by omega
  have h' : 32 * (t.val / 32) + 31 < cfg1.N := e ▸ t.isLt
  rw [acc1_congr V c e t.isLt h', sum7_fin, sum8_fin, hj]
  exact acc1_sum V c (t.val / 32) 31 (by omega) h' a d

/-- What the last step of a block of columns stores into the block of `fw2`. -/
theorem after5_apply (c : Dev nD) (t : Fin cfg1.N) (h31 : t.val % 32 = 31) (a : Fin 2048) (k : Fin 256)
    (j : Fin 4096) (hj : j.val = 2048 * (t.val / 32) + a) :
    (((dat1 V c).after 5 t : Vec Ideal S2048x256 .bf16) (ix2 a k) : EReal)
      = ∑ d : Fin 256, FK1 V c j d * Cert.Bridge.mat (A := 256) (B := 256) (V c main_arg3) d k := by
  show @Eq EReal _ _
  rw [after1_5]; unfold out1_5
  rw [View.canon_unit_zero zero2, pay3_apply, pay1_apply]
  refine Finset.sum_congr (M := EReal) rfl fun d _ => ?_
  rw [iblk1_3_apply, (acc1_last V c t h31 a d j hj).1, (acc1_last V c t h31 a d j hj).2]; rfl

/-- and into the block of the logit row. -/
theorem after6_apply (c : Dev nD) (t : Fin cfg1.N) (h31 : t.val % 32 = 31) (a : Fin 2048)
    (j : Fin 4096) (hj : j.val = 2048 * (t.val / 32) + a) :
    (((dat1 V c).after 6 t : Vec Ideal S1x2048 .f32) (ix2 0 a) : EReal)
      = ∑ d : Fin 256, Cert.Spec.leaky (∑ d' : Fin 256, FK1 V c j d' * Cert.Bridge.mat (A := 256) (B := 256) (V c main_arg3) d' d)
          * Cert.Bridge.vec (A := 256) (V c main_arg5) d := by
  show @Eq EReal _ _
  rw [after1_6]; unfold out1_6
  rw [View.canon_unit_zero zero2, pay2_apply]
  refine Finset.sum_congr (M := EReal) rfl fun d _ => ?_
  rw [iblk1_4_apply, mul_comm (Cert.Bridge.vec (A := 256) (V c main_arg5) d), pay1_apply]
  refine congrArg (fun x : EReal => Cert.Spec.leaky x * Cert.Bridge.vec (A := 256) (V c main_arg5) d)
    (Finset.sum_congr (M := EReal) rfl fun d' _ => ?_)
  rw [iblk1_3_apply, (acc1_last V c t h31 a d' j hj).1, (acc1_last V c t h31 a d' j hj).2]; rfl

/-! ### The two result arrays after the launch -/

/-- The whole array of `fw2`, and of the logit row, as the launch leaves them. -/
def G5 (c : Dev nD) : S4096x256.Idx → EReal :=
  fun i => ∑ d : Fin 256, FK1 V c (i 0) d * Cert.Bridge.mat (A := 256) (B := 256) (V c main_arg3) d (i 1)
def G6 (c : Dev nD) : S1x4096.Idx → EReal :=
  fun i => ∑ d : Fin 256, Cert.Spec.leaky (∑ d' : Fin 256, FK1 V c (i 1) d' * Cert.Bridge.mat (A := 256) (B := 256) (V c main_arg3) d' d)
    * Cert.Bridge.vec (A := 256) (V c main_arg5) d

/-- Each write-back of `fw2` writes its block of that array. -/
theorem flushed5 (c : Dev nD) (t : Fin cfg1.N) (hf : (cfg1.win 5).flush t = true) :
    (dat1 V c).flushed 5 t = ((cfg1.win 5).blk t).view.read (Elt Ideal) (G5 V c) := by
  have h31 := (flush1_5 t).mp hf
  have hN : t.val < 64 := lt_of_lt_of_eq t.isLt (show cfg1.N = 64 from N_1)
  obtain ⟨-, -, -, -, -, -, -, -, -, -, h0, h1, -⟩ := index1 t
  funext y
  have hy0 : (y 0).val < 2048 := (y 0).isLt
  have hy1 : (y 1).val < 256 := (y 1).isLt
  rw [View.read_apply]
  show ((dat1 V c).after 5 t : Vec Ideal S2048x256 .bf16) y = G5 V c (((cfg1.win 5).blk t).view.emb y)
  rw [eq_ix2 y]
  refine (after5_apply V c t h31 (y 0) (y 1) ⟨2048 * (t.val / 32) + (y 0).val, by omega⟩ rfl).trans ?_
  have e0 : (((cfg1.win 5).blk t).view.emb (ix2 (y 0) (y 1)) : S4096x256.Idx) 0 = (⟨2048 * (t.val / 32) + (y 0).val, by omega⟩ : Fin 4096) :=
    Fin.ext (by show win1_5.index t 0 * 2048 + 1 * (y 0).val = 2048 * (t.val / 32) + (y 0).val; rw [h0]; omega)
  have e1 : (((cfg1.win 5).blk t).view.emb (ix2 (y 0) (y 1)) : S4096x256.Idx) 1 = (y 1 : Fin 256) :=
    Fin.ext (by show win1_5.index t 1 * 256 + 1 * (y 1).val = (y 1).val; rw [h1]; omega)
  show _ = ∑ d : Fin 256, FK1 V c ((((cfg1.win 5).blk t).view.emb (ix2 (y 0) (y 1)) : S4096x256.Idx) 0) d
      * Cert.Bridge.mat (A := 256) (B := 256) (V c main_arg3) d ((((cfg1.win 5).blk t).view.emb (ix2 (y 0) (y 1)) : S4096x256.Idx) 1)
  rw [e0, e1]

/-- Each write-back of the logit row writes its block of that array. -/
theorem flushed6 (c : Dev nD) (t : Fin cfg1.N) (hf : (cfg1.win 6).flush t = true) :
    (dat1 V c).flushed 6 t = ((cfg1.win 6).blk t).view.read (Elt Ideal) (G6 V c) := by
  have h31 := (flush1_6 t).mp hf
  have hN : t.val < 64 := lt_of_lt_of_eq t.isLt (show cfg1.N = 64 from N_1)
  obtain ⟨-, -, -, -, -, -, -, -, -, -, -, -, h0, h1⟩ := index1 t
  funext y
  obtain ⟨y0, y1, rfl⟩ : ∃ (y0 : Fin 1) (y1 : Fin 2048), y = ix2 y0 y1 := ⟨y 0, y 1, eq_ix2 y⟩
  obtain rfl : y0 = 0 := Subsingleton.elim _ _
  have hy1 : y1.val < 2048 := y1.isLt
  rw [View.read_apply]
  show ((dat1 V c).after 6 t : Vec Ideal S1x2048 .f32) (ix2 0 y1) = G6 V c (((cfg1.win 6).blk t).view.emb (ix2 0 y1))
  refine (after6_apply V c t h31 y1 ⟨2048 * (t.val / 32) + y1.val, by omega⟩ rfl).trans ?_
  have e1 : (((cfg1.win 6).blk t).view.emb (ix2 (0 : Fin 1) y1) : S1x4096.Idx) 1 = (⟨2048 * (t.val / 32) + y1.val, by omega⟩ : Fin 4096) :=
    Fin.ext (by show win1_6.index t 1 * 2048 + 1 * y1.val = 2048 * (t.val / 32) + y1.val; rw [h1]; omega)
  show _ = ∑ d : Fin 256, Cert.Spec.leaky (∑ d' : Fin 256, FK1 V c ((((cfg1.win 6).blk t).view.emb (ix2 (0 : Fin 1) y1) : S1x4096.Idx) 1) d'
      * Cert.Bridge.mat (A := 256) (B := 256) (V c main_arg3) d' d) * Cert.Bridge.vec (A := 256) (V c main_arg5) d
  rw [e1]

end Cert.KernelIdeal.Hand.Val1

namespace Cert.KernelIdeal.Hand

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-- THE BLOCK OF `fw2` AFTER THE LAUNCH: the edge features times `w2`. Column `j` lies in the block of columns
    `j / 2048`, whose last step writes it back; no later point touches it. -/
theorem arr1_5 (c : Dev nD) (j : Fin 4096) (k : Fin 256) :
    ((dat1 V c).arrAt 5 cfg1.N : S4096x256.Idx → EReal) (ix2 j k)
      = ∑ d : Fin 256, FK1 V c j d * Cert.Bridge.mat (A := 256) (B := 256) (V c main_arg3) d k := by
  have hN : cfg1.N = 64 := N_1
  have hj : j.val < 4096 := j.isLt
  have ht : 32 * (j.val / 2048) + 31 < cfg1.N := by omega
  have hf : (cfg1.win 5).flush ⟨32 * (j.val / 2048) + 31, ht⟩ = true :=
    (flush1_5 _).mpr (by show (32 * (j.val / 2048) + 31) % 32 = 31; omega)
  obtain ⟨-, -, -, -, -, -, -, -, -, -, h0, h1, -⟩ := Val1.index1 ⟨32 * (j.val / 2048) + 31, ht⟩
  have h := congrFun ((dat1 V c).read_blk_arrAt 5 (Val1.G5 V c) (Val1.flushed5 V c) ⟨32 * (j.val / 2048) + 31, ht⟩ hf)
    (ix2 (⟨j.val % 2048, Nat.mod_lt _ (by decide)⟩ : Fin 2048) k)
  rw [View.read_apply, View.read_apply] at h
  have hemb : (((cfg1.win 5).blk ⟨32 * (j.val / 2048) + 31, ht⟩).view.emb (ix2 (⟨j.val % 2048, Nat.mod_lt _ (by decide)⟩ : Fin 2048) k) : S4096x256.Idx)
      = ix2 j k := by
    funext ax; apply Fin.ext
    match ax with
    | ⟨0, _⟩ =>
      show win1_5.index ⟨32 * (j.val / 2048) + 31, ht⟩ 0 * 2048 + 1 * (j.val % 2048) = j.val
      rw [h0]; show (32 * (j.val / 2048) + 31) / 32 * 2048 + 1 * (j.val % 2048) = j.val; omega
    | ⟨1, _⟩ =>
      show win1_5.index ⟨32 * (j.val / 2048) + 31, ht⟩ 1 * 256 + 1 * k.val = k.val
      rw [h1]; omega
  have h2 : ((dat1 V c).arrAt 5 cfg1.N : S4096x256.Idx → EReal)
        (((cfg1.win 5).blk ⟨32 * (j.val / 2048) + 31, ht⟩).view.emb (ix2 (⟨j.val % 2048, Nat.mod_lt _ (by decide)⟩ : Fin 2048) k))
      = Val1.G5 V c (((cfg1.win 5).blk ⟨32 * (j.val / 2048) + 31, ht⟩).view.emb (ix2 (⟨j.val % 2048, Nat.mod_lt _ (by decide)⟩ : Fin 2048) k)) := h
  rw [hemb] at h2
  exact h2

/-- THE LOGIT ROW AFTER THE LAUNCH: `a21` against the leaky image of that block's rows. -/
theorem arr1_6 (c : Dev nD) (j : Fin 4096) :
    ((dat1 V c).arrAt 6 cfg1.N : S1x4096.Idx → EReal) (ix2 0 j)
      = ∑ d : Fin 256, Cert.Spec.leaky (∑ d' : Fin 256, FK1 V c j d' * Cert.Bridge.mat (A := 256) (B := 256) (V c main_arg3) d' d)
          * Cert.Bridge.vec (A := 256) (V c main_arg5) d := by
  have hN : cfg1.N = 64 := N_1
  have hj : j.val < 4096 := j.isLt
  have ht : 32 * (j.val / 2048) + 31 < cfg1.N := by omega
  have hf : (cfg1.win 6).flush ⟨32 * (j.val / 2048) + 31, ht⟩ = true :=
    (flush1_6 _).mpr (by show (32 * (j.val / 2048) + 31) % 32 = 31; omega)
  obtain ⟨-, -, -, -, -, -, -, -, -, -, -, -, h0, h1⟩ := Val1.index1 ⟨32 * (j.val / 2048) + 31, ht⟩
  have h := congrFun ((dat1 V c).read_blk_arrAt 6 (Val1.G6 V c) (Val1.flushed6 V c) ⟨32 * (j.val / 2048) + 31, ht⟩ hf)
    (ix2 (0 : Fin 1) (⟨j.val % 2048, Nat.mod_lt _ (by decide)⟩ : Fin 2048))
  rw [View.read_apply, View.read_apply] at h
  have hemb : (((cfg1.win 6).blk ⟨32 * (j.val / 2048) + 31, ht⟩).view.emb (ix2 (0 : Fin 1) (⟨j.val % 2048, Nat.mod_lt _ (by decide)⟩ : Fin 2048)) : S1x4096.Idx)
      = ix2 0 j := by
    funext ax; apply Fin.ext
    match ax with
    | ⟨0, _⟩ =>
      show win1_6.index ⟨32 * (j.val / 2048) + 31, ht⟩ 0 * 1 + 1 * 0 = 0
      rw [h0]
    | ⟨1, _⟩ =>
      show win1_6.index ⟨32 * (j.val / 2048) + 31, ht⟩ 1 * 2048 + 1 * (j.val % 2048) = j.val
      rw [h1]; show (32 * (j.val / 2048) + 31) / 32 * 2048 + 1 * (j.val % 2048) = j.val; omega
  have h2 : ((dat1 V c).arrAt 6 cfg1.N : S1x4096.Idx → EReal)
        (((cfg1.win 6).blk ⟨32 * (j.val / 2048) + 31, ht⟩).view.emb (ix2 (0 : Fin 1) (⟨j.val % 2048, Nat.mod_lt _ (by decide)⟩ : Fin 2048)))
      = Val1.G6 V c (((cfg1.win 6).blk ⟨32 * (j.val / 2048) + 31, ht⟩).view.emb (ix2 (0 : Fin 1) (⟨j.val % 2048, Nat.mod_lt _ (by decide)⟩ : Fin 2048))) := h
  rw [hemb] at h2
  exact h2

end Cert.KernelIdeal.Hand

end
-- ==== Proof.lean ====
/-
  The certificate's five claims.

  The kernel is three launches. The first forms `xw = x · w1` and the two node logits; the second streams the node-by-edge
  weights `H` once, accumulating for each edge the weighted sum of `xw` and the total weight over all nodes, and at the last
  step divides the one by the other, multiplies by `w2` and forms the edge logits; the third streams `H` again, forms each node's
  edge weights and their total, multiplies by the second launch's result and divides by the total. The reference is the same
  computation with each division done before its sum instead of after it. Over real numbers with nonzero divisors the two agree
  (`Cert.Spec.law`); a zero divisor is where they part, and where the reference itself divides by zero, so the statement asks,
  beside finite arguments, that the reference's two divisors — its own column sums and row sums — be nonzero everywhere.

  The frames: each program runs to the end, faults nowhere and leaves its arguments as launched. For the two kernel programs
  this is one run of the host's reshapes and the three launches as four segments (`Hand.frame_any`, which holds at either
  float instance); for the reference it is its run with the result dropped. The idealized kernel is the kernel's own program
  read over the extended reals: no operation was rewritten, so there is nothing to preserve. The algebraic claim: the kernel's result
  array is `Spec.outK` of the arguments (the three launches' values composed), the reference's is `Spec.outR`, and the
  precondition gives exactly the law's hypotheses.
-/
import proofs.«428716_j47717086658967_3_alg».proof.Defs
import proofs.«428716_j47717086658967_3_alg».proof.Proof.Gen.Kernel
import proofs.«428716_j47717086658967_3_alg».proof.Proof.Gen.KernelIdeal
import proofs.«428716_j47717086658967_3_alg».proof.Proof.Gen.ReferenceIdeal
import proofs.«428716_j47717086658967_3_alg».proof.Proof.Gen.Pre_finite_inputs
import proofs.«428716_j47717086658967_3_alg».proof.Proof.Kernel.Frame
import proofs.«428716_j47717086658967_3_alg».proof.Proof.KernelIdeal.Frame
import proofs.«428716_j47717086658967_3_alg».proof.Proof.RefRun
import proofs.«428716_j47717086658967_3_alg».proof.Proof.RefIsSpec
import proofs.«428716_j47717086658967_3_alg».proof.Proof.PreGives
import proofs.«428716_j47717086658967_3_alg».proof.Proof.SpecLaw
import proofs.«428716_j47717086658967_3_alg».proof.Proof.KernelIdeal.KernelIsSpec
import proofs.«428716_j47717086658967_3_alg».proof.Proof.KernelIdeal.Val1

noncomputable section

namespace Cert.Proof

open Idealize.ShloMosaic Idealize.SL.Sem Idealize.ShloMosaic.ValueIdx Cert.Bridge

section Claims
variable [hK : Cert.Kernel.Facts] [hKI : Cert.KernelIdeal.Facts] [hR : Cert.ReferenceIdeal.Facts] [hP : Cert.Pre_finite_inputs.Facts]

theorem frame_k : Cert.frame_Kernel := fun m ρ _ => Cert.Kernel.Hand.frame_any m ρ
theorem frame_ki : Cert.frame_KernelIdeal := fun m ρ _ => Cert.KernelIdeal.Hand.frame_any m ρ
theorem frame_ri : Cert.frame_ReferenceIdeal := fun m ρ _ =>
  (θ_run Cert.ReferenceIdeal.defs _ _).mono (fun _ h c => (h c).2) (Cert.ReferenceIdeal.ValueP.run (F := Ideal) m ρ)
theorem preserves : Cert.preserves_Kernel_KernelIdeal := trivial

/-- The algebraic claim, from the second launch's two value facts (what its two result arrays hold after the launch, as
    functions of its entry contents): the kernel's result array is `Spec.outK` of the arguments, entry by entry (the three
    launches' values composed along the run); the reference's is `Spec.outR` of the same arguments; and the precondition, read
    at the kernel's arguments, gives what the law between the two arrangements asks. -/
theorem algebraic_of (h15 : Cert.KernelIdeal.Hand.Comp.Val15) (h16 : Cert.KernelIdeal.Hand.Comp.Val16) :
    Cert.algebraic_KernelIdeal_ReferenceIdeal := by
  intro m ρ m' ρ' hpre hagree
  refine ⟨fun c => fun i => Cert.Spec.outK (mat (m ((c.tc : Thread Cert.KernelIdeal.nD Cert.KernelIdeal.τ).loc Cert.KernelIdeal.main_arg0))) (mat (m ((c.tc : Thread Cert.KernelIdeal.nD Cert.KernelIdeal.τ).loc Cert.KernelIdeal.main_arg1))) (mat (m ((c.tc : Thread Cert.KernelIdeal.nD Cert.KernelIdeal.τ).loc Cert.KernelIdeal.main_arg2))) (mat (m ((c.tc : Thread Cert.KernelIdeal.nD Cert.KernelIdeal.τ).loc Cert.KernelIdeal.main_arg3))) (vec (m ((c.tc : Thread Cert.KernelIdeal.nD Cert.KernelIdeal.τ).loc Cert.KernelIdeal.main_arg4))) (vec (m ((c.tc : Thread Cert.KernelIdeal.nD Cert.KernelIdeal.τ).loc Cert.KernelIdeal.main_arg5))) (vec (m ((c.tc : Thread Cert.KernelIdeal.nD Cert.KernelIdeal.τ).loc Cert.KernelIdeal.main_arg6))) (i 0) (i 1), ?_, ?_⟩
  · -- the kernel: the run names the result's array; the composition reads it
    refine (θ_run Cert.KernelIdeal.defs _ _).mono (fun r h c => ⟨(h c).1.trans ?_, (h c).2⟩)
      (Cert.KernelIdeal.Hand.result_any (F := Ideal) m ρ)
    funext i
    obtain ⟨n, k, rfl⟩ : ∃ (n : Fin 16384) (k : Fin 256), i = ix2 n k := ⟨i 0, i 1, eq_ix2 i⟩
    exact Cert.KernelIdeal.Hand.kernel_is_outK m h15 h16 c n k
  · -- the reference: its run's result term is its last stage, of arguments that agree with the kernel's
    refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v60_eq, (hagree c).1, (hagree c).2.1, (hagree c).2.2.1, (hagree c).2.2.2.1,
      (hagree c).2.2.2.2.1, (hagree c).2.2.2.2.2.1, (hagree c).2.2.2.2.2.2]
    funext i
    obtain ⟨n, k, rfl⟩ : ∃ (n : Fin 16384) (k : Fin 256), i = ix2 n k := ⟨i 0, i 1, eq_ix2 i⟩
    rw [Cert.RefIsSpec.ref_is_outR]
    obtain ⟨hx, hH, hw1, hw2, ha1, ha21, ha22, hcol, hrow⟩ := Cert.PreGives.pre_gives _ _ _ _ _ _ _ (hpre c)
    exact (Cert.Spec.law _ _ _ _ _ _ _ hx hH hw1 hw2 ha1 ha21 ha22 hcol hrow n k).symm

/-- The second launch's two value facts, in the forms the composition takes them. -/
theorem val15 : Cert.KernelIdeal.Hand.Comp.Val15 := by
  intro V c j k
  have h := Cert.KernelIdeal.Hand.arr1_5 V c j k
  simpa only [Cert.KernelIdeal.Hand.E1, Cert.KernelIdeal.Hand.FK1, Cert.KernelIdeal.Hand.Comp.E1, Cert.KernelIdeal.Hand.Comp.FK1] using h
theorem val16 : Cert.KernelIdeal.Hand.Comp.Val16 := by
  intro V c j
  have h := Cert.KernelIdeal.Hand.arr1_6 V c j
  simpa only [Cert.KernelIdeal.Hand.E1, Cert.KernelIdeal.Hand.FK1, Cert.KernelIdeal.Hand.Comp.E1, Cert.KernelIdeal.Hand.Comp.FK1] using h

theorem algebraic : Cert.algebraic_KernelIdeal_ReferenceIdeal := algebraic_of val15 val16

end Claims

/-- Everything the certificate claims, under the witnesses of the programs' stated side conditions. -/
theorem claim : Cert.Claim :=
  ⟨Cert.Kernel.Gen.facts, Cert.KernelIdeal.Gen.facts, Cert.ReferenceIdeal.Gen.facts, Cert.Pre_finite_inputs.Gen.facts,
    frame_k (hK := Cert.Kernel.Gen.facts) (hP := Cert.Pre_finite_inputs.Gen.facts),
    frame_ki (hKI := Cert.KernelIdeal.Gen.facts) (hP := Cert.Pre_finite_inputs.Gen.facts),
    frame_ri (hR := Cert.ReferenceIdeal.Gen.facts) (hP := Cert.Pre_finite_inputs.Gen.facts),
    preserves,
    algebraic (hKI := Cert.KernelIdeal.Gen.facts) (hR := Cert.ReferenceIdeal.Gen.facts) (hP := Cert.Pre_finite_inputs.Gen.facts)⟩

end Cert.Proof

end
